-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S8192x2048 : Shape := ⟨2, ![8192, 2048]⟩
abbrev S8192x8192 : Shape := ⟨2, ![8192, 8192]⟩
abbrev S8192x100 : Shape := ⟨2, ![8192, 100]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S8192x100 : S_.BroadcastsInDim S8192x100 (![] : Fin 0 → Fin S8192x100.rank)
  reducesTo_S8192x100_S_d0_1 : S8192x100.ReducesTo [0, 1] S_

variable [Facts]

def fn_part2 {F : FTy → Type} [FloatOps F] (main_arg7 : FVec F S8192x100 .f32) (main_arg8 : FVec F S8192x100 .f32) (main_arg9 : FVec F S8192x100 .f32) (main_v33 : IVec S_ 1) : IVec S_ 1 :=
  let main_v34 : FVec F S8192x100 .f32 := Host.absf main_arg7
  let main_cst_12 : FVec F S_ .f32 := constant S_ .f32 0x7F800000#32
  let main_v35 : FVec F S8192x100 .f32 := broadcastInDim S8192x100 ![] bcast_S_S8192x100 main_cst_12
  let main_v36 : IVec S8192x100 1 := cmpf .olt main_v34 main_v35
  let main_c_13 : IVec S_ 1 := constantI S_ 1 1#1
  let main_v37 : IVec S_ 1 := (fun x v => Host.reduce IntOp.andi x v reducesTo_S8192x100_S_d0_1 h_S_) main_v36 main_c_13
  let main_v38 : IVec S_ 1 := andi main_v33 main_v37
  let main_v39 : FVec F S8192x100 .f32 := Host.absf main_arg8
  let main_cst_14 : FVec F S_ .f32 := constant S_ .f32 0x7F800000#32
  let main_v40 : FVec F S8192x100 .f32 := broadcastInDim S8192x100 ![] bcast_S_S8192x100 main_cst_14
  let main_v41 : IVec S8192x100 1 := cmpf .olt main_v39 main_v40
  let main_c_15 : IVec S_ 1 := constantI S_ 1 1#1
  let main_v42 : IVec S_ 1 := (fun x v => Host.reduce IntOp.andi x v reducesTo_S8192x100_S_d0_1 h_S_) main_v41 main_c_15
  let main_v43 : IVec S_ 1 := andi main_v38 main_v42
  let main_v44 : FVec F S8192x100 .f32 := Host.absf main_arg9
  let main_cst_16 : FVec F S_ .f32 := constant S_ .f32 0x7F800000#32
  let main_v45 : FVec F S8192x100 .f32 := broadcastInDim S8192x100 ![] bcast_S_S8192x100 main_cst_16
  let main_v46 : IVec S8192x100 1 := cmpf .olt main_v44 main_v45
  let main_c_17 : IVec S_ 1 := constantI S_ 1 1#1
  let main_v47 : IVec S_ 1 := (fun x v => Host.reduce IntOp.andi x v reducesTo_S8192x100_S_d0_1 h_S_) main_v46 main_c_17
  let main_v48 : IVec S_ 1 := andi main_v43 main_v47
  main_v48

def fn_part1 {F : FTy → Type} [FloatOps F] (main_arg4 : FVec F S8192x8192 .f32) (main_arg5 : FVec F S8192x8192 .f32) (main_arg6 : FVec F S8192x8192 .f32) (main_arg7 : FVec F S8192x100 .f32) (main_arg8 : FVec F S8192x100 .f32) (main_arg9 : FVec F S8192x100 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x2048 .f32) (main_arg1 : FVec F S8192x2048 .f32) (main_arg2 : FVec F S8192x2048 .f32) (main_arg3 : FVec F S8192x8192 .f32) (main_arg4 : FVec F S8192x8192 .f32) (main_arg5 : FVec F S8192x8192 .f32) (main_arg6 : FVec F S8192x8192 .f32) (main_arg7 : FVec F S8192x100 .f32) (main_arg8 : FVec F S8192x100 .f32) (main_arg9 : FVec F S8192x100 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_v13 main_v16
-- ==== Kernel.lean ====
abbrev S64x2048 : Shape := ⟨2, ![64, 2048]⟩
abbrev S8192x2048 : Shape := ⟨2, ![8192, 2048]⟩
abbrev S8192x8192 : Shape := ⟨2, ![8192, 8192]⟩
abbrev S8192x100 : Shape := ⟨2, ![8192, 100]⟩
abbrev S_ : Shape := ⟨0, ![]⟩
abbrev S64x8192 : Shape := ⟨2, ![64, 8192]⟩
abbrev S512x2048 : Shape := ⟨2, ![512, 2048]⟩
abbrev S64x512 : Shape := ⟨2, ![64, 512]⟩
abbrev S128x8192 : Shape := ⟨2, ![128, 8192]⟩
abbrev S64x128 : Shape := ⟨2, ![64, 128]⟩
abbrev S64x100 : Shape := ⟨2, ![64, 100]⟩
abbrev S64x1024 : Shape := ⟨2, ![64, 1024]⟩
abbrev S1024x100 : Shape := ⟨2, ![1024, 100]⟩

abbrev nBuf : Space → Nat
  | .hbm => 18
  | .vmem => 35
  | .smem => 0
  | _ => 0

abbrev bufTy : (tb : Table) → Fin (tcTables nBuf tb) → BufTy
  | .hbm, ⟨0, _⟩ => ⟨S64x2048, .f32⟩
  | .hbm, ⟨1, _⟩ => ⟨S8192x2048, .f32⟩
  | .hbm, ⟨2, _⟩ => ⟨S8192x2048, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x100, .f32⟩
  | .hbm, ⟨8, _⟩ => ⟨S8192x100, .f32⟩
  | .hbm, ⟨9, _⟩ => ⟨S8192x100, .f32⟩
  | .hbm, ⟨10, _⟩ => ⟨S_, .f32⟩
  | .hbm, ⟨11, _⟩ => ⟨S64x2048, .f32⟩
  | .hbm, ⟨12, _⟩ => ⟨S64x2048, .i1⟩
  | .hbm, ⟨13, _⟩ => ⟨S64x2048, .f32⟩
  | .hbm, ⟨14, _⟩ => ⟨S64x8192, .f32⟩
  | .hbm, ⟨15, _⟩ => ⟨S64x8192, .f32⟩
  | .hbm, ⟨16, _⟩ => ⟨S64x8192, .f32⟩
  | .hbm, ⟨17, _⟩ => ⟨S64x100, .f32⟩
  | .local _ .vmem, ⟨0, _⟩ => ⟨S64x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S64x512, .f32⟩
  | .local _ .vmem, ⟨6, _⟩ => ⟨S64x512, .f32⟩
  | .local _ .vmem, ⟨7, _⟩ => ⟨S64x8192, .f32⟩
  | .local _ .vmem, ⟨8, _⟩ => ⟨S128x8192, .f32⟩
  | .local _ .vmem, ⟨9, _⟩ => ⟨S128x8192, .f32⟩
  | .local _ .vmem, ⟨10, _⟩ => ⟨S128x8192, .f32⟩
  | .local _ .vmem, ⟨11, _⟩ => ⟨S128x8192, .f32⟩
  | .local _ .vmem, ⟨12, _⟩ => ⟨S64x128, .f32⟩
  | .local _ .vmem, ⟨13, _⟩ => ⟨S64x128, .f32⟩
  | .local _ .vmem, ⟨14, _⟩ => ⟨S64x8192, .f32⟩
  | .local _ .vmem, ⟨15, _⟩ => ⟨S128x8192, .f32⟩
  | .local _ .vmem, ⟨16, _⟩ => ⟨S128x8192, .f32⟩
  | .local _ .vmem, ⟨17, _⟩ => ⟨S128x8192, .f32⟩
  | .local _ .vmem, ⟨18, _⟩ => ⟨S128x8192, .f32⟩
  | .local _ .vmem, ⟨19, _⟩ => ⟨S64x128, .f32⟩
  | .local _ .vmem, ⟨20, _⟩ => ⟨S64x128, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S1024x100, .f32⟩
  | .local _ .vmem, ⟨28, _⟩ => ⟨S1024x100, .f32⟩
  | .local _ .vmem, ⟨29, _⟩ => ⟨S1024x100, .f32⟩
  | .local _ .vmem, ⟨30, _⟩ => ⟨S1024x100, .f32⟩
  | .local _ .vmem, ⟨31, _⟩ => ⟨S1024x100, .f32⟩
  | .local _ .vmem, ⟨32, _⟩ => ⟨S1024x100, .f32⟩
  | .local _ .vmem, ⟨33, _⟩ => ⟨S64x100, .f32⟩
  | .local _ .vmem, ⟨34, _⟩ => ⟨S64x100, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_scratch0 : Ref sig .tc := ⟨.vmem, 34, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc3_sem5_0 : DmaSem sig := 31
abbrev cc3_sem5_1 : DmaSem sig := 32
abbrev cc3_sem6_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S64x8192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_18 : BitVec 32 := 0#32
  let v30 : BitVec 1 := Scalar.cmpi .ne v29 c0_i32_18
  v30

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S64x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x100 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x100 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1024x100 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S64x100 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  bcast_S_S64x2048 : S_.BroadcastsInDim S64x2048 (![] : Fin 0 → Fin S64x2048.rank)
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  natLt_1_32 : 1 < 32
  inb_S64x512_S64x512_0_0 : ∀ a, (![0, 0] : Fin 2 → Nat) a + S64x512.size a ≤ S64x512.size a
  h_S64x512 : 0 < S64x512.numel
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S128x8192_S128x8192_0_0 : ∀ a, (![0, 0] : Fin 2 → Nat) a + S128x8192.size a ≤ S128x8192.size a
  h_S128x8192 : 0 < S128x8192.numel
  inb_S64x128_S64x128_0_0 : ∀ a, (![0, 0] : Fin 2 → Nat) a + S64x128.size a ≤ S64x128.size a
  h_S64x128 : 0 < S64x128.numel
  inb_S64x100_S64x100_0_0 : ∀ a, (![0, 0] : Fin 2 → Nat) a + S64x100.size a ≤ S64x100.size a
  h_S64x100 : 0 < S64x100.numel
  shapeCasts_S64x100_S64x100 : S64x100.ShapeCasts S64x100
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x100_S1024x100_0_0 : ∀ a, (![0, 0] : Fin 2 → Nat) a + S1024x100.size a ≤ S1024x100.size a
  h_S1024x100 : 0 < S1024x100.numel
  dot_S64x2048_S512x2048_S64x512_1_1_0_0_n_n_wf : DotDims.WF S64x2048 S512x2048 S64x512 [1] [1] [0] [0] [] []
  dot_S64x8192_S128x8192_S64x128_1_1_0_0_n_n_wf : DotDims.WF S64x8192 S128x8192 S64x128 [1] [1] [0] [0] [] []
  dot_S64x1024_S1024x100_S64x100_1_0_0_1_n_n_wf : DotDims.WF S64x1024 S1024x100 S64x100 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x8192.size a
  hwx0_3 : ∀ i : grid0.Coords, EltTy.bits .f32 = 32 ∨ (Rect.block (s := S64x8192) S64x512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S64x8192.size a
  hwx1_0 : ∀ i : grid1.Coords, EltTy.bits .f32 = 32 ∨ (Rect.block (s := S64x8192) S64x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8192.size a ≤ S8192x8192.size a
  hwx1_1 : ∀ i : grid1.Coords, EltTy.bits .f32 = 32 ∨ (Rect.block (s := S8192x8192) S128x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x8192.size a ≤ S8192x8192.size a
  hwx1_2 : ∀ i : grid1.Coords, EltTy.bits .f32 = 32 ∨ (Rect.block (s := S8192x8192) S128x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x8192.size a
  hwx1_3 : ∀ i : grid1.Coords, EltTy.bits .f32 = 32 ∨ (Rect.block (s := S64x8192) S64x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x8192.size a ≤ S64x8192.size a
  hwx2_0 : ∀ i : grid2.Coords, EltTy.bits .f32 = 32 ∨ (Rect.block (s := S64x8192) S64x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x8192.size a ≤ S8192x8192.size a
  hwx2_1 : ∀ i : grid2.Coords, EltTy.bits .f32 = 32 ∨ (Rect.block (s := S8192x8192) S128x8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x8192.size a ≤ S8192x8192.size a
  hwx2_2 : ∀ i : grid2.Coords, EltTy.bits .f32 = 32 ∨ (Rect.block (s := S8192x8192) S128x8192.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x8192.size a
  hwx2_3 : ∀ i : grid2.Coords, EltTy.bits .f32 = 32 ∨ (Rect.block (s := S64x8192) S64x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x1024.size a ≤ S64x8192.size a
  hwx3_0 : ∀ i : grid3.Coords, EltTy.bits .f32 = 32 ∨ (Rect.block (s := S64x8192) S64x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x1024.size a ≤ S64x8192.size a
  hwx3_1 : ∀ i : grid3.Coords, EltTy.bits .f32 = 32 ∨ (Rect.block (s := S64x8192) S64x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S64x1024.size a ≤ S64x8192.size a
  hwx3_2 : ∀ i : grid3.Coords, EltTy.bits .f32 = 32 ∨ (Rect.block (s := S64x8192) S64x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x100.size a ≤ S8192x100.size a
  hwx3_3 : ∀ i : grid3.Coords, EltTy.bits .f32 = 32 ∨ (Rect.block (s := S8192x100) S1024x100.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x100.size a ≤ S8192x100.size a
  hwx3_4 : ∀ i : grid3.Coords, EltTy.bits .f32 = 32 ∨ (Rect.block (s := S8192x100) S1024x100.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x100.size a ≤ S8192x100.size a
  hwx3_5 : ∀ i : grid3.Coords, EltTy.bits .f32 = 32 ∨ (Rect.block (s := S8192x100) S1024x100.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x100.size a ≤ S64x100.size a
  hwx3_6 : ∀ i : grid3.Coords, EltTy.bits .f32 = 32 ∨ (Rect.block (s := S64x100) S64x100.size (cc3_transform_6 i) (hinb3_6 i)).WholeWords (EltTy.packing .f32)

variable [Facts₀]

def dot_S64x2048_S512x2048_S64x512_1_1_0_0_n_n : DotDims S64x2048 S512x2048 S64x512 where
  lhsContracting := [1]
  rhsContracting := [1]
  lhsNonContracting := [0]
  rhsNonContracting := [0]
  lhsBatch := []
  rhsBatch := []
  wf := dot_S64x2048_S512x2048_S64x512_1_1_0_0_n_n_wf
def dot_S64x8192_S128x8192_S64x128_1_1_0_0_n_n : DotDims S64x8192 S128x8192 S64x128 where
  lhsContracting := [1]
  rhsContracting := [1]
  lhsNonContracting := [0]
  rhsNonContracting := [0]
  lhsBatch := []
  rhsBatch := []
  wf := dot_S64x8192_S128x8192_S64x128_1_1_0_0_n_n_wf
def dot_S64x1024_S1024x100_S64x100_1_0_0_1_n_n : DotDims S64x1024 S1024x100 S64x100 where
  lhsContracting := [1]
  rhsContracting := [0]
  lhsNonContracting := [0]
  rhsNonContracting := [1]
  lhsBatch := []
  rhsBatch := []
  wf := dot_S64x1024_S1024x100_S64x100_1_0_0_1_n_n_wf

abbrev win0_0 : Pipeline.Window sig grid0 :=
  Pipeline.Window.ofSpec (Memref.whole main_v2) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S64x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S64x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S64x8192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x8192.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S64x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S64x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S64x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S64x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S1024x100.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S1024x100.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S1024x100.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v6) S64x100.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S64x2048 : Shape := ⟨2, ![64, 2048]⟩
abbrev S8192x2048 : Shape := ⟨2, ![8192, 2048]⟩
abbrev S8192x8192 : Shape := ⟨2, ![8192, 8192]⟩
abbrev S8192x100 : Shape := ⟨2, ![8192, 100]⟩
abbrev S_ : Shape := ⟨0, ![]⟩
abbrev S2048x8192 : Shape := ⟨2, ![2048, 8192]⟩
abbrev S64x8192 : Shape := ⟨2, ![64, 8192]⟩
abbrev S64x100 : Shape := ⟨2, ![64, 100]⟩

abbrev nBuf : Space → Nat
  | .hbm => 55
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S8192x2048, .f32⟩
  | .hbm, ⟨2, _⟩ => ⟨S8192x2048, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x100, .f32⟩
  | .hbm, ⟨8, _⟩ => ⟨S8192x100, .f32⟩
  | .hbm, ⟨9, _⟩ => ⟨S8192x100, .f32⟩
  | .hbm, ⟨10, _⟩ => ⟨S_, .f32⟩
  | .hbm, ⟨11, _⟩ => ⟨S64x2048, .f32⟩
  | .hbm, ⟨12, _⟩ => ⟨S64x2048, .i1⟩
  | .hbm, ⟨13, _⟩ => ⟨S64x2048, .f32⟩
  | .hbm, ⟨14, _⟩ => ⟨S2048x8192, .f32⟩
  | .hbm, ⟨15, _⟩ => ⟨S64x8192, .f32⟩
  | .hbm, ⟨16, _⟩ => ⟨S2048x8192, .f32⟩
  | .hbm, ⟨17, _⟩ => ⟨S64x8192, .f32⟩
  | .hbm, ⟨18, _⟩ => ⟨S_, .f32⟩
  | .hbm, ⟨19, _⟩ => ⟨S64x8192, .f32⟩
  | .hbm, ⟨20, _⟩ => ⟨S64x8192, .i1⟩
  | .hbm, ⟨21, _⟩ => ⟨S_, .f32⟩
  | .hbm, ⟨22, _⟩ => ⟨S64x8192, .f32⟩
  | .hbm, ⟨23, _⟩ => ⟨S64x8192, .i1⟩
  | .hbm, ⟨24, _⟩ => ⟨S64x8192, .i1⟩
  | .hbm, ⟨25, _⟩ => ⟨S64x8192, .f32⟩
  | .hbm, ⟨26, _⟩ => ⟨S8192x8192, .f32⟩
  | .hbm, ⟨27, _⟩ => ⟨S64x8192, .f32⟩
  | .hbm, ⟨28, _⟩ => ⟨S8192x8192, .f32⟩
  | .hbm, ⟨29, _⟩ => ⟨S64x8192, .f32⟩
  | .hbm, ⟨30, _⟩ => ⟨S_, .f32⟩
  | .hbm, ⟨31, _⟩ => ⟨S64x8192, .f32⟩
  | .hbm, ⟨32, _⟩ => ⟨S64x8192, .i1⟩
  | .hbm, ⟨33, _⟩ => ⟨S_, .f32⟩
  | .hbm, ⟨34, _⟩ => ⟨S64x8192, .f32⟩
  | .hbm, ⟨35, _⟩ => ⟨S64x8192, .i1⟩
  | .hbm, ⟨36, _⟩ => ⟨S64x8192, .i1⟩
  | .hbm, ⟨37, _⟩ => ⟨S64x8192, .f32⟩
  | .hbm, ⟨38, _⟩ => ⟨S8192x8192, .f32⟩
  | .hbm, ⟨39, _⟩ => ⟨S64x8192, .f32⟩
  | .hbm, ⟨40, _⟩ => ⟨S8192x8192, .f32⟩
  | .hbm, ⟨41, _⟩ => ⟨S64x8192, .f32⟩
  | .hbm, ⟨42, _⟩ => ⟨S_, .f32⟩
  | .hbm, ⟨43, _⟩ => ⟨S64x8192, .f32⟩
  | .hbm, ⟨44, _⟩ => ⟨S64x8192, .i1⟩
  | .hbm, ⟨45, _⟩ => ⟨S_, .f32⟩
  | .hbm, ⟨46, _⟩ => ⟨S64x8192, .f32⟩
  | .hbm, ⟨47, _⟩ => ⟨S64x8192, .i1⟩
  | .hbm, ⟨48, _⟩ => ⟨S64x8192, .i1⟩
  | .hbm, ⟨49, _⟩ => ⟨S64x8192, .f32⟩
  | .hbm, ⟨50, _⟩ => ⟨S64x100, .f32⟩
  | .hbm, ⟨51, _⟩ => ⟨S64x100, .f32⟩
  | .hbm, ⟨52, _⟩ => ⟨S64x100, .f32⟩
  | .hbm, ⟨53, _⟩ => ⟨S64x100, .f32⟩
  | .hbm, ⟨54, _⟩ => ⟨S64x100, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  transposes_S8192x2048_S2048x8192_1_0 : S8192x2048.Transposes [1, 0] S2048x8192
  bcast_S_S64x8192 : S_.BroadcastsInDim S64x8192 (![] : Fin 0 → Fin S64x8192.rank)
  transposes_S8192x8192_S8192x8192_1_0 : S8192x8192.Transposes [1, 0] S8192x8192
  dot_S64x2048_S2048x8192_S64x8192_1_0_0_1_n_n_wf : DotDims.WF S64x2048 S2048x8192 S64x8192 [1] [0] [0] [1] [] []
  dot_S64x8192_S8192x8192_S64x8192_1_0_0_1_n_n_wf : DotDims.WF S64x8192 S8192x8192 S64x8192 [1] [0] [0] [1] [] []
  dot_S64x8192_S8192x100_S64x100_1_0_0_1_n_n_wf : DotDims.WF S64x8192 S8192x100 S64x100 [1] [0] [0] [1] [] []

variable [Facts₀]

def dot_S64x2048_S2048x8192_S64x8192_1_0_0_1_n_n : DotDims S64x2048 S2048x8192 S64x8192 where
  lhsContracting := [1]
  rhsContracting := [0]
  lhsNonContracting := [0]
  rhsNonContracting := [1]
  lhsBatch := []
  rhsBatch := []
  wf := dot_S64x2048_S2048x8192_S64x8192_1_0_0_1_n_n_wf
def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf
def dot_S64x8192_S8192x100_S64x100_1_0_0_1_n_n : DotDims S64x8192 S8192x100 S64x100 where
  lhsContracting := [1]
  rhsContracting := [0]
  lhsNonContracting := [0]
  rhsNonContracting := [1]
  lhsBatch := []
  rhsBatch := []
  wf := dot_S64x8192_S8192x100_S64x100_1_0_0_1_n_n_wf

class Facts : Prop extends Facts₀ where

variable [Facts]
-- ==== Proof.K.Layer0.lean ====
/-
  One thresholded layer's pallas_call (pipeline `cfg0` over `grid0`, its neurons cut into blocks along the grid) at a
  PARAMETER `V`, the TensorCore's buffer contents when the region is entered.  At point `t` the body reads the whole
  activation block (`S64x2048`, the same block at every point), block `t` of the rows of each of the two segment matrices
  (`S512x2048`), and stores into the output block (`S64x512`: columns of the layer's output) ONE value, the payload
  `k0_pay1` of the three loaded blocks.  So the proof data is: each input's staging buffer holds its block of the entry
  contents, the output's holds that payload of the three blocks; the body's triple is one symbolic run; nothing is owed
  and the invariant is the untouched scoped rest.
-/
import proofs.«162072_j90048284328142_1_alg».proof.Proof.Gen.Kernel.Launch
import proofs.«162072_j90048284328142_1_alg».proof.Proof.Gen.Kernel.Skeleton
import proofs.«162072_j90048284328142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched the block index has not moved), for any proof data whose array is the entry contents and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the one store take the whole staging buffer -/

abbrev rA0 : Rect S64x2048 := Rect.unit (s := S64x2048) ![0, 0] S64x2048.size inb_S64x2048_S64x2048_0_0
abbrev rW0 : Rect S512x2048 := Rect.unit (s := S512x2048) ![0, 0] S512x2048.size inb_S512x2048_S512x2048_0_0
abbrev rO0 : Rect S64x512 := Rect.unit (s := S64x512) ![0, 0] S64x512.size inb_S64x512_S64x512_0_0

/-! ## What the body leaves in the output window's buffer -/

/-- The output block after the body, from the three input blocks: its one store as a piece. -/
def out0_3 (x0 : Vec F S64x2048 .f32) (x1 x2 : Vec F S512x2048 .f32) : Vec F S64x512 .f32 :=
  View.canon [⟨rO0, k0_pay1 (View.ld x0 rA0) (View.ld x1 rW0) (View.ld x2 rW0)⟩]

/-- The one store covers the buffer. -/
theorem cover0_3 (p0 : Vec F S64x512 .f32) (y : S64x512.Idx) :
    ∃ pc ∈ ([⟨rO0, p0⟩] : List (View.Piece (Elt F) S64x512 .f32)), y ∈ pc.1.set :=
  View.cover_of_tiled [⟨rO0, p0⟩] S64x512.size (by rfl) y

/-! ## The body's triple -/

set_option maxHeartbeats 1000000 in
/-- The layer body on whole staging memrefs, the inputs' at contents `x0 x1 x2` and the output's at anything, runs to the
    continuation holding the inputs' as they were and the output's at `out0_3` of them. -/
theorem sound_kernel0 (c : Dev nD) (E : Set ℕ) (i : grid0.Coords) (arg1 : Memref sig .tc .vmem S64x2048 .f32) (harg1 : arg1.IsWhole)
    (arg2 : Memref sig .tc .vmem S512x2048 .f32) (harg2 : arg2.IsWhole) (arg3 : Memref sig .tc .vmem S512x2048 .f32) (harg3 : arg3.IsWhole)
    (arg4 : Memref sig .tc .vmem S64x512 .f32) (harg4 : arg4.IsWhole)
    (x0 : Vec F S64x2048 .f32) (x1 x2 : Vec F S512x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__layer_kernel i arg1 harg1 arg2 harg2 arg3 harg3 arg4 harg4) K := by
  simp only [cc0__layer_kernel_eq_skeleton]; unfold cc0__layer_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the layer's pipeline on core `c`: the arrays as the region finds them; after the body at
    point `t` each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Net

end
-- ==== Proof.K.Layer1.lean ====
/-
  One thresholded layer's pallas_call (pipeline `cfg1` over `grid1`, its neurons cut into blocks along the grid) at a
  PARAMETER `V`, the TensorCore's buffer contents when the region is entered.  At point `t` the body reads the whole
  activation block (`S64x8192`, the same block at every point), block `t` of the rows of each of the two segment matrices
  (`S128x8192`), and stores into the output block (`S64x128`: columns of the layer's output) ONE value, the payload
  `k1_pay1` of the three loaded blocks.  So the proof data is: each input's staging buffer holds its block of the entry
  contents, the output's holds that payload of the three blocks; the body's triple is one symbolic run; nothing is owed
  and the invariant is the untouched scoped rest.
-/
import proofs.«162072_j90048284328142_1_alg».proof.Proof.Gen.Kernel.Launch
import proofs.«162072_j90048284328142_1_alg».proof.Proof.Gen.Kernel.Skeleton
import proofs.«162072_j90048284328142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved), for any proof data whose array is the entry contents and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the one store take the whole staging buffer -/

abbrev rA1 : Rect S64x8192 := Rect.unit (s := S64x8192) ![0, 0] S64x8192.size inb_S64x8192_S64x8192_0_0
abbrev rW1 : Rect S128x8192 := Rect.unit (s := S128x8192) ![0, 0] S128x8192.size inb_S128x8192_S128x8192_0_0
abbrev rO1 : Rect S64x128 := Rect.unit (s := S64x128) ![0, 0] S64x128.size inb_S64x128_S64x128_0_0

/-! ## What the body leaves in the output window's buffer -/

/-- The output block after the body, from the three input blocks: its one store as a piece. -/
def out1_3 (x0 : Vec F S64x8192 .f32) (x1 x2 : Vec F S128x8192 .f32) : Vec F S64x128 .f32 :=
  View.canon [⟨rO1, k1_pay1 (View.ld x0 rA1) (View.ld x1 rW1) (View.ld x2 rW1)⟩]

/-- The one store covers the buffer. -/
theorem cover1_3 (p0 : Vec F S64x128 .f32) (y : S64x128.Idx) :
    ∃ pc ∈ ([⟨rO1, p0⟩] : List (View.Piece (Elt F) S64x128 .f32)), y ∈ pc.1.set :=
  View.cover_of_tiled [⟨rO1, p0⟩] S64x128.size (by rfl) y

/-! ## The body's triple -/

set_option maxHeartbeats 1000000 in
/-- The layer body on whole staging memrefs, the inputs' at contents `x0 x1 x2` and the output's at anything, runs to the
    continuation holding the inputs' as they were and the output's at `out1_3` of them. -/
theorem sound_kernel1 (c : Dev nD) (E : Set ℕ) (i : grid1.Coords) (arg1 : Memref sig .tc .vmem S64x8192 .f32) (harg1 : arg1.IsWhole)
    (arg2 : Memref sig .tc .vmem S128x8192 .f32) (harg2 : arg2.IsWhole) (arg3 : Memref sig .tc .vmem S128x8192 .f32) (harg3 : arg3.IsWhole)
    (arg4 : Memref sig .tc .vmem S64x128 .f32) (harg4 : arg4.IsWhole)
    (x0 : Vec F S64x8192 .f32) (x1 x2 : Vec F S128x8192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__layer_kernel i arg1 harg1 arg2 harg2 arg3 harg3 arg4 harg4) K := by
  simp only [cc1__layer_kernel_eq_skeleton]; unfold cc1__layer_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the layer's pipeline on core `c`: the arrays as the region finds them; after the body at
    point `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Net

end
-- ==== Proof.K.Layer2.lean ====
/-
  One thresholded layer's pallas_call (pipeline `cfg2` over `grid2`, its neurons cut into blocks along the grid) at a
  PARAMETER `V`, the TensorCore's buffer contents when the region is entered.  At point `t` the body reads the whole
  activation block (`S64x8192`, the same block at every point), block `t` of the rows of each of the two segment matrices
  (`S128x8192`), and stores into the output block (`S64x128`: columns of the layer's output) ONE value, the payload
  `k2_pay1` of the three loaded blocks.  So the proof data is: each input's staging buffer holds its block of the entry
  contents, the output's holds that payload of the three blocks; the body's triple is one symbolic run; nothing is owed
  and the invariant is the untouched scoped rest.
-/
import proofs.«162072_j90048284328142_1_alg».proof.Proof.Gen.Kernel.Launch
import proofs.«162072_j90048284328142_1_alg».proof.Proof.Gen.Kernel.Skeleton
import proofs.«162072_j90048284328142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched the block index has not moved), for any proof data whose array is the entry contents and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the one store take the whole staging buffer -/

abbrev rA2 : Rect S64x8192 := Rect.unit (s := S64x8192) ![0, 0] S64x8192.size inb_S64x8192_S64x8192_0_0
abbrev rW2 : Rect S128x8192 := Rect.unit (s := S128x8192) ![0, 0] S128x8192.size inb_S128x8192_S128x8192_0_0
abbrev rO2 : Rect S64x128 := Rect.unit (s := S64x128) ![0, 0] S64x128.size inb_S64x128_S64x128_0_0

/-! ## What the body leaves in the output window's buffer -/

/-- The output block after the body, from the three input blocks: its one store as a piece. -/
def out2_3 (x0 : Vec F S64x8192 .f32) (x1 x2 : Vec F S128x8192 .f32) : Vec F S64x128 .f32 :=
  View.canon [⟨rO2, k2_pay1 (View.ld x0 rA2) (View.ld x1 rW2) (View.ld x2 rW2)⟩]

/-- The one store covers the buffer. -/
theorem cover2_3 (p0 : Vec F S64x128 .f32) (y : S64x128.Idx) :
    ∃ pc ∈ ([⟨rO2, p0⟩] : List (View.Piece (Elt F) S64x128 .f32)), y ∈ pc.1.set :=
  View.cover_of_tiled [⟨rO2, p0⟩] S64x128.size (by rfl) y

/-! ## The body's triple -/

set_option maxHeartbeats 1000000 in
/-- The layer body on whole staging memrefs, the inputs' at contents `x0 x1 x2` and the output's at anything, runs to the
    continuation holding the inputs' as they were and the output's at `out2_3` of them. -/
theorem sound_kernel2 (c : Dev nD) (E : Set ℕ) (i : grid2.Coords) (arg1 : Memref sig .tc .vmem S64x8192 .f32) (harg1 : arg1.IsWhole)
    (arg2 : Memref sig .tc .vmem S128x8192 .f32) (harg2 : arg2.IsWhole) (arg3 : Memref sig .tc .vmem S128x8192 .f32) (harg3 : arg3.IsWhole)
    (arg4 : Memref sig .tc .vmem S64x128 .f32) (harg4 : arg4.IsWhole)
    (x0 : Vec F S64x8192 .f32) (x1 x2 : Vec F S128x8192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__layer_kernel i arg1 harg1 arg2 harg2 arg3 harg3 arg4 harg4) K := by
  simp only [cc2__layer_kernel_eq_skeleton]; unfold cc2__layer_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the layer's pipeline on core `c`: the arrays as the region finds them; after the body at
    point `t` each input's buffer at its block and the output's at `out2_3` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Net

end
-- ==== Proof.K.Final.lean ====
import proofs.«162072_j90048284328142_1_alg».proof.Proof.Gen.Kernel.Launch
import proofs.«162072_j90048284328142_1_alg».proof.Proof.Gen.Kernel.Skeleton
import proofs.«162072_j90048284328142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the eight points -/

theorem hz3 : (![0, 0] : Fin 2 → Nat) = fun _ => 0 := funext fun a => by fin_cases a <;> rfl

/-- The first branch's condition: the point's coordinate is zero. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- The second branch's condition: the point's coordinate is seven, the last. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-- Off the last point the output window is idle and its block is not written back; at the last point it is live. -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
theorem liveAt3_6 : ∀ t : Fin cfg3.N, cond3_1 (grid3.coords t) → cfg3.idle 6 (grid3.coords t) = false := by decide +kernel

/-! ## The body's triple in each of its three control cases -/

/-- A store through the whole-buffer rectangle, last, covers the accumulator's shape whatever came before it. -/
theorem cover3 (w : Vec F S64x100 .f32) (L : List (View.Piece (Elt F) S64x100 .f32)) (y : S64x100.Idx) :
    ∃ pc ∈ ((⟨Rect.unit (s := S64x100) ![0, 0] S64x100.size inb_S64x100_S64x100_0_0, w⟩ :: L) : List (View.Piece (Elt F) S64x100 .f32)), y ∈ pc.1.set :=
  ⟨_, List.mem_cons_self, by
    have h : ∀ (off : Fin S64x100.rank → Nat) (hh : off = fun _ => 0) (inb : ∀ a, off a + S64x100.size a ≤ S64x100.size a),
        y ∈ (Rect.unit (s := S64x100) off S64x100.size inb).set := by
      intro off hh inb; subst hh; show y ∈ (Rect.whole S64x100).set; rw [Rect.set_whole]; exact Finset.mem_univ y
    exact h _ hz3 inb_S64x100_S64x100_0_0⟩

set_option maxHeartbeats 4000000 in
/-- FIRST POINT (first branch taken, second not): the accumulator, whatever it held, is zeroed and then holds the point's
    payload over zeros; the output buffer is handed back as it was. -/
theorem run3_A (c : Dev nD) (E : Set ℕ) (i : grid3.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x100 .f32) (harg6 : arg6.IsWhole) (arg7 : Memref sig .tc .vmem S64x100 .f32) (harg7 : arg7.IsWhole) (arg8 : Memref sig .tc .vmem S64x100 .f32) (harg8 : arg8.IsWhole)
    (hc0 : cond3_0 i) (hc1 : ¬cond3_1 i) (x0 x1 x2 : Vec F S64x1024 .f32) (x3 x4 x5 : Vec F S1024x100 .f32) (xi : Vec F S64x100 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare xi
            ∗ owns (c : Thread nD τ) arg8 fullShare (k3_pay2 x0 x1 x2 x3 x4 x5 (k3_pay1 (F := F)))) -∗ K ⟨⟩))
      ⊢ wp frame (wpE (defs₀ (F := F)) Variants.none c none) E (cc3__final_kernel i arg1 harg1 arg2 harg2 arg3 harg3 arg4 harg4 arg5 harg5 arg6 harg6 arg7 harg7 arg8 harg8) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  try sl_unfold_words
  refine (View.read_writes_eq_canon _ _ _ (cover3 _ _)).trans ?_
  rw [View.canon_cons_unit_zero (S := S64x100) hz3, View.readCov_unit_zero (S := S64x100) _ hz3]
  simp only [View.readAt_eq_ld, harg1.read_unread, harg2.read_unread, harg3.read_unread, harg4.read_unread, harg5.read_unread, harg6.read_unread, harg8.read_unread, View.ld_unit_zero (S := S64x1024) hz3, View.ld_unit_zero (S := S1024x100) hz3, View.ld_unit_zero (S := S64x100) hz3]

set_option maxHeartbeats 4000000 in
/-- A MIDDLE POINT (neither branch taken): the accumulator goes from `xs` to the point's payload over `xs`; the output
    buffer is handed back as it was. -/
theorem run3_B (c : Dev nD) (E : Set ℕ) (i : grid3.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x100 .f32) (harg6 : arg6.IsWhole) (arg7 : Memref sig .tc .vmem S64x100 .f32) (harg7 : arg7.IsWhole) (arg8 : Memref sig .tc .vmem S64x100 .f32) (harg8 : arg8.IsWhole)
    (hc0 : ¬cond3_0 i) (hc1 : ¬cond3_1 i) (x0 x1 x2 : Vec F S64x1024 .f32) (x3 x4 x5 : Vec F S1024x100 .f32) (xi xs : Vec F S64x100 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare xi
            ∗ owns (c : Thread nD τ) arg8 fullShare (k3_pay2 x0 x1 x2 x3 x4 x5 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  try sl_unfold_words
  refine (View.read_writes_eq_canon _ _ _ (cover3 _ _)).trans ?_
  rw [View.canon_unit_zero hz3]
  simp only [View.readAt_eq_ld, harg1.read_unread, harg2.read_unread, harg3.read_unread, harg4.read_unread, harg5.read_unread, harg6.read_unread, harg8.read_unread, View.ld_unit_zero (S := S64x1024) hz3, View.ld_unit_zero (S := S1024x100) hz3, View.ld_unit_zero (S := S64x100) hz3]

set_option maxHeartbeats 4000000 in
/-- THE LAST POINT (second branch taken): the accumulator goes from `xs` to the point's payload over `xs`, and the output
    buffer, whatever it held, receives that same value. -/
theorem run3_C (c : Dev nD) (E : Set ℕ) (i : grid3.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x100 .f32) (harg6 : arg6.IsWhole) (arg7 : Memref sig .tc .vmem S64x100 .f32) (harg7 : arg7.IsWhole) (arg8 : Memref sig .tc .vmem S64x100 .f32) (harg8 : arg8.IsWhole)
    (hc0 : ¬cond3_0 i) (hc1 : cond3_1 i) (x0 x1 x2 : Vec F S64x1024 .f32) (x3 x4 x5 : Vec F S1024x100 .f32) (xs : Vec F S64x100 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k3_pay2 x0 x1 x2 x3 x4 x5 xs)
            ∗ owns (c : Thread nD τ) arg8 fullShare (k3_pay2 x0 x1 x2 x3 x4 x5 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    try sl_unfold_words
    refine (View.read_writes_eq_canon _ _ _ (cover3 _ _)).trans ?_
    rw [View.canon_unit_zero hz3, View.readCov_unit_zero (S := S64x100) _ hz3]
    simp only [View.readAt_eq_ld, harg1.read_unread, harg2.read_unread, harg3.read_unread, harg4.read_unread, harg5.read_unread, harg6.read_unread, harg8.read_unread, View.ld_unit_zero (S := S64x1024) hz3, View.ld_unit_zero (S := S1024x100) hz3, View.ld_unit_zero (S := S64x100) hz3]
  iexists _; isplitr
  swap; · iexact HS0
  ipureintro
  try sl_unfold_words
  refine (View.read_writes_eq_canon _ _ _ (cover3 _ _)).trans ?_
  rw [View.canon_unit_zero hz3]
  simp only [View.readAt_eq_ld, harg1.read_unread, harg2.read_unread, harg3.read_unread, harg4.read_unread, harg5.read_unread, harg6.read_unread, harg8.read_unread, View.ld_unit_zero (S := S64x1024) hz3, View.ld_unit_zero (S := S1024x100) hz3, View.ld_unit_zero (S := S64x100) hz3]

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data whose
    array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- THE ACCUMULATOR after the body at position `n`: the point's payload `k3_pay2` of its six input blocks and of what the
    accumulator held — zeros (`k3_pay1`) at the first point, what the point before left afterwards. -/
def acc3 (c : Dev nD) : (n : ℕ) → n < cfg3.N → Vec F S64x100 .f32
  | 0, h => k3_pay2 (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩)
      (k3_pay1 (F := F))
  | n + 1, h => k3_pay2 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩)
      (iblk3 V c 5 ⟨n + 1, h⟩) (acc3 c n (Nat.lt_of_succ_lt h))

/-- The scratch buffer the accumulator lives in. -/
abbrev scM3 : Memref sig .tc .vmem S64x100 .f32 := Memref.whole cc3_scratch0

/-- The region's invariant before position `n`: before the first point the untouched scoped rest and the generator
    register; afterwards the scratch at the accumulator the point before left, the other scoped buffers at anything, the
    register at some state. -/
def PhiS3 (c : Dev nD) : (n : ℕ) → n ≤ cfg3.N → sProp 𝕄
  | 0, _ => Pipeline.ΦA spec3 c
  | n + 1, hn => iprop((owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r))

/-- The proof data of the scores' pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = acc3 V c t.val t.isLt := by dsimp only [dat3]

/-! ## The accumulator at a point, by whether it is the first -/

theorem acc3_of_zero (c : Dev nD) (t : Fin cfg3.N) (hz : t.val = 0) :
    acc3 V c t.val t.isLt = k3_pay2 (iblk3 V c 0 t) (iblk3 V c 1 t) (iblk3 V c 2 t) (iblk3 V c 3 t) (iblk3 V c 4 t) (iblk3 V c 5 t) (k3_pay1 (F := F)) := by
  obtain ⟨n, hn⟩ := t
  cases n with
  | zero => rfl
  | succ n => exact absurd hz (Nat.succ_ne_zero n)

theorem acc3_of_pos (c : Dev nD) (t : Fin cfg3.N) (hz : t.val ≠ 0) :
    acc3 V c t.val t.isLt = k3_pay2 (iblk3 V c 0 t) (iblk3 V c 1 t) (iblk3 V c 2 t) (iblk3 V c 3 t) (iblk3 V c 4 t) (iblk3 V c 5 t)
      (acc3 V c (t.val - 1) (Nat.lt_of_le_of_lt (Nat.sub_le _ _) t.isLt)) := by
  obtain ⟨n, hn⟩ := t
  cases n with
  | zero => exact absurd rfl hz
  | succ n => rfl

/-! ## The invariant, position by position -/

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop((owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop((owns (c : Thread nD τ) scM3 fullShare (acc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

/-- What the launch hands the region, with the accumulator's buffer split off the scoped rest and owned as a whole memref. -/
theorem PhiA3_eq (c : Dev nD) :
    (Pipeline.ΦA spec3 c : sProp 𝕄)
      = iprop(((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [scM3, owns_whole]; try rfl

/-! ## The input windows hold their blocks; where the windows are idle -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point: the six inputs' buffers hold their blocks; the point's position says which control case it is
    in; the invariant hands the body the accumulator's buffer (at anything before the first point, at what the point
    before left afterwards) and takes it back at this point's accumulator; the rest of the scoped buffers, the register
    and what the core owes pass through unread; the output buffer comes back untouched except at the last point, where
    it holds the accumulator. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  have hN : t.val < 8 := lt_of_lt_of_eq t.isLt (show cfg3.N = 8 from N_3)
  by_cases h0 : t.val % 8 = 0
  · have hz : t.val = 0 := by omega
    have h1 : ¬t.val % 8 = 7 := by omega
    have hc1 : ¬cond3_1 (grid3.coords t) := fun h => h1 ((hcond3_1 t).mp h)
    rw [Dat.leavesExact_idle (dat3 V c) 6 t (idleAt3_6 t hc1) (noFlush3_6 t hc1)]
    rw [PhiS3_castSucc V c t, PhiS3_zero V c _ _ hz, PhiA3_eq, acc3_of_zero V c t hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run3_A c Set.univ _ _ _ _ _ _ _ _ _ _ _ _ _ _ _ _ _ ((hcond3_0 t).mpr h0) hc1
      (iblk3 V c 0 t) (iblk3 V c 1 t) (iblk3 V c 2 t) (iblk3 V c 3 t) (iblk3 V c 4 t) (iblk3 V c 5 t) ((dat3 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    have hc0 : ¬cond3_0 (grid3.coords t) := fun h => h0 ((hcond3_0 t).mp h)
    rw [PhiS3_castSucc V c t, PhiS3_pos V c _ _ hz, acc3_of_pos V c t hz]
    by_cases h1 : t.val % 8 = 7
    · have hc1 : cond3_1 (grid3.coords t) := (hcond3_1 t).mpr h1
      rw [show (dat3 V c).leavesExact 6 t = owns (c : Thread nD τ) (st3_6 t) fullShare ((dat3 V c).after 6 t) from by
        unfold Dat.leavesExact; rw [liveAt3_6 t hc1], after3_6, acc3_of_pos V c t hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run3_C c Set.univ _ _ _ _ _ _ _ _ _ _ _ _ _ _ _ _ _ hc0 hc1
        (iblk3 V c 0 t) (iblk3 V c 1 t) (iblk3 V c 2 t) (iblk3 V c 3 t) (iblk3 V c 4 t) (iblk3 V c 5 t) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond3_1 (grid3.coords t) := fun h => h1 ((hcond3_1 t).mp h)
      rw [Dat.leavesExact_idle (dat3 V c) 6 t (idleAt3_6 t hc1) (noFlush3_6 t hc1)]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run3_B c Set.univ _ _ _ _ _ _ _ _ _ _ _ _ _ _ _ _ _ hc0 hc1
        (iblk3 V c 0 t) (iblk3 V c 1 t) (iblk3 V c 2 t) (iblk3 V c 3 t) (iblk3 V c 4 t) (iblk3 V c 5 t) ((dat3 V c).before 6 t d6) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped rest and the register back: the accumulator's contents are forgotten. -/
theorem hout3 (c : Dev nD) : (dat3 V c).Φ (Fin.last cfg3.N) ⊢ (Pipeline.ΦA spec3 c : sProp 𝕄) := by
  have ht : (Fin.last cfg3.N).val ≠ 0 := by rw [Fin.val_last]; have : cfg3.N = 8 := N_3; omega
  rw [show (dat3 V c).Φ (Fin.last cfg3.N) = PhiS3 V c (Fin.last cfg3.N).val (Nat.le_of_lt_succ (Fin.last cfg3.N).isLt) from rfl,
    PhiS3_pos V c _ _ ht, PhiA3_eq]
  iintro ⟨⟨HS0, Hr⟩, Hg⟩
  isplitl [HS0 Hr]
  · isplitl [HS0]
    · iexists _; iexact HS0
    iexact Hr
  iexact Hg

end Cert.Kernel.Net

end
-- ==== Proof.K.Run.lean ====
/-
  The run of @main over its five segments: the stretch of host operations that thresholds the input, then the three
  thresholded layers' pallas_calls and the scores' pallas_call back to back, nothing between or after them.  The buffer
  contents at every segment boundary are a fold from the launch memory: the host stretch's `StableHlo.after`, then per
  region its arrays at what the write-backs leave and every other buffer as entered.  Each region's proof data is taken at
  its entry contents; the thread state between segments is "every unscoped buffer at the boundary's contents, the
  generator register at some state, nothing owed".  The run's post keeps every unscoped buffer of the final memory at
  the last boundary's contents; each argument array walks back through the fold to its launch contents, and each
  region's output array is what its write-backs leave while every other buffer passes through it.
-/
import proofs.«162072_j90048284328142_1_alg».proof.Proof.K.Layer0
import proofs.«162072_j90048284328142_1_alg».proof.Proof.K.Layer1
import proofs.«162072_j90048284328142_1_alg».proof.Proof.K.Layer2
import proofs.«162072_j90048284328142_1_alg».proof.Proof.K.Final
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the host stretch (the first layer's entry): the thresholded input is in place. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At the exit of the first layer's region: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At the exit each array holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the exit of the second layer's region: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
/-- At the exit each array holds what the pipeline leaves, and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At the exit of the third layer's region: its arrays at what the pipeline leaves (the inputs as entered, the output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
/-- At the exit each array holds what the pipeline leaves, and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At the exit of the scores' region: its arrays at what the pipeline leaves (the inputs as entered, the output's write-backs
    folded), every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references. -/
abbrev V5 : (c : Dev nD) → (b : Ref sig .tc) → Buf (Elt F) ((c : Thread nD τ).loc b) := fun c b => W5 m ρ c b
/-- At the exit each array holds what the pipeline leaves, and every other buffer what it held at entry. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-! ## What each segment leaves unchanged -/

/-- The references the host stretch writes: the threshold constant, its broadcast, the comparison and the thresholded
    input. -/
abbrev hostOps0_W : List (Ref sig .tc) := [main_cst, main_v0, main_v1, main_v2]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_⟩ <;>
  · simp only [StableHlo.nullary_writes, StableHlo.unary_writes, StableHlo.binary_writes, Finset.singleton_subset_iff, List.mem_toFinset]
    exact List.mem_map_of_mem (by decide)
/-- A reference the host stretch does not write keeps its launch contents. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- An input window's array passes through the region. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- An input window's array passes through the region. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))

/-- An input window's array passes through the region. -/
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))

/-- An input window's array passes through the region. -/
theorem W5_in (c : Dev nD) (w : Fin cfg3.W) (hin : (cfg3.win w).isOut = false) :
    W5 m ρ c (Proc.devRef .tc (Pipeline.arrRef spec3 w)) = W4 m ρ c (Proc.devRef .tc (Pipeline.arrRef spec3 w)) :=
  (W5_arr m ρ c w).trans (((dat3 (V4 m ρ) c).arrAt_in w hin _).trans (A_eq3 (V4 m ρ) c w))

/-- The first layer's output array is what its write-backs leave, -/
theorem V2_v3 (c : Dev nD) : V2 m ρ c main_v3 = (dat0 (V1 m ρ) c).arrAt 3 cfg0.N :=
  W2_arr m ρ c 3
/-- and every other buffer passes through it: an input array is never written back, and a buffer that is no array of
    the region is not touched. -/
theorem V2_keep (c : Dev nD) (b : Ref sig .tc) (hb : b ≠ main_v3) : V2 m ρ c b = V1 m ρ c b := by
  by_cases h : ∃ w, Pipeline.arrRef spec0 w = b
  · obtain ⟨w, rfl⟩ := h
    fin_cases w
    · exact W2_in m ρ c 0 rfl
    · exact W2_in m ρ c 1 rfl
    · exact W2_in m ρ c 2 rfl
    · exact absurd rfl hb
  · exact W2_of_ne m ρ c b fun w e => h ⟨w, e⟩

/-- The second layer's output array is what its write-backs leave, -/
theorem V3_v4 (c : Dev nD) : V3 m ρ c main_v4 = (dat1 (V2 m ρ) c).arrAt 3 cfg1.N :=
  W3_arr m ρ c 3
/-- and every other buffer passes through it: an input array is never written back, and a buffer that is no array of
    the region is not touched. -/
theorem V3_keep (c : Dev nD) (b : Ref sig .tc) (hb : b ≠ main_v4) : V3 m ρ c b = V2 m ρ c b := by
  by_cases h : ∃ w, Pipeline.arrRef spec1 w = b
  · obtain ⟨w, rfl⟩ := h
    fin_cases w
    · exact W3_in m ρ c 0 rfl
    · exact W3_in m ρ c 1 rfl
    · exact W3_in m ρ c 2 rfl
    · exact absurd rfl hb
  · exact W3_of_ne m ρ c b fun w e => h ⟨w, e⟩

/-- The third layer's output array is what its write-backs leave, -/
theorem V4_v5 (c : Dev nD) : V4 m ρ c main_v5 = (dat2 (V3 m ρ) c).arrAt 3 cfg2.N :=
  W4_arr m ρ c 3
/-- and every other buffer passes through it: an input array is never written back, and a buffer that is no array of
    the region is not touched. -/
theorem V4_keep (c : Dev nD) (b : Ref sig .tc) (hb : b ≠ main_v5) : V4 m ρ c b = V3 m ρ c b := by
  by_cases h : ∃ w, Pipeline.arrRef spec2 w = b
  · obtain ⟨w, rfl⟩ := h
    fin_cases w
    · exact W4_in m ρ c 0 rfl
    · exact W4_in m ρ c 1 rfl
    · exact W4_in m ρ c 2 rfl
    · exact absurd rfl hb
  · exact W4_of_ne m ρ c b fun w e => h ⟨w, e⟩

/-- The scores' region's output array is what its write-backs leave, -/
theorem V5_v6 (c : Dev nD) : V5 m ρ c main_v6 = (dat3 (V4 m ρ) c).arrAt 6 cfg3.N :=
  W5_arr m ρ c 6
/-- and every other buffer passes through it: an input array is never written back, and a buffer that is no array of
    the region is not touched. -/
theorem V5_keep (c : Dev nD) (b : Ref sig .tc) (hb : b ≠ main_v6) : V5 m ρ c b = V4 m ρ c b := by
  by_cases h : ∃ w, Pipeline.arrRef spec3 w = b
  · obtain ⟨w, rfl⟩ := h
    fin_cases w
    · exact W5_in m ρ c 0 rfl
    · exact W5_in m ρ c 1 rfl
    · exact W5_in m ρ c 2 rfl
    · exact W5_in m ρ c 3 rfl
    · exact W5_in m ρ c 4 rfl
    · exact W5_in m ρ c 5 rfl
    · exact absurd rfl hb
  · exact W5_of_ne m ρ c b fun w e => h ⟨w, e⟩

/-! ### The arguments end as launched: the host stretch writes none, and a region reads an argument through an input
    window or does not touch it, so the fold at an argument's buffer walks back to the launch memory -/
theorem W5_main_arg0 (c : Dev nD) : W5 m ρ c (Proc.devRef .tc main_arg0) = m ((c : Thread nD τ).loc main_arg0) :=
  (W5_of_ne m ρ c main_arg0 (by decide)).trans <| (W4_of_ne m ρ c main_arg0 (by decide)).trans <| (W3_of_ne m ρ c main_arg0 (by decide)).trans <| (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of_ne m ρ c main_arg1 (by decide)).trans <| (W4_of_ne m ρ c main_arg1 (by decide)).trans <| (W3_of_ne m ρ c main_arg1 (by decide)).trans <| (W2_in m ρ c 1 rfl).trans <| (W1_of m ρ c main_arg1 (by decide)).trans rfl
theorem W5_main_arg2 (c : Dev nD) : W5 m ρ c (Proc.devRef .tc main_arg2) = m ((c : Thread nD τ).loc main_arg2) :=
  (W5_of_ne m ρ c main_arg2 (by decide)).trans <| (W4_of_ne m ρ c main_arg2 (by decide)).trans <| (W3_of_ne m ρ c main_arg2 (by decide)).trans <| (W2_in m ρ c 2 rfl).trans <| (W1_of m ρ c main_arg2 (by decide)).trans rfl
theorem W5_main_arg3 (c : Dev nD) : W5 m ρ c (Proc.devRef .tc main_arg3) = m ((c : Thread nD τ).loc main_arg3) :=
  (W5_of_ne m ρ c main_arg3 (by decide)).trans <| (W4_of_ne m ρ c main_arg3 (by decide)).trans <| (W3_in m ρ c 1 rfl).trans <| (W2_of_ne m ρ c main_arg3 (by decide)).trans <| (W1_of m ρ c main_arg3 (by decide)).trans rfl
theorem W5_main_arg4 (c : Dev nD) : W5 m ρ c (Proc.devRef .tc main_arg4) = m ((c : Thread nD τ).loc main_arg4) :=
  (W5_of_ne m ρ c main_arg4 (by decide)).trans <| (W4_of_ne m ρ c main_arg4 (by decide)).trans <| (W3_in m ρ c 2 rfl).trans <| (W2_of_ne m ρ c main_arg4 (by decide)).trans <| (W1_of m ρ c main_arg4 (by decide)).trans rfl
theorem W5_main_arg5 (c : Dev nD) : W5 m ρ c (Proc.devRef .tc main_arg5) = m ((c : Thread nD τ).loc main_arg5) :=
  (W5_of_ne m ρ c main_arg5 (by decide)).trans <| (W4_in m ρ c 1 rfl).trans <| (W3_of_ne m ρ c main_arg5 (by decide)).trans <| (W2_of_ne m ρ c main_arg5 (by decide)).trans <| (W1_of m ρ c main_arg5 (by decide)).trans rfl
theorem W5_main_arg6 (c : Dev nD) : W5 m ρ c (Proc.devRef .tc main_arg6) = m ((c : Thread nD τ).loc main_arg6) :=
  (W5_of_ne m ρ c main_arg6 (by decide)).trans <| (W4_in m ρ c 2 rfl).trans <| (W3_of_ne m ρ c main_arg6 (by decide)).trans <| (W2_of_ne m ρ c main_arg6 (by decide)).trans <| (W1_of m ρ c main_arg6 (by decide)).trans rfl
theorem W5_main_arg7 (c : Dev nD) : W5 m ρ c (Proc.devRef .tc main_arg7) = m ((c : Thread nD τ).loc main_arg7) :=
  (W5_in m ρ c 3 rfl).trans <| (W4_of_ne m ρ c main_arg7 (by decide)).trans <| (W3_of_ne m ρ c main_arg7 (by decide)).trans <| (W2_of_ne m ρ c main_arg7 (by decide)).trans <| (W1_of m ρ c main_arg7 (by decide)).trans rfl
theorem W5_main_arg8 (c : Dev nD) : W5 m ρ c (Proc.devRef .tc main_arg8) = m ((c : Thread nD τ).loc main_arg8) :=
  (W5_in m ρ c 4 rfl).trans <| (W4_of_ne m ρ c main_arg8 (by decide)).trans <| (W3_of_ne m ρ c main_arg8 (by decide)).trans <| (W2_of_ne m ρ c main_arg8 (by decide)).trans <| (W1_of m ρ c main_arg8 (by decide)).trans rfl
theorem W5_main_arg9 (c : Dev nD) : W5 m ρ c (Proc.devRef .tc main_arg9) = m ((c : Thread nD τ).loc main_arg9) :=
  (W5_in m ρ c 5 rfl).trans <| (W4_of_ne m ρ c main_arg9 (by decide)).trans <| (W3_of_ne m ρ c main_arg9 (by decide)).trans <| (W2_of_ne m ρ c main_arg9 (by decide)).trans <| (W1_of m ρ c main_arg9 (by decide)).trans rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- THE FIRST LAYER'S REGION over the thread state: entered from every unscoped buffer at `W1`, left at `W2`.  Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAYER'S REGION over the thread state: entered from every unscoped buffer at `W2`, left at `W3`.  Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE THIRD LAYER'S REGION over the thread state: entered from every unscoped buffer at `W3`, left at `W4`.  Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCORES' REGION over the thread state: entered from every unscoped buffer at `W4`, left at `W5`.  Its arrays are split
    out of the unscoped buffers and put back at the exit contents; the generator register and the scoped rest go into the
    invariant's first stage and come out of its last (the accumulator's contents forgotten); nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (V4 m ρ) c
    unfold Pipeline.ΦA at h
    rw [show (pdats m ρ 3 c).Φ 0 = (dat3 (V4 m ρ) c).Φ 0 from rfl]
    iintro ⟨Hp, -, Hr⟩
    iapply h
    isplitl [Hr]; · iexact Hr
    iexact Hp
  hout c := by
    have h := hout3 (V4 m ρ) c
    unfold Pipeline.ΦA at h
    rw [Pipeline.ownSems0_none, show (pdats m ρ 3 c).Φ (Fin.last _) = (dat3 (V4 m ρ) c).Φ (Fin.last cfg3.N) from rfl]
    iintro Hi
    ihave H := h $$ Hi
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order: the host stretch from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ) ]
/-- @main IS the run of the segments: it is the chain of its items, and the segments' run is that chain. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each core's unscoped buffers hold the last
    boundary's contents `W5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

end Cert.Kernel.Net

end
-- ==== Proof.KI.Layer0.lean ====
/-
  One thresholded layer's pallas_call (pipeline `cfg0` over `grid0`, its neurons cut into blocks along the grid) at a
  PARAMETER `V`, the TensorCore's buffer contents when the region is entered.  At point `t` the body reads the whole
  activation block (`S64x2048`, the same block at every point), block `t` of the rows of each of the two segment matrices
  (`S512x2048`), and stores into the output block (`S64x512`: columns of the layer's output) ONE value, the payload
  `k0_pay1` of the three loaded blocks.  So the proof data is: each input's staging buffer holds its block of the entry
  contents, the output's holds that payload of the three blocks; the body's triple is one symbolic run; nothing is owed
  and the invariant is the untouched scoped rest.
-/
import proofs.«162072_j90048284328142_1_alg».proof.Proof.Gen.KernelIdeal.Launch
import proofs.«162072_j90048284328142_1_alg».proof.Proof.Gen.KernelIdeal.Skeleton
import proofs.«162072_j90048284328142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched the block index has not moved), for any proof data whose array is the entry contents and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the one store take the whole staging buffer -/

abbrev rA0 : Rect S64x2048 := Rect.unit (s := S64x2048) ![0, 0] S64x2048.size inb_S64x2048_S64x2048_0_0
abbrev rW0 : Rect S512x2048 := Rect.unit (s := S512x2048) ![0, 0] S512x2048.size inb_S512x2048_S512x2048_0_0
abbrev rO0 : Rect S64x512 := Rect.unit (s := S64x512) ![0, 0] S64x512.size inb_S64x512_S64x512_0_0

/-! ## What the body leaves in the output window's buffer -/

/-- The output block after the body, from the three input blocks: its one store as a piece. -/
def out0_3 (x0 : Vec F S64x2048 .f32) (x1 x2 : Vec F S512x2048 .f32) : Vec F S64x512 .f32 :=
  View.canon [⟨rO0, k0_pay1 (View.ld x0 rA0) (View.ld x1 rW0) (View.ld x2 rW0)⟩]

/-- The one store covers the buffer. -/
theorem cover0_3 (p0 : Vec F S64x512 .f32) (y : S64x512.Idx) :
    ∃ pc ∈ ([⟨rO0, p0⟩] : List (View.Piece (Elt F) S64x512 .f32)), y ∈ pc.1.set :=
  View.cover_of_tiled [⟨rO0, p0⟩] S64x512.size (by rfl) y

/-! ## The body's triple -/

set_option maxHeartbeats 1000000 in
/-- The layer body on whole staging memrefs, the inputs' at contents `x0 x1 x2` and the output's at anything, runs to the
    continuation holding the inputs' as they were and the output's at `out0_3` of them. -/
theorem sound_kernel0 (c : Dev nD) (E : Set ℕ) (i : grid0.Coords) (arg1 : Memref sig .tc .vmem S64x2048 .f32) (harg1 : arg1.IsWhole)
    (arg2 : Memref sig .tc .vmem S512x2048 .f32) (harg2 : arg2.IsWhole) (arg3 : Memref sig .tc .vmem S512x2048 .f32) (harg3 : arg3.IsWhole)
    (arg4 : Memref sig .tc .vmem S64x512 .f32) (harg4 : arg4.IsWhole)
    (x0 : Vec F S64x2048 .f32) (x1 x2 : Vec F S512x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__layer_kernel i arg1 harg1 arg2 harg2 arg3 harg3 arg4 harg4) K := by
  simp only [cc0__layer_kernel_eq_skeleton]; unfold cc0__layer_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the layer's pipeline on core `c`: the arrays as the region finds them; after the body at
    point `t` each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Net

end
-- ==== Proof.KI.Layer1.lean ====
/-
  One thresholded layer's pallas_call (pipeline `cfg1` over `grid1`, its neurons cut into blocks along the grid) at a
  PARAMETER `V`, the TensorCore's buffer contents when the region is entered.  At point `t` the body reads the whole
  activation block (`S64x8192`, the same block at every point), block `t` of the rows of each of the two segment matrices
  (`S128x8192`), and stores into the output block (`S64x128`: columns of the layer's output) ONE value, the payload
  `k1_pay1` of the three loaded blocks.  So the proof data is: each input's staging buffer holds its block of the entry
  contents, the output's holds that payload of the three blocks; the body's triple is one symbolic run; nothing is owed
  and the invariant is the untouched scoped rest.
-/
import proofs.«162072_j90048284328142_1_alg».proof.Proof.Gen.KernelIdeal.Launch
import proofs.«162072_j90048284328142_1_alg».proof.Proof.Gen.KernelIdeal.Skeleton
import proofs.«162072_j90048284328142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved), for any proof data whose array is the entry contents and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the one store take the whole staging buffer -/

abbrev rA1 : Rect S64x8192 := Rect.unit (s := S64x8192) ![0, 0] S64x8192.size inb_S64x8192_S64x8192_0_0
abbrev rW1 : Rect S128x8192 := Rect.unit (s := S128x8192) ![0, 0] S128x8192.size inb_S128x8192_S128x8192_0_0
abbrev rO1 : Rect S64x128 := Rect.unit (s := S64x128) ![0, 0] S64x128.size inb_S64x128_S64x128_0_0

/-! ## What the body leaves in the output window's buffer -/

/-- The output block after the body, from the three input blocks: its one store as a piece. -/
def out1_3 (x0 : Vec F S64x8192 .f32) (x1 x2 : Vec F S128x8192 .f32) : Vec F S64x128 .f32 :=
  View.canon [⟨rO1, k1_pay1 (View.ld x0 rA1) (View.ld x1 rW1) (View.ld x2 rW1)⟩]

/-- The one store covers the buffer. -/
theorem cover1_3 (p0 : Vec F S64x128 .f32) (y : S64x128.Idx) :
    ∃ pc ∈ ([⟨rO1, p0⟩] : List (View.Piece (Elt F) S64x128 .f32)), y ∈ pc.1.set :=
  View.cover_of_tiled [⟨rO1, p0⟩] S64x128.size (by rfl) y

/-! ## The body's triple -/

set_option maxHeartbeats 1000000 in
/-- The layer body on whole staging memrefs, the inputs' at contents `x0 x1 x2` and the output's at anything, runs to the
    continuation holding the inputs' as they were and the output's at `out1_3` of them. -/
theorem sound_kernel1 (c : Dev nD) (E : Set ℕ) (i : grid1.Coords) (arg1 : Memref sig .tc .vmem S64x8192 .f32) (harg1 : arg1.IsWhole)
    (arg2 : Memref sig .tc .vmem S128x8192 .f32) (harg2 : arg2.IsWhole) (arg3 : Memref sig .tc .vmem S128x8192 .f32) (harg3 : arg3.IsWhole)
    (arg4 : Memref sig .tc .vmem S64x128 .f32) (harg4 : arg4.IsWhole)
    (x0 : Vec F S64x8192 .f32) (x1 x2 : Vec F S128x8192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__layer_kernel i arg1 harg1 arg2 harg2 arg3 harg3 arg4 harg4) K := by
  simp only [cc1__layer_kernel_eq_skeleton]; unfold cc1__layer_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the layer's pipeline on core `c`: the arrays as the region finds them; after the body at
    point `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Net

end
-- ==== Proof.KI.Layer2.lean ====
/-
  One thresholded layer's pallas_call (pipeline `cfg2` over `grid2`, its neurons cut into blocks along the grid) at a
  PARAMETER `V`, the TensorCore's buffer contents when the region is entered.  At point `t` the body reads the whole
  activation block (`S64x8192`, the same block at every point), block `t` of the rows of each of the two segment matrices
  (`S128x8192`), and stores into the output block (`S64x128`: columns of the layer's output) ONE value, the payload
  `k2_pay1` of the three loaded blocks.  So the proof data is: each input's staging buffer holds its block of the entry
  contents, the output's holds that payload of the three blocks; the body's triple is one symbolic run; nothing is owed
  and the invariant is the untouched scoped rest.
-/
import proofs.«162072_j90048284328142_1_alg».proof.Proof.Gen.KernelIdeal.Launch
import proofs.«162072_j90048284328142_1_alg».proof.Proof.Gen.KernelIdeal.Skeleton
import proofs.«162072_j90048284328142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched the block index has not moved), for any proof data whose array is the entry contents and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the one store take the whole staging buffer -/

abbrev rA2 : Rect S64x8192 := Rect.unit (s := S64x8192) ![0, 0] S64x8192.size inb_S64x8192_S64x8192_0_0
abbrev rW2 : Rect S128x8192 := Rect.unit (s := S128x8192) ![0, 0] S128x8192.size inb_S128x8192_S128x8192_0_0
abbrev rO2 : Rect S64x128 := Rect.unit (s := S64x128) ![0, 0] S64x128.size inb_S64x128_S64x128_0_0

/-! ## What the body leaves in the output window's buffer -/

/-- The output block after the body, from the three input blocks: its one store as a piece. -/
def out2_3 (x0 : Vec F S64x8192 .f32) (x1 x2 : Vec F S128x8192 .f32) : Vec F S64x128 .f32 :=
  View.canon [⟨rO2, k2_pay1 (View.ld x0 rA2) (View.ld x1 rW2) (View.ld x2 rW2)⟩]

/-- The one store covers the buffer. -/
theorem cover2_3 (p0 : Vec F S64x128 .f32) (y : S64x128.Idx) :
    ∃ pc ∈ ([⟨rO2, p0⟩] : List (View.Piece (Elt F) S64x128 .f32)), y ∈ pc.1.set :=
  View.cover_of_tiled [⟨rO2, p0⟩] S64x128.size (by rfl) y

/-! ## The body's triple -/

set_option maxHeartbeats 1000000 in
/-- The layer body on whole staging memrefs, the inputs' at contents `x0 x1 x2` and the output's at anything, runs to the
    continuation holding the inputs' as they were and the output's at `out2_3` of them. -/
theorem sound_kernel2 (c : Dev nD) (E : Set ℕ) (i : grid2.Coords) (arg1 : Memref sig .tc .vmem S64x8192 .f32) (harg1 : arg1.IsWhole)
    (arg2 : Memref sig .tc .vmem S128x8192 .f32) (harg2 : arg2.IsWhole) (arg3 : Memref sig .tc .vmem S128x8192 .f32) (harg3 : arg3.IsWhole)
    (arg4 : Memref sig .tc .vmem S64x128 .f32) (harg4 : arg4.IsWhole)
    (x0 : Vec F S64x8192 .f32) (x1 x2 : Vec F S128x8192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__layer_kernel i arg1 harg1 arg2 harg2 arg3 harg3 arg4 harg4) K := by
  simp only [cc2__layer_kernel_eq_skeleton]; unfold cc2__layer_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the layer's pipeline on core `c`: the arrays as the region finds them; after the body at
    point `t` each input's buffer at its block and the output's at `out2_3` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Net

end
-- ==== Proof.KI.Final.lean ====
import proofs.«162072_j90048284328142_1_alg».proof.Proof.Gen.KernelIdeal.Launch
import proofs.«162072_j90048284328142_1_alg».proof.Proof.Gen.KernelIdeal.Skeleton
import proofs.«162072_j90048284328142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the eight points -/

theorem hz3 : (![0, 0] : Fin 2 → Nat) = fun _ => 0 := funext fun a => by fin_cases a <;> rfl

/-- The first branch's condition: the point's coordinate is zero. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- The second branch's condition: the point's coordinate is seven, the last. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-- Off the last point the output window is idle and its block is not written back; at the last point it is live. -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
theorem liveAt3_6 : ∀ t : Fin cfg3.N, cond3_1 (grid3.coords t) → cfg3.idle 6 (grid3.coords t) = false := by decide +kernel

/-! ## The body's triple in each of its three control cases -/

/-- A store through the whole-buffer rectangle, last, covers the accumulator's shape whatever came before it. -/
theorem cover3 (w : Vec F S64x100 .f32) (L : List (View.Piece (Elt F) S64x100 .f32)) (y : S64x100.Idx) :
    ∃ pc ∈ ((⟨Rect.unit (s := S64x100) ![0, 0] S64x100.size inb_S64x100_S64x100_0_0, w⟩ :: L) : List (View.Piece (Elt F) S64x100 .f32)), y ∈ pc.1.set :=
  ⟨_, List.mem_cons_self, by
    have h : ∀ (off : Fin S64x100.rank → Nat) (hh : off = fun _ => 0) (inb : ∀ a, off a + S64x100.size a ≤ S64x100.size a),
        y ∈ (Rect.unit (s := S64x100) off S64x100.size inb).set := by
      intro off hh inb; subst hh; show y ∈ (Rect.whole S64x100).set; rw [Rect.set_whole]; exact Finset.mem_univ y
    exact h _ hz3 inb_S64x100_S64x100_0_0⟩

set_option maxHeartbeats 4000000 in
/-- FIRST POINT (first branch taken, second not): the accumulator, whatever it held, is zeroed and then holds the point's
    payload over zeros; the output buffer is handed back as it was. -/
theorem run3_A (c : Dev nD) (E : Set ℕ) (i : grid3.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x100 .f32) (harg6 : arg6.IsWhole) (arg7 : Memref sig .tc .vmem S64x100 .f32) (harg7 : arg7.IsWhole) (arg8 : Memref sig .tc .vmem S64x100 .f32) (harg8 : arg8.IsWhole)
    (hc0 : cond3_0 i) (hc1 : ¬cond3_1 i) (x0 x1 x2 : Vec F S64x1024 .f32) (x3 x4 x5 : Vec F S1024x100 .f32) (xi : Vec F S64x100 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare xi
            ∗ owns (c : Thread nD τ) arg8 fullShare (k3_pay2 x0 x1 x2 x3 x4 x5 (k3_pay1 (F := F)))) -∗ K ⟨⟩))
      ⊢ wp frame (wpE (defs₀ (F := F)) Variants.none c none) E (cc3__final_kernel i arg1 harg1 arg2 harg2 arg3 harg3 arg4 harg4 arg5 harg5 arg6 harg6 arg7 harg7 arg8 harg8) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  try sl_unfold_words
  refine (View.read_writes_eq_canon _ _ _ (cover3 _ _)).trans ?_
  rw [View.canon_cons_unit_zero (S := S64x100) hz3, View.readCov_unit_zero (S := S64x100) _ hz3]
  simp only [View.readAt_eq_ld, harg1.read_unread, harg2.read_unread, harg3.read_unread, harg4.read_unread, harg5.read_unread, harg6.read_unread, harg8.read_unread, View.ld_unit_zero (S := S64x1024) hz3, View.ld_unit_zero (S := S1024x100) hz3, View.ld_unit_zero (S := S64x100) hz3]

set_option maxHeartbeats 4000000 in
/-- A MIDDLE POINT (neither branch taken): the accumulator goes from `xs` to the point's payload over `xs`; the output
    buffer is handed back as it was. -/
theorem run3_B (c : Dev nD) (E : Set ℕ) (i : grid3.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x100 .f32) (harg6 : arg6.IsWhole) (arg7 : Memref sig .tc .vmem S64x100 .f32) (harg7 : arg7.IsWhole) (arg8 : Memref sig .tc .vmem S64x100 .f32) (harg8 : arg8.IsWhole)
    (hc0 : ¬cond3_0 i) (hc1 : ¬cond3_1 i) (x0 x1 x2 : Vec F S64x1024 .f32) (x3 x4 x5 : Vec F S1024x100 .f32) (xi xs : Vec F S64x100 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare xi
            ∗ owns (c : Thread nD τ) arg8 fullShare (k3_pay2 x0 x1 x2 x3 x4 x5 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  try sl_unfold_words
  refine (View.read_writes_eq_canon _ _ _ (cover3 _ _)).trans ?_
  rw [View.canon_unit_zero hz3]
  simp only [View.readAt_eq_ld, harg1.read_unread, harg2.read_unread, harg3.read_unread, harg4.read_unread, harg5.read_unread, harg6.read_unread, harg8.read_unread, View.ld_unit_zero (S := S64x1024) hz3, View.ld_unit_zero (S := S1024x100) hz3, View.ld_unit_zero (S := S64x100) hz3]

set_option maxHeartbeats 4000000 in
/-- THE LAST POINT (second branch taken): the accumulator goes from `xs` to the point's payload over `xs`, and the output
    buffer, whatever it held, receives that same value. -/
theorem run3_C (c : Dev nD) (E : Set ℕ) (i : grid3.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x100 .f32) (harg6 : arg6.IsWhole) (arg7 : Memref sig .tc .vmem S64x100 .f32) (harg7 : arg7.IsWhole) (arg8 : Memref sig .tc .vmem S64x100 .f32) (harg8 : arg8.IsWhole)
    (hc0 : ¬cond3_0 i) (hc1 : cond3_1 i) (x0 x1 x2 : Vec F S64x1024 .f32) (x3 x4 x5 : Vec F S1024x100 .f32) (xs : Vec F S64x100 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k3_pay2 x0 x1 x2 x3 x4 x5 xs)
            ∗ owns (c : Thread nD τ) arg8 fullShare (k3_pay2 x0 x1 x2 x3 x4 x5 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    try sl_unfold_words
    refine (View.read_writes_eq_canon _ _ _ (cover3 _ _)).trans ?_
    rw [View.canon_unit_zero hz3, View.readCov_unit_zero (S := S64x100) _ hz3]
    simp only [View.readAt_eq_ld, harg1.read_unread, harg2.read_unread, harg3.read_unread, harg4.read_unread, harg5.read_unread, harg6.read_unread, harg8.read_unread, View.ld_unit_zero (S := S64x1024) hz3, View.ld_unit_zero (S := S1024x100) hz3, View.ld_unit_zero (S := S64x100) hz3]
  iexists _; isplitr
  swap; · iexact HS0
  ipureintro
  try sl_unfold_words
  refine (View.read_writes_eq_canon _ _ _ (cover3 _ _)).trans ?_
  rw [View.canon_unit_zero hz3]
  simp only [View.readAt_eq_ld, harg1.read_unread, harg2.read_unread, harg3.read_unread, harg4.read_unread, harg5.read_unread, harg6.read_unread, harg8.read_unread, View.ld_unit_zero (S := S64x1024) hz3, View.ld_unit_zero (S := S1024x100) hz3, View.ld_unit_zero (S := S64x100) hz3]

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data whose
    array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- THE ACCUMULATOR after the body at position `n`: the point's payload `k3_pay2` of its six input blocks and of what the
    accumulator held — zeros (`k3_pay1`) at the first point, what the point before left afterwards. -/
def acc3 (c : Dev nD) : (n : ℕ) → n < cfg3.N → Vec F S64x100 .f32
  | 0, h => k3_pay2 (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩)
      (k3_pay1 (F := F))
  | n + 1, h => k3_pay2 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩)
      (iblk3 V c 5 ⟨n + 1, h⟩) (acc3 c n (Nat.lt_of_succ_lt h))

/-- The scratch buffer the accumulator lives in. -/
abbrev scM3 : Memref sig .tc .vmem S64x100 .f32 := Memref.whole cc3_scratch0

/-- The region's invariant before position `n`: before the first point the untouched scoped rest and the generator
    register; afterwards the scratch at the accumulator the point before left, the other scoped buffers at anything, the
    register at some state. -/
def PhiS3 (c : Dev nD) : (n : ℕ) → n ≤ cfg3.N → sProp 𝕄
  | 0, _ => Pipeline.ΦA spec3 c
  | n + 1, hn => iprop((owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r))

/-- The proof data of the scores' pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = acc3 V c t.val t.isLt := by dsimp only [dat3]

/-! ## The accumulator at a point, by whether it is the first -/

theorem acc3_of_zero (c : Dev nD) (t : Fin cfg3.N) (hz : t.val = 0) :
    acc3 V c t.val t.isLt = k3_pay2 (iblk3 V c 0 t) (iblk3 V c 1 t) (iblk3 V c 2 t) (iblk3 V c 3 t) (iblk3 V c 4 t) (iblk3 V c 5 t) (k3_pay1 (F := F)) := by
  obtain ⟨n, hn⟩ := t
  cases n with
  | zero => rfl
  | succ n => exact absurd hz (Nat.succ_ne_zero n)

theorem acc3_of_pos (c : Dev nD) (t : Fin cfg3.N) (hz : t.val ≠ 0) :
    acc3 V c t.val t.isLt = k3_pay2 (iblk3 V c 0 t) (iblk3 V c 1 t) (iblk3 V c 2 t) (iblk3 V c 3 t) (iblk3 V c 4 t) (iblk3 V c 5 t)
      (acc3 V c (t.val - 1) (Nat.lt_of_le_of_lt (Nat.sub_le _ _) t.isLt)) := by
  obtain ⟨n, hn⟩ := t
  cases n with
  | zero => exact absurd rfl hz
  | succ n => rfl

/-! ## The invariant, position by position -/

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop((owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop((owns (c : Thread nD τ) scM3 fullShare (acc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

/-- What the launch hands the region, with the accumulator's buffer split off the scoped rest and owned as a whole memref. -/
theorem PhiA3_eq (c : Dev nD) :
    (Pipeline.ΦA spec3 c : sProp 𝕄)
      = iprop(((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [scM3, owns_whole]; try rfl

/-! ## The input windows hold their blocks; where the windows are idle -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point: the six inputs' buffers hold their blocks; the point's position says which control case it is
    in; the invariant hands the body the accumulator's buffer (at anything before the first point, at what the point
    before left afterwards) and takes it back at this point's accumulator; the rest of the scoped buffers, the register
    and what the core owes pass through unread; the output buffer comes back untouched except at the last point, where
    it holds the accumulator. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  have hN : t.val < 8 := lt_of_lt_of_eq t.isLt (show cfg3.N = 8 from N_3)
  by_cases h0 : t.val % 8 = 0
  · have hz : t.val = 0 := by omega
    have h1 : ¬t.val % 8 = 7 := by omega
    have hc1 : ¬cond3_1 (grid3.coords t) := fun h => h1 ((hcond3_1 t).mp h)
    rw [Dat.leavesExact_idle (dat3 V c) 6 t (idleAt3_6 t hc1) (noFlush3_6 t hc1)]
    rw [PhiS3_castSucc V c t, PhiS3_zero V c _ _ hz, PhiA3_eq, acc3_of_zero V c t hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run3_A c Set.univ _ _ _ _ _ _ _ _ _ _ _ _ _ _ _ _ _ ((hcond3_0 t).mpr h0) hc1
      (iblk3 V c 0 t) (iblk3 V c 1 t) (iblk3 V c 2 t) (iblk3 V c 3 t) (iblk3 V c 4 t) (iblk3 V c 5 t) ((dat3 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    have hc0 : ¬cond3_0 (grid3.coords t) := fun h => h0 ((hcond3_0 t).mp h)
    rw [PhiS3_castSucc V c t, PhiS3_pos V c _ _ hz, acc3_of_pos V c t hz]
    by_cases h1 : t.val % 8 = 7
    · have hc1 : cond3_1 (grid3.coords t) := (hcond3_1 t).mpr h1
      rw [show (dat3 V c).leavesExact 6 t = owns (c : Thread nD τ) (st3_6 t) fullShare ((dat3 V c).after 6 t) from by
        unfold Dat.leavesExact; rw [liveAt3_6 t hc1], after3_6, acc3_of_pos V c t hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run3_C c Set.univ _ _ _ _ _ _ _ _ _ _ _ _ _ _ _ _ _ hc0 hc1
        (iblk3 V c 0 t) (iblk3 V c 1 t) (iblk3 V c 2 t) (iblk3 V c 3 t) (iblk3 V c 4 t) (iblk3 V c 5 t) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond3_1 (grid3.coords t) := fun h => h1 ((hcond3_1 t).mp h)
      rw [Dat.leavesExact_idle (dat3 V c) 6 t (idleAt3_6 t hc1) (noFlush3_6 t hc1)]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run3_B c Set.univ _ _ _ _ _ _ _ _ _ _ _ _ _ _ _ _ _ hc0 hc1
        (iblk3 V c 0 t) (iblk3 V c 1 t) (iblk3 V c 2 t) (iblk3 V c 3 t) (iblk3 V c 4 t) (iblk3 V c 5 t) ((dat3 V c).before 6 t d6) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped rest and the register back: the accumulator's contents are forgotten. -/
theorem hout3 (c : Dev nD) : (dat3 V c).Φ (Fin.last cfg3.N) ⊢ (Pipeline.ΦA spec3 c : sProp 𝕄) := by
  have ht : (Fin.last cfg3.N).val ≠ 0 := by rw [Fin.val_last]; have : cfg3.N = 8 := N_3; omega
  rw [show (dat3 V c).Φ (Fin.last cfg3.N) = PhiS3 V c (Fin.last cfg3.N).val (Nat.le_of_lt_succ (Fin.last cfg3.N).isLt) from rfl,
    PhiS3_pos V c _ _ ht, PhiA3_eq]
  iintro ⟨⟨HS0, Hr⟩, Hg⟩
  isplitl [HS0 Hr]
  · isplitl [HS0]
    · iexists _; iexact HS0
    iexact Hr
  iexact Hg

end Cert.KernelIdeal.Net

end
-- ==== Proof.KI.Run.lean ====
/-
  The run of @main over its five segments: the stretch of host operations that thresholds the input, then the three
  thresholded layers' pallas_calls and the scores' pallas_call back to back, nothing between or after them.  The buffer
  contents at every segment boundary are a fold from the launch memory: the host stretch's `StableHlo.after`, then per
  region its arrays at what the write-backs leave and every other buffer as entered.  Each region's proof data is taken at
  its entry contents; the thread state between segments is "every unscoped buffer at the boundary's contents, the
  generator register at some state, nothing owed".  The run's post keeps every unscoped buffer of the final memory at
  the last boundary's contents; each argument array walks back through the fold to its launch contents, and each
  region's output array is what its write-backs leave while every other buffer passes through it.
-/
import proofs.«162072_j90048284328142_1_alg».proof.Proof.KI.Layer0
import proofs.«162072_j90048284328142_1_alg».proof.Proof.KI.Layer1
import proofs.«162072_j90048284328142_1_alg».proof.Proof.KI.Layer2
import proofs.«162072_j90048284328142_1_alg».proof.Proof.KI.Final
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the host stretch (the first layer's entry): the thresholded input is in place. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At the exit of the first layer's region: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At the exit each array holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the exit of the second layer's region: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
/-- At the exit each array holds what the pipeline leaves, and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At the exit of the third layer's region: its arrays at what the pipeline leaves (the inputs as entered, the output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
/-- At the exit each array holds what the pipeline leaves, and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At the exit of the scores' region: its arrays at what the pipeline leaves (the inputs as entered, the output's write-backs
    folded), every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references. -/
abbrev V5 : (c : Dev nD) → (b : Ref sig .tc) → Buf (Elt F) ((c : Thread nD τ).loc b) := fun c b => W5 m ρ c b
/-- At the exit each array holds what the pipeline leaves, and every other buffer what it held at entry. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-! ## What each segment leaves unchanged -/

/-- The references the host stretch writes: the threshold constant, its broadcast, the comparison and the thresholded
    input. -/
abbrev hostOps0_W : List (Ref sig .tc) := [main_cst, main_v0, main_v1, main_v2]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_⟩ <;>
  · simp only [StableHlo.nullary_writes, StableHlo.unary_writes, StableHlo.binary_writes, Finset.singleton_subset_iff, List.mem_toFinset]
    exact List.mem_map_of_mem (by decide)
/-- A reference the host stretch does not write keeps its launch contents. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- An input window's array passes through the region. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- An input window's array passes through the region. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))

/-- An input window's array passes through the region. -/
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))

/-- An input window's array passes through the region. -/
theorem W5_in (c : Dev nD) (w : Fin cfg3.W) (hin : (cfg3.win w).isOut = false) :
    W5 m ρ c (Proc.devRef .tc (Pipeline.arrRef spec3 w)) = W4 m ρ c (Proc.devRef .tc (Pipeline.arrRef spec3 w)) :=
  (W5_arr m ρ c w).trans (((dat3 (V4 m ρ) c).arrAt_in w hin _).trans (A_eq3 (V4 m ρ) c w))

/-- The first layer's output array is what its write-backs leave, -/
theorem V2_v3 (c : Dev nD) : V2 m ρ c main_v3 = (dat0 (V1 m ρ) c).arrAt 3 cfg0.N :=
  W2_arr m ρ c 3
/-- and every other buffer passes through it: an input array is never written back, and a buffer that is no array of
    the region is not touched. -/
theorem V2_keep (c : Dev nD) (b : Ref sig .tc) (hb : b ≠ main_v3) : V2 m ρ c b = V1 m ρ c b := by
  by_cases h : ∃ w, Pipeline.arrRef spec0 w = b
  · obtain ⟨w, rfl⟩ := h
    fin_cases w
    · exact W2_in m ρ c 0 rfl
    · exact W2_in m ρ c 1 rfl
    · exact W2_in m ρ c 2 rfl
    · exact absurd rfl hb
  · exact W2_of_ne m ρ c b fun w e => h ⟨w, e⟩

/-- The second layer's output array is what its write-backs leave, -/
theorem V3_v4 (c : Dev nD) : V3 m ρ c main_v4 = (dat1 (V2 m ρ) c).arrAt 3 cfg1.N :=
  W3_arr m ρ c 3
/-- and every other buffer passes through it: an input array is never written back, and a buffer that is no array of
    the region is not touched. -/
theorem V3_keep (c : Dev nD) (b : Ref sig .tc) (hb : b ≠ main_v4) : V3 m ρ c b = V2 m ρ c b := by
  by_cases h : ∃ w, Pipeline.arrRef spec1 w = b
  · obtain ⟨w, rfl⟩ := h
    fin_cases w
    · exact W3_in m ρ c 0 rfl
    · exact W3_in m ρ c 1 rfl
    · exact W3_in m ρ c 2 rfl
    · exact absurd rfl hb
  · exact W3_of_ne m ρ c b fun w e => h ⟨w, e⟩

/-- The third layer's output array is what its write-backs leave, -/
theorem V4_v5 (c : Dev nD) : V4 m ρ c main_v5 = (dat2 (V3 m ρ) c).arrAt 3 cfg2.N :=
  W4_arr m ρ c 3
/-- and every other buffer passes through it: an input array is never written back, and a buffer that is no array of
    the region is not touched. -/
theorem V4_keep (c : Dev nD) (b : Ref sig .tc) (hb : b ≠ main_v5) : V4 m ρ c b = V3 m ρ c b := by
  by_cases h : ∃ w, Pipeline.arrRef spec2 w = b
  · obtain ⟨w, rfl⟩ := h
    fin_cases w
    · exact W4_in m ρ c 0 rfl
    · exact W4_in m ρ c 1 rfl
    · exact W4_in m ρ c 2 rfl
    · exact absurd rfl hb
  · exact W4_of_ne m ρ c b fun w e => h ⟨w, e⟩

/-- The scores' region's output array is what its write-backs leave, -/
theorem V5_v6 (c : Dev nD) : V5 m ρ c main_v6 = (dat3 (V4 m ρ) c).arrAt 6 cfg3.N :=
  W5_arr m ρ c 6
/-- and every other buffer passes through it: an input array is never written back, and a buffer that is no array of
    the region is not touched. -/
theorem V5_keep (c : Dev nD) (b : Ref sig .tc) (hb : b ≠ main_v6) : V5 m ρ c b = V4 m ρ c b := by
  by_cases h : ∃ w, Pipeline.arrRef spec3 w = b
  · obtain ⟨w, rfl⟩ := h
    fin_cases w
    · exact W5_in m ρ c 0 rfl
    · exact W5_in m ρ c 1 rfl
    · exact W5_in m ρ c 2 rfl
    · exact W5_in m ρ c 3 rfl
    · exact W5_in m ρ c 4 rfl
    · exact W5_in m ρ c 5 rfl
    · exact absurd rfl hb
  · exact W5_of_ne m ρ c b fun w e => h ⟨w, e⟩

/-! ### The arguments end as launched: the host stretch writes none, and a region reads an argument through an input
    window or does not touch it, so the fold at an argument's buffer walks back to the launch memory -/
theorem W5_main_arg0 (c : Dev nD) : W5 m ρ c (Proc.devRef .tc main_arg0) = m ((c : Thread nD τ).loc main_arg0) :=
  (W5_of_ne m ρ c main_arg0 (by decide)).trans <| (W4_of_ne m ρ c main_arg0 (by decide)).trans <| (W3_of_ne m ρ c main_arg0 (by decide)).trans <| (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of_ne m ρ c main_arg1 (by decide)).trans <| (W4_of_ne m ρ c main_arg1 (by decide)).trans <| (W3_of_ne m ρ c main_arg1 (by decide)).trans <| (W2_in m ρ c 1 rfl).trans <| (W1_of m ρ c main_arg1 (by decide)).trans rfl
theorem W5_main_arg2 (c : Dev nD) : W5 m ρ c (Proc.devRef .tc main_arg2) = m ((c : Thread nD τ).loc main_arg2) :=
  (W5_of_ne m ρ c main_arg2 (by decide)).trans <| (W4_of_ne m ρ c main_arg2 (by decide)).trans <| (W3_of_ne m ρ c main_arg2 (by decide)).trans <| (W2_in m ρ c 2 rfl).trans <| (W1_of m ρ c main_arg2 (by decide)).trans rfl
theorem W5_main_arg3 (c : Dev nD) : W5 m ρ c (Proc.devRef .tc main_arg3) = m ((c : Thread nD τ).loc main_arg3) :=
  (W5_of_ne m ρ c main_arg3 (by decide)).trans <| (W4_of_ne m ρ c main_arg3 (by decide)).trans <| (W3_in m ρ c 1 rfl).trans <| (W2_of_ne m ρ c main_arg3 (by decide)).trans <| (W1_of m ρ c main_arg3 (by decide)).trans rfl
theorem W5_main_arg4 (c : Dev nD) : W5 m ρ c (Proc.devRef .tc main_arg4) = m ((c : Thread nD τ).loc main_arg4) :=
  (W5_of_ne m ρ c main_arg4 (by decide)).trans <| (W4_of_ne m ρ c main_arg4 (by decide)).trans <| (W3_in m ρ c 2 rfl).trans <| (W2_of_ne m ρ c main_arg4 (by decide)).trans <| (W1_of m ρ c main_arg4 (by decide)).trans rfl
theorem W5_main_arg5 (c : Dev nD) : W5 m ρ c (Proc.devRef .tc main_arg5) = m ((c : Thread nD τ).loc main_arg5) :=
  (W5_of_ne m ρ c main_arg5 (by decide)).trans <| (W4_in m ρ c 1 rfl).trans <| (W3_of_ne m ρ c main_arg5 (by decide)).trans <| (W2_of_ne m ρ c main_arg5 (by decide)).trans <| (W1_of m ρ c main_arg5 (by decide)).trans rfl
theorem W5_main_arg6 (c : Dev nD) : W5 m ρ c (Proc.devRef .tc main_arg6) = m ((c : Thread nD τ).loc main_arg6) :=
  (W5_of_ne m ρ c main_arg6 (by decide)).trans <| (W4_in m ρ c 2 rfl).trans <| (W3_of_ne m ρ c main_arg6 (by decide)).trans <| (W2_of_ne m ρ c main_arg6 (by decide)).trans <| (W1_of m ρ c main_arg6 (by decide)).trans rfl
theorem W5_main_arg7 (c : Dev nD) : W5 m ρ c (Proc.devRef .tc main_arg7) = m ((c : Thread nD τ).loc main_arg7) :=
  (W5_in m ρ c 3 rfl).trans <| (W4_of_ne m ρ c main_arg7 (by decide)).trans <| (W3_of_ne m ρ c main_arg7 (by decide)).trans <| (W2_of_ne m ρ c main_arg7 (by decide)).trans <| (W1_of m ρ c main_arg7 (by decide)).trans rfl
theorem W5_main_arg8 (c : Dev nD) : W5 m ρ c (Proc.devRef .tc main_arg8) = m ((c : Thread nD τ).loc main_arg8) :=
  (W5_in m ρ c 4 rfl).trans <| (W4_of_ne m ρ c main_arg8 (by decide)).trans <| (W3_of_ne m ρ c main_arg8 (by decide)).trans <| (W2_of_ne m ρ c main_arg8 (by decide)).trans <| (W1_of m ρ c main_arg8 (by decide)).trans rfl
theorem W5_main_arg9 (c : Dev nD) : W5 m ρ c (Proc.devRef .tc main_arg9) = m ((c : Thread nD τ).loc main_arg9) :=
  (W5_in m ρ c 5 rfl).trans <| (W4_of_ne m ρ c main_arg9 (by decide)).trans <| (W3_of_ne m ρ c main_arg9 (by decide)).trans <| (W2_of_ne m ρ c main_arg9 (by decide)).trans <| (W1_of m ρ c main_arg9 (by decide)).trans rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- THE FIRST LAYER'S REGION over the thread state: entered from every unscoped buffer at `W1`, left at `W2`.  Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAYER'S REGION over the thread state: entered from every unscoped buffer at `W2`, left at `W3`.  Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE THIRD LAYER'S REGION over the thread state: entered from every unscoped buffer at `W3`, left at `W4`.  Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCORES' REGION over the thread state: entered from every unscoped buffer at `W4`, left at `W5`.  Its arrays are split
    out of the unscoped buffers and put back at the exit contents; the generator register and the scoped rest go into the
    invariant's first stage and come out of its last (the accumulator's contents forgotten); nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (V4 m ρ) c
    unfold Pipeline.ΦA at h
    rw [show (pdats m ρ 3 c).Φ 0 = (dat3 (V4 m ρ) c).Φ 0 from rfl]
    iintro ⟨Hp, -, Hr⟩
    iapply h
    isplitl [Hr]; · iexact Hr
    iexact Hp
  hout c := by
    have h := hout3 (V4 m ρ) c
    unfold Pipeline.ΦA at h
    rw [Pipeline.ownSems0_none, show (pdats m ρ 3 c).Φ (Fin.last _) = (dat3 (V4 m ρ) c).Φ (Fin.last cfg3.N) from rfl]
    iintro Hi
    ihave H := h $$ Hi
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order: the host stretch from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ) ]
/-- @main IS the run of the segments: it is the chain of its items, and the segments' run is that chain. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each core's unscoped buffers hold the last
    boundary's contents `W5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

end Cert.KernelIdeal.Net

end
-- ==== Proof.Spec.lean ====
/-
  The network both programs compute, as functions of the ten argument arrays over the extended reals, index by index.
  An input bit is 1 where the input exceeds one half and 0 elsewhere; a hidden neuron of a layer has two segments, each a
  row of a matrix, and outputs 1 when the sum over the previous layer of activation times synapse reaches 4 on either
  segment, and 0 otherwise; the class scores add, over the three hidden layers, the sums over the 8192 neurons of
  activation times output strength.  Comparisons and the conversion of the one-bit result to a number are the
  operations' own scalar forms, so that a program's pointwise operations read at an index unfold to these by definition.
-/
import Idealize.ShloMosaic.PureOps.Ideal
import Idealize.ShloMosaic.PureOps.Ideal.Laws
import Idealize.ShloMosaic.Lib.ValueIdx

noncomputable section

open scoped BigOperators

namespace Cert.Net

open Idealize.ShloMosaic Idealize.ShloMosaic.ValueIdx

/-- A matrix of extended reals over the literal shape `[n0, n1]`. -/
abbrev Arr (n0 n1 : ℕ) : Type := (⟨2, ![n0, n1]⟩ : Shape).Idx → EReal

/-- One half and four, as the two programs' literals denote them. -/
abbrev half : EReal := Ideal.ofBits .f32 0x3F000000#32
abbrev four : EReal := Ideal.ofBits .f32 0x40800000#32

/-- The input bit: 1 where `x > 1/2`, else 0 (the one-bit comparison read as an unsigned number). -/
def bit (x : EReal) : EReal :=
  FloatOps.uitofp (F := Ideal) .f32 (FloatOps.cmpf (F := Ideal) (φ := .f32) .ogt x half)

/-- A neuron fires, 1, when either segment's sum is at least 4; else 0. -/
def fire (z0 z1 : EReal) : EReal :=
  FloatOps.uitofp (F := Ideal) .f32
    (IntOp.ori (FloatOps.cmpf (F := Ideal) (φ := .f32) .oge z0 four) (FloatOps.cmpf (F := Ideal) (φ := .f32) .oge z1 four))

/-- The binarized input. -/
def binarize (x : Arr 64 2048) : Arr 64 2048 := fun i => bit (x i)

/-- One neuron `h` of a layer on one batch row `b`: the two segment sums over the previous layer's `K` activations. -/
def layerAt {K : ℕ} (a : Arr 64 K) (W0 W1 : Arr 8192 K) (b : Fin 64) (h : Fin 8192) : EReal :=
  fire (∑ k : Fin K, a (ix2 b k) * W0 (ix2 h k)) (∑ k : Fin K, a (ix2 b k) * W1 (ix2 h k))

/-- A layer's output. -/
def layer {K : ℕ} (a : Arr 64 K) (W0 W1 : Arr 8192 K) : Arr 64 8192 := fun i => layerAt a W0 W1 (i 0) (i 1)

theorem layer_ix2 {K : ℕ} (a : Arr 64 K) (W0 W1 : Arr 8192 K) (b : Fin 64) (h : Fin 8192) :
    layer a W0 W1 (ix2 b h) = layerAt a W0 W1 b h := rfl

/-- One class score on one batch row: the three hidden layers' contributions, grouped as the reference adds them. -/
def logitsAt (a1 a2 a3 : Arr 64 8192) (O0 O1 O2 : Arr 8192 100) (b : Fin 64) (j : Fin 100) : EReal :=
  (∑ h : Fin 8192, a1 (ix2 b h) * O0 (ix2 h j) + ∑ h : Fin 8192, a2 (ix2 b h) * O1 (ix2 h j))
    + ∑ h : Fin 8192, a3 (ix2 b h) * O2 (ix2 h j)

/-- The class scores. -/
def logits (a1 a2 a3 : Arr 64 8192) (O0 O1 O2 : Arr 8192 100) : Arr 64 100 :=
  fun i => logitsAt a1 a2 a3 O0 O1 O2 (i 0) (i 1)

theorem logits_ix2 (a1 a2 a3 : Arr 64 8192) (O0 O1 O2 : Arr 8192 100) (b : Fin 64) (j : Fin 100) :
    logits a1 a2 a3 O0 O1 O2 (ix2 b j) = logitsAt a1 a2 a3 O0 O1 O2 b j := rfl

/-- The whole network: three layers from the binarized input, then the scores. -/
def net (x : Arr 64 2048) (W00 W01 : Arr 8192 2048) (W10 W11 W20 W21 : Arr 8192 8192) (O0 O1 O2 : Arr 8192 100) : Arr 64 100 :=
  logits (layer (binarize x) W00 W01) (layer (layer (binarize x) W00 W01) W10 W11)
    (layer (layer (layer (binarize x) W00 W01) W10 W11) W20 W21) O0 O1 O2

end Cert.Net

end
-- ==== Proof.KI.HostVal.lean ====
/-
  What @main's four host operations leave in the buffer the first layer reads: the input compared with one half,
  element by element, and the one-bit results read as numbers — the binarized input.  Every other buffer the regions
  read is an argument, which no host operation writes.
-/
import proofs.«162072_j90048284328142_1_alg».proof.Proof.Gen.KernelIdeal.Launch
import proofs.«162072_j90048284328142_1_alg».proof.Proof.Spec
import Idealize.ShloMosaic.Lib.StableHlo.Run
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- After the host operations the first layer's activation buffer holds the binarized input. -/
theorem host_v2 (c : Dev nD) :
    (StableHlo.after (hostOps0 (F := Ideal)) (fun b => m (c, b)) (Proc.devRef .tc main_v2) : S64x2048.Idx → EReal)
      = Cert.Net.binarize (m ((c : Thread nD τ).loc main_arg0)) := by
  after_results
  funext i
  rfl

/-- No host operation writes an argument or a later region's output: such a buffer is as launched. -/
theorem host_keep (c : Dev nD) (b : Ref sig .tc) (hb : b ∉ ([main_cst, main_v0, main_v1, main_v2] : List (Ref sig .tc))) :
    StableHlo.after (hostOps0 (F := Ideal)) (fun b => m (c, b)) (Proc.devRef .tc b) = m ((c : Thread nD τ).loc b) := by
  refine StableHlo.after_of_forall_not_mem (b := Proc.devRef .tc b) _ _ (List.forall_iff_forall_mem.mp ?_)
  simp only [hostOps0, List.Forall, StableHlo.nullary_writes, StableHlo.unary_writes, StableHlo.binary_writes, Finset.mem_singleton]
  simp only [List.mem_cons, List.mem_nil_iff, or_false, not_or] at hb
  refine ⟨?_, ?_, ?_, ?_⟩
  · exact StableHlo.devRef_ne_of_ne hb.1
  · exact StableHlo.devRef_ne_of_ne hb.2.1
  · exact StableHlo.devRef_ne_of_ne hb.2.2.1
  · exact StableHlo.devRef_ne_of_ne hb.2.2.2

end Cert.KernelIdeal.Net

end
-- ==== Proof.KI.ValLayer0.lean ====
/-
  The value a thresholded layer's region leaves in its output array, at the ideal values, for any contents `V` of the
  TensorCore's buffers when the region is entered.  At a point the body multiplies the whole activation block with the
  rows of each of the two segment blocks (a contraction over the previous layer's 2048 activations), compares each of
  the two sums with four, and stores 1 where either reaches it and 0 elsewhere.  Read at an entry `(b, r)` of the block
  that is the neuron's firing rule on the two segment sums of batch row `b` against block row `r`.  Point `t` holds the 512 rows
  of the segment matrices from row `t * 512` on and the columns of the same numbers of the output, so what it writes back
  is block `t` of ONE function of the three arrays, the layer; the 16 blocks fill the output array, hence the array ends
  holding the layer of the activations and the two segment matrices.
-/
import proofs.«162072_j90048284328142_1_alg».proof.Proof.KI.Layer0
import proofs.«162072_j90048284328142_1_alg».proof.Proof.Spec
import Idealize.ShloMosaic.Lib.ValueIdx
import Idealize.ShloMosaic.Lib.Pipeline.Value
import Idealize.ShloMosaic.PureOps.Ideal.Laws
import Idealize.ShloMosaic.Lib.KernelVsHost

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Val0

/-! ## The block's contraction: which operand entries meet at an output entry -/

theorem lhs_0 (i : S64x512.Idx) (q : dot_S64x2048_S512x2048_S64x512_1_1_0_0_n_n.contr.Idx) :
    (dot_S64x2048_S512x2048_S64x512_1_1_0_0_n_n.lhsIdx i q 0).val = (i 0).val := by
  unfold DotDims.lhsIdx
  rw [dif_neg (show ¬(0 : Fin S64x2048.rank) ∈ dot_S64x2048_S512x2048_S64x512_1_1_0_0_n_n.lhsBatch by decide), dif_pos (show (0 : Fin S64x2048.rank) ∈ dot_S64x2048_S512x2048_S64x512_1_1_0_0_n_n.lhsNonContracting by decide)]
  rfl
theorem lhs_1 (i : S64x512.Idx) (q : dot_S64x2048_S512x2048_S64x512_1_1_0_0_n_n.contr.Idx) :
    (dot_S64x2048_S512x2048_S64x512_1_1_0_0_n_n.lhsIdx i q 1).val = (q ⟨0, by decide⟩).val :=
  dot_S64x2048_S512x2048_S64x512_1_1_0_0_n_n.lhsIdx_val_of_single rfl i q
theorem rhs_0 (i : S64x512.Idx) (q : dot_S64x2048_S512x2048_S64x512_1_1_0_0_n_n.contr.Idx) :
    (dot_S64x2048_S512x2048_S64x512_1_1_0_0_n_n.rhsIdx i q 0).val = (i 1).val := by
  unfold DotDims.rhsIdx
  rw [dif_neg (show ¬(0 : Fin S512x2048.rank) ∈ dot_S64x2048_S512x2048_S64x512_1_1_0_0_n_n.rhsBatch by decide), dif_pos (show (0 : Fin S512x2048.rank) ∈ dot_S64x2048_S512x2048_S64x512_1_1_0_0_n_n.rhsNonContracting by decide)]
  rfl
theorem rhs_1 (i : S64x512.Idx) (q : dot_S64x2048_S512x2048_S64x512_1_1_0_0_n_n.contr.Idx) :
    (dot_S64x2048_S512x2048_S64x512_1_1_0_0_n_n.rhsIdx i q 1).val = (q ⟨0, by decide⟩).val :=
  dot_S64x2048_S512x2048_S64x512_1_1_0_0_n_n.rhsIdx_val_of_single rfl i q

/-- A block matmul into the zero splat, read at an entry: row `b` of the activations against row `r` of the segment block. -/
theorem mm_apply (y0 : FVec Ideal S64x2048 .bf16) (y1 : FVec Ideal S512x2048 .bf16) (b : Fin 64) (r : Fin 512) :
    matmul (F := Ideal) dot_S64x2048_S512x2048_S64x512_1_1_0_0_n_n none y0 y1 (constant (F := Ideal) S64x512 .f32 0x00000000#32) (ix2 b r)
      = ∑ k : Fin 2048, y0 (ix2 b k) * y1 (ix2 r k) := by
  refine (Ideal.matmul_constant_zero_apply dot_S64x2048_S512x2048_S64x512_1_1_0_0_n_n none y0 y1 (ix2 b r)).trans ?_
  rw [← Equiv.sum_comp (ValueIdx.contrEquiv1 dot_S64x2048_S512x2048_S64x512_1_1_0_0_n_n 2048 rfl rfl).symm]
  refine Finset.sum_congr rfl fun k _ => ?_
  have hk := ValueIdx.contrEquiv1_symm_val dot_S64x2048_S512x2048_S64x512_1_1_0_0_n_n 2048 rfl rfl k
  have el : dot_S64x2048_S512x2048_S64x512_1_1_0_0_n_n.lhsIdx (ix2 b r) ((ValueIdx.contrEquiv1 dot_S64x2048_S512x2048_S64x512_1_1_0_0_n_n 2048 rfl rfl).symm k) = ix2 b k := funext fun a => Fin.ext (by
    match a with
    | ⟨0, _⟩ => exact lhs_0 _ _
    | ⟨1, _⟩ => exact (lhs_1 _ _).trans hk)
  have er : dot_S64x2048_S512x2048_S64x512_1_1_0_0_n_n.rhsIdx (ix2 b r) ((ValueIdx.contrEquiv1 dot_S64x2048_S512x2048_S64x512_1_1_0_0_n_n 2048 rfl rfl).symm k) = ix2 r k := funext fun a => Fin.ext (by
    match a with
    | ⟨0, _⟩ => exact rhs_0 _ _
    | ⟨1, _⟩ => exact (rhs_1 _ _).trans hk)
  rw [el, er]

/-- The stored value of a block at an entry: the neuron fires on row `b` when either segment's sum reaches four. -/
theorem pay_apply (x0 : Vec Ideal S64x2048 .f32) (x1 x2 : Vec Ideal S512x2048 .f32) (b : Fin 64) (r : Fin 512) :
    k0_pay1 (F := Ideal) x0 x1 x2 (ix2 b r)
      = Cert.Net.fire (∑ k : Fin 2048, x0 (ix2 b k) * x1 (ix2 r k)) (∑ k : Fin 2048, x0 (ix2 b k) * x2 (ix2 r k)) := by
  unfold k0_pay1
  refine (congrFun (sitofp_extui_eq_uitofp (φ := .f32) _ natLt_1_32) (ix2 b r)).trans ?_
  show FloatOps.uitofp (F := Ideal) .f32 (IntOp.ori (FloatOps.cmpf (F := Ideal) (φ := .f32) .oge _ Cert.Net.four) (FloatOps.cmpf (F := Ideal) (φ := .f32) .oge _ Cert.Net.four)) = _
  unfold Cert.Net.fire
  rw [mm_apply, mm_apply]
  simp only [truncf_apply, shapeCast_self]

/-! ## Where a block sits in its array -/

theorem zero_off : (![0, 0] : Fin 2 → Nat) = fun _ => 0 := funext fun a => by fin_cases a <;> rfl

/-- The block index of every window at every point: the activations are one block, the two segment matrices move along
    their rows with the point, the output along its columns. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The activation block at any point is the activation array. -/
theorem act_block (c : Dev nD) (t : Fin cfg0.N) (b : Fin 64) (k : Fin 2048) :
    (iblk0 (F := Ideal) V c 0 t : Vec Ideal S64x2048 .f32) (ix2 b k) = (V c main_v2 : Cert.Net.Arr 64 2048) (ix2 b k) := by
  obtain ⟨e0, e1, -⟩ := block_index t
  show (V c main_v2 : Cert.Net.Arr 64 2048) (((cfg0.win 0).blk t).view.emb (ix2 b k)) = _
  refine congrArg _ (funext fun a => Fin.ext ?_)
  match a with
  | ⟨0, _⟩ => show win0_0.index t (0 : Fin 2) * 64 + 1 * b.val = b.val; rw [e0]; omega
  | ⟨1, _⟩ => show win0_0.index t (1 : Fin 2) * 2048 + 1 * k.val = k.val; rw [e1]; omega

/-- Row `r` of the first segment's block at point `t` is row `t * 512 + r` of the first segment matrix. -/
theorem segA_block (c : Dev nD) (t : Fin cfg0.N) (r : Fin 512) (k : Fin 2048) (h : Fin 8192) (hh : h.val = t.val * 512 + r.val) :
    (iblk0 (F := Ideal) V c 1 t : Vec Ideal S512x2048 .f32) (ix2 r k) = (V c main_arg1 : Cert.Net.Arr 8192 2048) (ix2 h k) := by
  obtain ⟨-, -, e0, e1, -⟩ := block_index t
  show (V c main_arg1 : Cert.Net.Arr 8192 2048) (((cfg0.win 1).blk t).view.emb (ix2 r k)) = _
  refine congrArg _ (funext fun a => Fin.ext ?_)
  match a with
  | ⟨0, _⟩ => show win0_1.index t (0 : Fin 2) * 512 + 1 * r.val = h.val; rw [e0, hh]; omega
  | ⟨1, _⟩ => show win0_1.index t (1 : Fin 2) * 2048 + 1 * k.val = k.val; rw [e1]; omega

/-- The same for the second segment. -/
theorem segB_block (c : Dev nD) (t : Fin cfg0.N) (r : Fin 512) (k : Fin 2048) (h : Fin 8192) (hh : h.val = t.val * 512 + r.val) :
    (iblk0 (F := Ideal) V c 2 t : Vec Ideal S512x2048 .f32) (ix2 r k) = (V c main_arg2 : Cert.Net.Arr 8192 2048) (ix2 h k) := by
  obtain ⟨-, -, -, -, e0, e1, -⟩ := block_index t
  show (V c main_arg2 : Cert.Net.Arr 8192 2048) (((cfg0.win 2).blk t).view.emb (ix2 r k)) = _
  refine congrArg _ (funext fun a => Fin.ext ?_)
  match a with
  | ⟨0, _⟩ => show win0_2.index t (0 : Fin 2) * 512 + 1 * r.val = h.val; rw [e0, hh]; omega
  | ⟨1, _⟩ => show win0_2.index t (1 : Fin 2) * 2048 + 1 * k.val = k.val; rw [e1]; omega

/-- Entry `(b, r)` of the output block at point `t` is entry `(b, t * 512 + r)` of the output array. -/
theorem out_block (t : Fin cfg0.N) (b : Fin 64) (r : Fin 512) (h : Fin 8192) (hh : h.val = t.val * 512 + r.val) :
    ((cfg0.win 3).blk t).view.emb (ix2 b r) = (ix2 b h : S64x8192.Idx) := by
  obtain ⟨-, -, -, -, -, -, e0, e1⟩ := block_index t
  refine funext fun a => Fin.ext ?_
  match a with
  | ⟨0, _⟩ => show win0_3.index t (0 : Fin 2) * 64 + 1 * b.val = b.val; rw [e0]; omega
  | ⟨1, _⟩ => show win0_3.index t (1 : Fin 2) * 512 + 1 * r.val = h.val; rw [e1, hh]; omega

/-! ## What a point writes back -/

/-- Point `t` writes back block `t` of the layer's output on the arrays as the region finds them. -/
theorem flushed_eq (c : Dev nD) (t : Fin cfg0.N) :
    (dat0 (F := Ideal) V c).flushed 3 t
      = ((cfg0.win 3).blk t).view.read (Elt Ideal) (Cert.Net.layer (V c main_v2) (V c main_arg1) (V c main_arg2)) := by
  show (cfg0.win 3).cut (grid0.coords t) ((dat0 (F := Ideal) V c).after 3 t) = _
  rw [after0_3]
  unfold out0_3
  rw [View.canon_unit_zero zero_off]
  simp only [View.ld_unit_zero (S := S64x2048) zero_off, View.ld_unit_zero (S := S512x2048) zero_off]
  funext j
  obtain ⟨p, q, rfl⟩ : ∃ (p : Fin 64) (q : Fin 512), (j : S64x512.Idx) = ix2 p q := ⟨j 0, j 1, eq_ix2 j⟩
  have hq : q.val < 512 := q.isLt
  have ht : t.val < 16 := (show t.val < grid0.N from t.isLt).trans_eq N_0
  obtain ⟨h, hh⟩ : ∃ h : Fin 8192, h.val = t.val * 512 + q.val := ⟨⟨t.val * 512 + q.val, by omega⟩, rfl⟩
  show k0_pay1 (F := Ideal) (iblk0 V c 0 t) (iblk0 V c 1 t) (iblk0 V c 2 t) (ix2 p q)
      = Cert.Net.layer (V c main_v2) (V c main_arg1) (V c main_arg2) (((cfg0.win 3).blk t).view.emb (ix2 p q))
  rw [out_block t p q h hh, Cert.Net.layer_ix2]
  refine (pay_apply _ _ _ p q).trans ?_
  unfold Cert.Net.layerAt
  congr 1 <;> refine Finset.sum_congr rfl fun k _ => ?_
  · rw [act_block V c t p k, segA_block V c t q k h hh]
  · rw [act_block V c t p k, segB_block V c t q k h hh]

/-! ## The blocks fill the array -/

/-- An entry of the output array lies in point `t`'s block when each coordinate lies in the block's range on its axis. -/
theorem mem_block (t : Fin cfg0.N) (i : S64x8192.Idx) :
    i ∈ ((cfg0.win 3).blk t).view.set ↔ ∀ a : Fin 2, win0_3.index t a * S64x512.size a ≤ (i a).val ∧ (i a).val < win0_3.index t a * S64x512.size a + S64x512.size a := by
  show i ∈ ((View.whole main_v3).slice (win0_3.rect t)).set ↔ _
  rw [View.set_slice_whole, Rect.mem_set_unit]
  exact Iff.rfl

/-- Neuron `h` is written by the point `h / 512`, and every point writes back. -/
theorem cover (i : S64x8192.Idx) : ∃ t : Fin cfg0.N, (cfg0.win 3).flush t = true ∧ i ∈ ((cfg0.win 3).blk t).view.set := by
  have hi0 : (i 0).val < 64 := (i 0).isLt
  have hi1 : (i 1).val < 8192 := (i 1).isLt
  obtain ⟨t, ht⟩ : ∃ t : Fin cfg0.N, t.val = (i 1).val / 512 :=
    ⟨⟨(i 1).val / 512, by rw [show cfg0.N = 16 from N_0]; omega⟩, rfl⟩
  obtain ⟨-, -, -, -, -, -, e0, e1⟩ := block_index t
  refine ⟨t, flush0_3 t, ?_⟩
  rw [mem_block]
  intro a
  match a with
  | ⟨0, _⟩ => show win0_3.index t (0 : Fin 2) * 64 ≤ (i 0).val ∧ (i 0).val < win0_3.index t (0 : Fin 2) * 64 + 64; rw [e0]; omega
  | ⟨1, _⟩ => show win0_3.index t (1 : Fin 2) * 512 ≤ (i 1).val ∧ (i 1).val < win0_3.index t (1 : Fin 2) * 512 + 512; rw [e1, ht]; omega

end Val0

/-! ## The layer's array after the region -/

/-- After the region the output array holds the layer of the three arrays the region read, as it found them. -/
theorem layer0_value (c : Dev nD) :
    (dat0 (F := Ideal) V c).arrAt 3 cfg0.N = Cert.Net.layer (V c main_v2) (V c main_arg1) (V c main_arg2) :=
  (dat0 (F := Ideal) V c).arrAt_eq_of_cover 3 _ (fun t _ => Val0.flushed_eq V c t) Val0.cover

end Cert.KernelIdeal.Net

end
-- ==== Proof.KI.ValLayer1.lean ====
/-
  The value a thresholded layer's region leaves in its output array, at the ideal values, for any contents `V` of the
  TensorCore's buffers when the region is entered.  At a point the body multiplies the whole activation block with the
  rows of each of the two segment blocks (a contraction over the previous layer's 8192 activations), compares each of
  the two sums with four, and stores 1 where either reaches it and 0 elsewhere.  Read at an entry `(b, r)` of the block
  that is the neuron's firing rule on the two segment sums of batch row `b` against block row `r`.  Point `t` holds the 128 rows
  of the segment matrices from row `t * 128` on and the columns of the same numbers of the output, so what it writes back
  is block `t` of ONE function of the three arrays, the layer; the 64 blocks fill the output array, hence the array ends
  holding the layer of the activations and the two segment matrices.
-/
import proofs.«162072_j90048284328142_1_alg».proof.Proof.KI.Layer1
import proofs.«162072_j90048284328142_1_alg».proof.Proof.Spec
import Idealize.ShloMosaic.Lib.ValueIdx
import Idealize.ShloMosaic.Lib.Pipeline.Value
import Idealize.ShloMosaic.PureOps.Ideal.Laws
import Idealize.ShloMosaic.Lib.KernelVsHost

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Val1

/-! ## The block's contraction: which operand entries meet at an output entry -/

theorem lhs_0 (i : S64x128.Idx) (q : dot_S64x8192_S128x8192_S64x128_1_1_0_0_n_n.contr.Idx) :
    (dot_S64x8192_S128x8192_S64x128_1_1_0_0_n_n.lhsIdx i q 0).val = (i 0).val := by
  unfold DotDims.lhsIdx
  rw [dif_neg (show ¬(0 : Fin S64x8192.rank) ∈ dot_S64x8192_S128x8192_S64x128_1_1_0_0_n_n.lhsBatch by decide), dif_pos (show (0 : Fin S64x8192.rank) ∈ dot_S64x8192_S128x8192_S64x128_1_1_0_0_n_n.lhsNonContracting by decide)]
  rfl
theorem lhs_1 (i : S64x128.Idx) (q : dot_S64x8192_S128x8192_S64x128_1_1_0_0_n_n.contr.Idx) :
    (dot_S64x8192_S128x8192_S64x128_1_1_0_0_n_n.lhsIdx i q 1).val = (q ⟨0, by decide⟩).val :=
  dot_S64x8192_S128x8192_S64x128_1_1_0_0_n_n.lhsIdx_val_of_single rfl i q
theorem rhs_0 (i : S64x128.Idx) (q : dot_S64x8192_S128x8192_S64x128_1_1_0_0_n_n.contr.Idx) :
    (dot_S64x8192_S128x8192_S64x128_1_1_0_0_n_n.rhsIdx i q 0).val = (i 1).val := by
  unfold DotDims.rhsIdx
  rw [dif_neg (show ¬(0 : Fin S128x8192.rank) ∈ dot_S64x8192_S128x8192_S64x128_1_1_0_0_n_n.rhsBatch by decide), dif_pos (show (0 : Fin S128x8192.rank) ∈ dot_S64x8192_S128x8192_S64x128_1_1_0_0_n_n.rhsNonContracting by decide)]
  rfl
theorem rhs_1 (i : S64x128.Idx) (q : dot_S64x8192_S128x8192_S64x128_1_1_0_0_n_n.contr.Idx) :
    (dot_S64x8192_S128x8192_S64x128_1_1_0_0_n_n.rhsIdx i q 1).val = (q ⟨0, by decide⟩).val :=
  dot_S64x8192_S128x8192_S64x128_1_1_0_0_n_n.rhsIdx_val_of_single rfl i q

/-- A block matmul into the zero splat, read at an entry: row `b` of the activations against row `r` of the segment block. -/
theorem mm_apply (y0 : FVec Ideal S64x8192 .bf16) (y1 : FVec Ideal S128x8192 .bf16) (b : Fin 64) (r : Fin 128) :
    matmul (F := Ideal) dot_S64x8192_S128x8192_S64x128_1_1_0_0_n_n none y0 y1 (constant (F := Ideal) S64x128 .f32 0x00000000#32) (ix2 b r)
      = ∑ k : Fin 8192, y0 (ix2 b k) * y1 (ix2 r k) := by
  refine (Ideal.matmul_constant_zero_apply dot_S64x8192_S128x8192_S64x128_1_1_0_0_n_n none y0 y1 (ix2 b r)).trans ?_
  rw [← Equiv.sum_comp (ValueIdx.contrEquiv1 dot_S64x8192_S128x8192_S64x128_1_1_0_0_n_n 8192 rfl rfl).symm]
  refine Finset.sum_congr rfl fun k _ => ?_
  have hk := ValueIdx.contrEquiv1_symm_val dot_S64x8192_S128x8192_S64x128_1_1_0_0_n_n 8192 rfl rfl k
  have el : dot_S64x8192_S128x8192_S64x128_1_1_0_0_n_n.lhsIdx (ix2 b r) ((ValueIdx.contrEquiv1 dot_S64x8192_S128x8192_S64x128_1_1_0_0_n_n 8192 rfl rfl).symm k) = ix2 b k := funext fun a => Fin.ext (by
    match a with
    | ⟨0, _⟩ => exact lhs_0 _ _
    | ⟨1, _⟩ => exact (lhs_1 _ _).trans hk)
  have er : dot_S64x8192_S128x8192_S64x128_1_1_0_0_n_n.rhsIdx (ix2 b r) ((ValueIdx.contrEquiv1 dot_S64x8192_S128x8192_S64x128_1_1_0_0_n_n 8192 rfl rfl).symm k) = ix2 r k := funext fun a => Fin.ext (by
    match a with
    | ⟨0, _⟩ => exact rhs_0 _ _
    | ⟨1, _⟩ => exact (rhs_1 _ _).trans hk)
  rw [el, er]

/-- The stored value of a block at an entry: the neuron fires on row `b` when either segment's sum reaches four. -/
theorem pay_apply (x0 : Vec Ideal S64x8192 .f32) (x1 x2 : Vec Ideal S128x8192 .f32) (b : Fin 64) (r : Fin 128) :
    k1_pay1 (F := Ideal) x0 x1 x2 (ix2 b r)
      = Cert.Net.fire (∑ k : Fin 8192, x0 (ix2 b k) * x1 (ix2 r k)) (∑ k : Fin 8192, x0 (ix2 b k) * x2 (ix2 r k)) := by
  unfold k1_pay1
  refine (congrFun (sitofp_extui_eq_uitofp (φ := .f32) _ natLt_1_32) (ix2 b r)).trans ?_
  show FloatOps.uitofp (F := Ideal) .f32 (IntOp.ori (FloatOps.cmpf (F := Ideal) (φ := .f32) .oge _ Cert.Net.four) (FloatOps.cmpf (F := Ideal) (φ := .f32) .oge _ Cert.Net.four)) = _
  unfold Cert.Net.fire
  rw [mm_apply, mm_apply]
  simp only [truncf_apply, shapeCast_self]

/-! ## Where a block sits in its array -/

theorem zero_off : (![0, 0] : Fin 2 → Nat) = fun _ => 0 := funext fun a => by fin_cases a <;> rfl

/-- The block index of every window at every point: the activations are one block, the two segment matrices move along
    their rows with the point, the output along its columns. -/
theorem block_index : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = t.val :=
  (by decide +kernel : ∀ t : Fin grid1.N, _)

/-- The activation block at any point is the activation array. -/
theorem act_block (c : Dev nD) (t : Fin cfg1.N) (b : Fin 64) (k : Fin 8192) :
    (iblk1 (F := Ideal) V c 0 t : Vec Ideal S64x8192 .f32) (ix2 b k) = (V c main_v3 : Cert.Net.Arr 64 8192) (ix2 b k) := by
  obtain ⟨e0, e1, -⟩ := block_index t
  show (V c main_v3 : Cert.Net.Arr 64 8192) (((cfg1.win 0).blk t).view.emb (ix2 b k)) = _
  refine congrArg _ (funext fun a => Fin.ext ?_)
  match a with
  | ⟨0, _⟩ => show win1_0.index t (0 : Fin 2) * 64 + 1 * b.val = b.val; rw [e0]; omega
  | ⟨1, _⟩ => show win1_0.index t (1 : Fin 2) * 8192 + 1 * k.val = k.val; rw [e1]; omega

/-- Row `r` of the first segment's block at point `t` is row `t * 128 + r` of the first segment matrix. -/
theorem segA_block (c : Dev nD) (t : Fin cfg1.N) (r : Fin 128) (k : Fin 8192) (h : Fin 8192) (hh : h.val = t.val * 128 + r.val) :
    (iblk1 (F := Ideal) V c 1 t : Vec Ideal S128x8192 .f32) (ix2 r k) = (V c main_arg3 : Cert.Net.Arr 8192 8192) (ix2 h k) := by
  obtain ⟨-, -, e0, e1, -⟩ := block_index t
  show (V c main_arg3 : Cert.Net.Arr 8192 8192) (((cfg1.win 1).blk t).view.emb (ix2 r k)) = _
  refine congrArg _ (funext fun a => Fin.ext ?_)
  match a with
  | ⟨0, _⟩ => show win1_1.index t (0 : Fin 2) * 128 + 1 * r.val = h.val; rw [e0, hh]; omega
  | ⟨1, _⟩ => show win1_1.index t (1 : Fin 2) * 8192 + 1 * k.val = k.val; rw [e1]; omega

/-- The same for the second segment. -/
theorem segB_block (c : Dev nD) (t : Fin cfg1.N) (r : Fin 128) (k : Fin 8192) (h : Fin 8192) (hh : h.val = t.val * 128 + r.val) :
    (iblk1 (F := Ideal) V c 2 t : Vec Ideal S128x8192 .f32) (ix2 r k) = (V c main_arg4 : Cert.Net.Arr 8192 8192) (ix2 h k) := by
  obtain ⟨-, -, -, -, e0, e1, -⟩ := block_index t
  show (V c main_arg4 : Cert.Net.Arr 8192 8192) (((cfg1.win 2).blk t).view.emb (ix2 r k)) = _
  refine congrArg _ (funext fun a => Fin.ext ?_)
  match a with
  | ⟨0, _⟩ => show win1_2.index t (0 : Fin 2) * 128 + 1 * r.val = h.val; rw [e0, hh]; omega
  | ⟨1, _⟩ => show win1_2.index t (1 : Fin 2) * 8192 + 1 * k.val = k.val; rw [e1]; omega

/-- Entry `(b, r)` of the output block at point `t` is entry `(b, t * 128 + r)` of the output array. -/
theorem out_block (t : Fin cfg1.N) (b : Fin 64) (r : Fin 128) (h : Fin 8192) (hh : h.val = t.val * 128 + r.val) :
    ((cfg1.win 3).blk t).view.emb (ix2 b r) = (ix2 b h : S64x8192.Idx) := by
  obtain ⟨-, -, -, -, -, -, e0, e1⟩ := block_index t
  refine funext fun a => Fin.ext ?_
  match a with
  | ⟨0, _⟩ => show win1_3.index t (0 : Fin 2) * 64 + 1 * b.val = b.val; rw [e0]; omega
  | ⟨1, _⟩ => show win1_3.index t (1 : Fin 2) * 128 + 1 * r.val = h.val; rw [e1, hh]; omega

/-! ## What a point writes back -/

/-- Point `t` writes back block `t` of the layer's output on the arrays as the region finds them. -/
theorem flushed_eq (c : Dev nD) (t : Fin cfg1.N) :
    (dat1 (F := Ideal) V c).flushed 3 t
      = ((cfg1.win 3).blk t).view.read (Elt Ideal) (Cert.Net.layer (V c main_v3) (V c main_arg3) (V c main_arg4)) := by
  show (cfg1.win 3).cut (grid1.coords t) ((dat1 (F := Ideal) V c).after 3 t) = _
  rw [after1_3]
  unfold out1_3
  rw [View.canon_unit_zero zero_off]
  simp only [View.ld_unit_zero (S := S64x8192) zero_off, View.ld_unit_zero (S := S128x8192) zero_off]
  funext j
  obtain ⟨p, q, rfl⟩ : ∃ (p : Fin 64) (q : Fin 128), (j : S64x128.Idx) = ix2 p q := ⟨j 0, j 1, eq_ix2 j⟩
  have hq : q.val < 128 := q.isLt
  have ht : t.val < 64 := (show t.val < grid1.N from t.isLt).trans_eq N_1
  obtain ⟨h, hh⟩ : ∃ h : Fin 8192, h.val = t.val * 128 + q.val := ⟨⟨t.val * 128 + q.val, by omega⟩, rfl⟩
  show k1_pay1 (F := Ideal) (iblk1 V c 0 t) (iblk1 V c 1 t) (iblk1 V c 2 t) (ix2 p q)
      = Cert.Net.layer (V c main_v3) (V c main_arg3) (V c main_arg4) (((cfg1.win 3).blk t).view.emb (ix2 p q))
  rw [out_block t p q h hh, Cert.Net.layer_ix2]
  refine (pay_apply _ _ _ p q).trans ?_
  unfold Cert.Net.layerAt
  congr 1 <;> refine Finset.sum_congr rfl fun k _ => ?_
  · rw [act_block V c t p k, segA_block V c t q k h hh]
  · rw [act_block V c t p k, segB_block V c t q k h hh]

/-! ## The blocks fill the array -/

/-- An entry of the output array lies in point `t`'s block when each coordinate lies in the block's range on its axis. -/
theorem mem_block (t : Fin cfg1.N) (i : S64x8192.Idx) :
    i ∈ ((cfg1.win 3).blk t).view.set ↔ ∀ a : Fin 2, win1_3.index t a * S64x128.size a ≤ (i a).val ∧ (i a).val < win1_3.index t a * S64x128.size a + S64x128.size a := by
  show i ∈ ((View.whole main_v4).slice (win1_3.rect t)).set ↔ _
  rw [View.set_slice_whole, Rect.mem_set_unit]
  exact Iff.rfl

/-- Neuron `h` is written by the point `h / 128`, and every point writes back. -/
theorem cover (i : S64x8192.Idx) : ∃ t : Fin cfg1.N, (cfg1.win 3).flush t = true ∧ i ∈ ((cfg1.win 3).blk t).view.set := by
  have hi0 : (i 0).val < 64 := (i 0).isLt
  have hi1 : (i 1).val < 8192 := (i 1).isLt
  obtain ⟨t, ht⟩ : ∃ t : Fin cfg1.N, t.val = (i 1).val / 128 :=
    ⟨⟨(i 1).val / 128, by rw [show cfg1.N = 64 from N_1]; omega⟩, rfl⟩
  obtain ⟨-, -, -, -, -, -, e0, e1⟩ := block_index t
  refine ⟨t, flush1_3 t, ?_⟩
  rw [mem_block]
  intro a
  match a with
  | ⟨0, _⟩ => show win1_3.index t (0 : Fin 2) * 64 ≤ (i 0).val ∧ (i 0).val < win1_3.index t (0 : Fin 2) * 64 + 64; rw [e0]; omega
  | ⟨1, _⟩ => show win1_3.index t (1 : Fin 2) * 128 ≤ (i 1).val ∧ (i 1).val < win1_3.index t (1 : Fin 2) * 128 + 128; rw [e1, ht]; omega

end Val1

/-! ## The layer's array after the region -/

/-- After the region the output array holds the layer of the three arrays the region read, as it found them. -/
theorem layer1_value (c : Dev nD) :
    (dat1 (F := Ideal) V c).arrAt 3 cfg1.N = Cert.Net.layer (V c main_v3) (V c main_arg3) (V c main_arg4) :=
  (dat1 (F := Ideal) V c).arrAt_eq_of_cover 3 _ (fun t _ => Val1.flushed_eq V c t) Val1.cover

end Cert.KernelIdeal.Net

end
-- ==== Proof.KI.ValLayer2.lean ====
/-
  The value a thresholded layer's region leaves in its output array, at the ideal values, for any contents `V` of the
  TensorCore's buffers when the region is entered.  At a point the body multiplies the whole activation block with the
  rows of each of the two segment blocks (a contraction over the previous layer's 8192 activations), compares each of
  the two sums with four, and stores 1 where either reaches it and 0 elsewhere.  Read at an entry `(b, r)` of the block
  that is the neuron's firing rule on the two segment sums of batch row `b` against block row `r`.  Point `t` holds the 128 rows
  of the segment matrices from row `t * 128` on and the columns of the same numbers of the output, so what it writes back
  is block `t` of ONE function of the three arrays, the layer; the 64 blocks fill the output array, hence the array ends
  holding the layer of the activations and the two segment matrices.
-/
import proofs.«162072_j90048284328142_1_alg».proof.Proof.KI.Layer2
import proofs.«162072_j90048284328142_1_alg».proof.Proof.Spec
import Idealize.ShloMosaic.Lib.ValueIdx
import Idealize.ShloMosaic.Lib.Pipeline.Value
import Idealize.ShloMosaic.PureOps.Ideal.Laws
import Idealize.ShloMosaic.Lib.KernelVsHost

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Val2

/-! ## The block's contraction: which operand entries meet at an output entry -/

theorem lhs_0 (i : S64x128.Idx) (q : dot_S64x8192_S128x8192_S64x128_1_1_0_0_n_n.contr.Idx) :
    (dot_S64x8192_S128x8192_S64x128_1_1_0_0_n_n.lhsIdx i q 0).val = (i 0).val := by
  unfold DotDims.lhsIdx
  rw [dif_neg (show ¬(0 : Fin S64x8192.rank) ∈ dot_S64x8192_S128x8192_S64x128_1_1_0_0_n_n.lhsBatch by decide), dif_pos (show (0 : Fin S64x8192.rank) ∈ dot_S64x8192_S128x8192_S64x128_1_1_0_0_n_n.lhsNonContracting by decide)]
  rfl
theorem lhs_1 (i : S64x128.Idx) (q : dot_S64x8192_S128x8192_S64x128_1_1_0_0_n_n.contr.Idx) :
    (dot_S64x8192_S128x8192_S64x128_1_1_0_0_n_n.lhsIdx i q 1).val = (q ⟨0, by decide⟩).val :=
  dot_S64x8192_S128x8192_S64x128_1_1_0_0_n_n.lhsIdx_val_of_single rfl i q
theorem rhs_0 (i : S64x128.Idx) (q : dot_S64x8192_S128x8192_S64x128_1_1_0_0_n_n.contr.Idx) :
    (dot_S64x8192_S128x8192_S64x128_1_1_0_0_n_n.rhsIdx i q 0).val = (i 1).val := by
  unfold DotDims.rhsIdx
  rw [dif_neg (show ¬(0 : Fin S128x8192.rank) ∈ dot_S64x8192_S128x8192_S64x128_1_1_0_0_n_n.rhsBatch by decide), dif_pos (show (0 : Fin S128x8192.rank) ∈ dot_S64x8192_S128x8192_S64x128_1_1_0_0_n_n.rhsNonContracting by decide)]
  rfl
theorem rhs_1 (i : S64x128.Idx) (q : dot_S64x8192_S128x8192_S64x128_1_1_0_0_n_n.contr.Idx) :
    (dot_S64x8192_S128x8192_S64x128_1_1_0_0_n_n.rhsIdx i q 1).val = (q ⟨0, by decide⟩).val :=
  dot_S64x8192_S128x8192_S64x128_1_1_0_0_n_n.rhsIdx_val_of_single rfl i q

/-- A block matmul into the zero splat, read at an entry: row `b` of the activations against row `r` of the segment block. -/
theorem mm_apply (y0 : FVec Ideal S64x8192 .bf16) (y1 : FVec Ideal S128x8192 .bf16) (b : Fin 64) (r : Fin 128) :
    matmul (F := Ideal) dot_S64x8192_S128x8192_S64x128_1_1_0_0_n_n none y0 y1 (constant (F := Ideal) S64x128 .f32 0x00000000#32) (ix2 b r)
      = ∑ k : Fin 8192, y0 (ix2 b k) * y1 (ix2 r k) := by
  refine (Ideal.matmul_constant_zero_apply dot_S64x8192_S128x8192_S64x128_1_1_0_0_n_n none y0 y1 (ix2 b r)).trans ?_
  rw [← Equiv.sum_comp (ValueIdx.contrEquiv1 dot_S64x8192_S128x8192_S64x128_1_1_0_0_n_n 8192 rfl rfl).symm]
  refine Finset.sum_congr rfl fun k _ => ?_
  have hk := ValueIdx.contrEquiv1_symm_val dot_S64x8192_S128x8192_S64x128_1_1_0_0_n_n 8192 rfl rfl k
  have el : dot_S64x8192_S128x8192_S64x128_1_1_0_0_n_n.lhsIdx (ix2 b r) ((ValueIdx.contrEquiv1 dot_S64x8192_S128x8192_S64x128_1_1_0_0_n_n 8192 rfl rfl).symm k) = ix2 b k := funext fun a => Fin.ext (by
    match a with
    | ⟨0, _⟩ => exact lhs_0 _ _
    | ⟨1, _⟩ => exact (lhs_1 _ _).trans hk)
  have er : dot_S64x8192_S128x8192_S64x128_1_1_0_0_n_n.rhsIdx (ix2 b r) ((ValueIdx.contrEquiv1 dot_S64x8192_S128x8192_S64x128_1_1_0_0_n_n 8192 rfl rfl).symm k) = ix2 r k := funext fun a => Fin.ext (by
    match a with
    | ⟨0, _⟩ => exact rhs_0 _ _
    | ⟨1, _⟩ => exact (rhs_1 _ _).trans hk)
  rw [el, er]

/-- The stored value of a block at an entry: the neuron fires on row `b` when either segment's sum reaches four. -/
theorem pay_apply (x0 : Vec Ideal S64x8192 .f32) (x1 x2 : Vec Ideal S128x8192 .f32) (b : Fin 64) (r : Fin 128) :
    k2_pay1 (F := Ideal) x0 x1 x2 (ix2 b r)
      = Cert.Net.fire (∑ k : Fin 8192, x0 (ix2 b k) * x1 (ix2 r k)) (∑ k : Fin 8192, x0 (ix2 b k) * x2 (ix2 r k)) := by
  unfold k2_pay1
  refine (congrFun (sitofp_extui_eq_uitofp (φ := .f32) _ natLt_1_32) (ix2 b r)).trans ?_
  show FloatOps.uitofp (F := Ideal) .f32 (IntOp.ori (FloatOps.cmpf (F := Ideal) (φ := .f32) .oge _ Cert.Net.four) (FloatOps.cmpf (F := Ideal) (φ := .f32) .oge _ Cert.Net.four)) = _
  unfold Cert.Net.fire
  rw [mm_apply, mm_apply]
  simp only [truncf_apply, shapeCast_self]

/-! ## Where a block sits in its array -/

theorem zero_off : (![0, 0] : Fin 2 → Nat) = fun _ => 0 := funext fun a => by fin_cases a <;> rfl

/-- The block index of every window at every point: the activations are one block, the two segment matrices move along
    their rows with the point, the output along its columns. -/
theorem block_index : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = t.val :=
  (by decide +kernel : ∀ t : Fin grid2.N, _)

/-- The activation block at any point is the activation array. -/
theorem act_block (c : Dev nD) (t : Fin cfg2.N) (b : Fin 64) (k : Fin 8192) :
    (iblk2 (F := Ideal) V c 0 t : Vec Ideal S64x8192 .f32) (ix2 b k) = (V c main_v4 : Cert.Net.Arr 64 8192) (ix2 b k) := by
  obtain ⟨e0, e1, -⟩ := block_index t
  show (V c main_v4 : Cert.Net.Arr 64 8192) (((cfg2.win 0).blk t).view.emb (ix2 b k)) = _
  refine congrArg _ (funext fun a => Fin.ext ?_)
  match a with
  | ⟨0, _⟩ => show win2_0.index t (0 : Fin 2) * 64 + 1 * b.val = b.val; rw [e0]; omega
  | ⟨1, _⟩ => show win2_0.index t (1 : Fin 2) * 8192 + 1 * k.val = k.val; rw [e1]; omega

/-- Row `r` of the first segment's block at point `t` is row `t * 128 + r` of the first segment matrix. -/
theorem segA_block (c : Dev nD) (t : Fin cfg2.N) (r : Fin 128) (k : Fin 8192) (h : Fin 8192) (hh : h.val = t.val * 128 + r.val) :
    (iblk2 (F := Ideal) V c 1 t : Vec Ideal S128x8192 .f32) (ix2 r k) = (V c main_arg5 : Cert.Net.Arr 8192 8192) (ix2 h k) := by
  obtain ⟨-, -, e0, e1, -⟩ := block_index t
  show (V c main_arg5 : Cert.Net.Arr 8192 8192) (((cfg2.win 1).blk t).view.emb (ix2 r k)) = _
  refine congrArg _ (funext fun a => Fin.ext ?_)
  match a with
  | ⟨0, _⟩ => show win2_1.index t (0 : Fin 2) * 128 + 1 * r.val = h.val; rw [e0, hh]; omega
  | ⟨1, _⟩ => show win2_1.index t (1 : Fin 2) * 8192 + 1 * k.val = k.val; rw [e1]; omega

/-- The same for the second segment. -/
theorem segB_block (c : Dev nD) (t : Fin cfg2.N) (r : Fin 128) (k : Fin 8192) (h : Fin 8192) (hh : h.val = t.val * 128 + r.val) :
    (iblk2 (F := Ideal) V c 2 t : Vec Ideal S128x8192 .f32) (ix2 r k) = (V c main_arg6 : Cert.Net.Arr 8192 8192) (ix2 h k) := by
  obtain ⟨-, -, -, -, e0, e1, -⟩ := block_index t
  show (V c main_arg6 : Cert.Net.Arr 8192 8192) (((cfg2.win 2).blk t).view.emb (ix2 r k)) = _
  refine congrArg _ (funext fun a => Fin.ext ?_)
  match a with
  | ⟨0, _⟩ => show win2_2.index t (0 : Fin 2) * 128 + 1 * r.val = h.val; rw [e0, hh]; omega
  | ⟨1, _⟩ => show win2_2.index t (1 : Fin 2) * 8192 + 1 * k.val = k.val; rw [e1]; omega

/-- Entry `(b, r)` of the output block at point `t` is entry `(b, t * 128 + r)` of the output array. -/
theorem out_block (t : Fin cfg2.N) (b : Fin 64) (r : Fin 128) (h : Fin 8192) (hh : h.val = t.val * 128 + r.val) :
    ((cfg2.win 3).blk t).view.emb (ix2 b r) = (ix2 b h : S64x8192.Idx) := by
  obtain ⟨-, -, -, -, -, -, e0, e1⟩ := block_index t
  refine funext fun a => Fin.ext ?_
  match a with
  | ⟨0, _⟩ => show win2_3.index t (0 : Fin 2) * 64 + 1 * b.val = b.val; rw [e0]; omega
  | ⟨1, _⟩ => show win2_3.index t (1 : Fin 2) * 128 + 1 * r.val = h.val; rw [e1, hh]; omega

/-! ## What a point writes back -/

/-- Point `t` writes back block `t` of the layer's output on the arrays as the region finds them. -/
theorem flushed_eq (c : Dev nD) (t : Fin cfg2.N) :
    (dat2 (F := Ideal) V c).flushed 3 t
      = ((cfg2.win 3).blk t).view.read (Elt Ideal) (Cert.Net.layer (V c main_v4) (V c main_arg5) (V c main_arg6)) := by
  show (cfg2.win 3).cut (grid2.coords t) ((dat2 (F := Ideal) V c).after 3 t) = _
  rw [after2_3]
  unfold out2_3
  rw [View.canon_unit_zero zero_off]
  simp only [View.ld_unit_zero (S := S64x8192) zero_off, View.ld_unit_zero (S := S128x8192) zero_off]
  funext j
  obtain ⟨p, q, rfl⟩ : ∃ (p : Fin 64) (q : Fin 128), (j : S64x128.Idx) = ix2 p q := ⟨j 0, j 1, eq_ix2 j⟩
  have hq : q.val < 128 := q.isLt
  have ht : t.val < 64 := (show t.val < grid2.N from t.isLt).trans_eq N_2
  obtain ⟨h, hh⟩ : ∃ h : Fin 8192, h.val = t.val * 128 + q.val := ⟨⟨t.val * 128 + q.val, by omega⟩, rfl⟩
  show k2_pay1 (F := Ideal) (iblk2 V c 0 t) (iblk2 V c 1 t) (iblk2 V c 2 t) (ix2 p q)
      = Cert.Net.layer (V c main_v4) (V c main_arg5) (V c main_arg6) (((cfg2.win 3).blk t).view.emb (ix2 p q))
  rw [out_block t p q h hh, Cert.Net.layer_ix2]
  refine (pay_apply _ _ _ p q).trans ?_
  unfold Cert.Net.layerAt
  congr 1 <;> refine Finset.sum_congr rfl fun k _ => ?_
  · rw [act_block V c t p k, segA_block V c t q k h hh]
  · rw [act_block V c t p k, segB_block V c t q k h hh]

/-! ## The blocks fill the array -/

/-- An entry of the output array lies in point `t`'s block when each coordinate lies in the block's range on its axis. -/
theorem mem_block (t : Fin cfg2.N) (i : S64x8192.Idx) :
    i ∈ ((cfg2.win 3).blk t).view.set ↔ ∀ a : Fin 2, win2_3.index t a * S64x128.size a ≤ (i a).val ∧ (i a).val < win2_3.index t a * S64x128.size a + S64x128.size a := by
  show i ∈ ((View.whole main_v5).slice (win2_3.rect t)).set ↔ _
  rw [View.set_slice_whole, Rect.mem_set_unit]
  exact Iff.rfl

/-- Neuron `h` is written by the point `h / 128`, and every point writes back. -/
theorem cover (i : S64x8192.Idx) : ∃ t : Fin cfg2.N, (cfg2.win 3).flush t = true ∧ i ∈ ((cfg2.win 3).blk t).view.set := by
  have hi0 : (i 0).val < 64 := (i 0).isLt
  have hi1 : (i 1).val < 8192 := (i 1).isLt
  obtain ⟨t, ht⟩ : ∃ t : Fin cfg2.N, t.val = (i 1).val / 128 :=
    ⟨⟨(i 1).val / 128, by rw [show cfg2.N = 64 from N_2]; omega⟩, rfl⟩
  obtain ⟨-, -, -, -, -, -, e0, e1⟩ := block_index t
  refine ⟨t, flush2_3 t, ?_⟩
  rw [mem_block]
  intro a
  match a with
  | ⟨0, _⟩ => show win2_3.index t (0 : Fin 2) * 64 ≤ (i 0).val ∧ (i 0).val < win2_3.index t (0 : Fin 2) * 64 + 64; rw [e0]; omega
  | ⟨1, _⟩ => show win2_3.index t (1 : Fin 2) * 128 ≤ (i 1).val ∧ (i 1).val < win2_3.index t (1 : Fin 2) * 128 + 128; rw [e1, ht]; omega

end Val2

/-! ## The layer's array after the region -/

/-- After the region the output array holds the layer of the three arrays the region read, as it found them. -/
theorem layer2_value (c : Dev nD) :
    (dat2 (F := Ideal) V c).arrAt 3 cfg2.N = Cert.Net.layer (V c main_v4) (V c main_arg5) (V c main_arg6) :=
  (dat2 (F := Ideal) V c).arrAt_eq_of_cover 3 _ (fun t _ => Val2.flushed_eq V c t) Val2.cover

end Cert.KernelIdeal.Net

end
-- ==== Proof.KI.ValFinal.lean ====
/-
  The value of the scores' output array after its region, at the ideal values.

  The region walks the 8192 hidden neurons in eight blocks of 1024.  At each block it adds to an accumulator, entry by
  entry, the three layers' partial products for that block (activations 64 x 1024 times output strengths 1024 x 100),
  grouped (first + second) + third; the accumulator starts at zero, and after the eighth block it is copied to the output
  array, the only write of that array.  So entry (b, j) of the output is the sum over the eight blocks t of
      (sum_k a1(b, 1024 t + k) O0(1024 t + k, j) + sum_k a2(..) O1(..)) + sum_k a3(..) O2(..),
  and, addition on the extended reals being commutative and associative, that is
      (sum_h a1(b, h) O0(h, j) + sum_h a2(b, h) O1(h, j)) + sum_h a3(b, h) O2(h, j)
  over all 8192 neurons h: the class score.  No finiteness of the entries is used.
-/
import proofs.«162072_j90048284328142_1_alg».proof.Proof.KI.Final
import proofs.«162072_j90048284328142_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## Sums carried across points, and a long sum cut into blocks -/

section SumLaws

variable {M : Type*} [AddCommMonoid M]

/-- A quantity that starts at zero plus the first term and gains one term at each later position is the sum of the
    terms up to that position. -/
theorem carried_sum {N : ℕ} (a : (n : ℕ) → n < N → M) (g : ℕ → M)
    (h0 : ∀ h, a 0 h = 0 + g 0)
    (hs : ∀ n (h : n + 1 < N), a (n + 1) h = a n (Nat.lt_of_succ_lt h) + g (n + 1)) :
    ∀ n (h : n < N), a n h = ∑ t ∈ Finset.range (n + 1), g t
  | 0, h => by rw [h0 h, zero_add, Finset.sum_range_one]
  | n + 1, h => by rw [hs n h, carried_sum a g h0 hs n _, Finset.sum_range_succ _ (n + 1)]

/-- Hidden neuron number `1024 t + k`: neuron `k` of block `t`. -/
def hid (t : Fin 8) (k : Fin 1024) : Fin 8192 := ⟨1024 * t.val + k.val, by have := t.isLt; have := k.isLt; omega⟩

theorem hid_val (t : Fin 8) (k : Fin 1024) : (hid t k).val = 1024 * t.val + k.val := rfl

/-- A sum over the 8192 hidden neurons is the sum over the eight blocks of the sums inside each block. -/
theorem sum_hidden_blocks (f : Fin 8192 → M) : ∑ h : Fin 8192, f h = ∑ t : Fin 8, ∑ k : Fin 1024, f (hid t k) := by
  rw [← Equiv.sum_comp (finProdFinEquiv : Fin 8 × Fin 1024 ≃ Fin 8192) f, Fintype.sum_prod_type]
  refine Finset.sum_congr rfl fun t _ => Finset.sum_congr rfl fun k _ => congrArg f (Fin.ext ?_)
  show k.val + 1024 * t.val = 1024 * t.val + k.val
  omega

/-- Three blockwise partial sums, added at each block as (first + second) + third and then over the blocks, regroup to
    the three whole sums added the same way: only commutativity and associativity of addition. -/
theorem regroup_blocks (f1 f2 f3 : Fin 8192 → M) :
    ∑ t : Fin 8, ((∑ k : Fin 1024, f1 (hid t k) + ∑ k : Fin 1024, f2 (hid t k)) + ∑ k : Fin 1024, f3 (hid t k))
      = (∑ h : Fin 8192, f1 h + ∑ h : Fin 8192, f2 h) + ∑ h : Fin 8192, f3 h := by
  rw [Finset.sum_add_distrib, Finset.sum_add_distrib, sum_hidden_blocks f1, sum_hidden_blocks f2, sum_hidden_blocks f3]

end SumLaws

/-! ## The body's arithmetic at an index -/

theorem lhs_mm_0 (i : S64x100.Idx) (q : dot_S64x1024_S1024x100_S64x100_1_0_0_1_n_n.contr.Idx) :
    (dot_S64x1024_S1024x100_S64x100_1_0_0_1_n_n.lhsIdx i q 0).val = (i 0).val := by
  unfold DotDims.lhsIdx
  rw [dif_neg (show ¬(0 : Fin S64x1024.rank) ∈ dot_S64x1024_S1024x100_S64x100_1_0_0_1_n_n.lhsBatch by decide), dif_pos (show (0 : Fin S64x1024.rank) ∈ dot_S64x1024_S1024x100_S64x100_1_0_0_1_n_n.lhsNonContracting by decide)]
  rfl
theorem lhs_mm_1 (i : S64x100.Idx) (q : dot_S64x1024_S1024x100_S64x100_1_0_0_1_n_n.contr.Idx) :
    (dot_S64x1024_S1024x100_S64x100_1_0_0_1_n_n.lhsIdx i q 1).val = (q ⟨0, by decide⟩).val :=
  dot_S64x1024_S1024x100_S64x100_1_0_0_1_n_n.lhsIdx_val_of_single rfl i q
theorem rhs_mm_0 (i : S64x100.Idx) (q : dot_S64x1024_S1024x100_S64x100_1_0_0_1_n_n.contr.Idx) :
    (dot_S64x1024_S1024x100_S64x100_1_0_0_1_n_n.rhsIdx i q 0).val = (q ⟨0, by decide⟩).val :=
  dot_S64x1024_S1024x100_S64x100_1_0_0_1_n_n.rhsIdx_val_of_single rfl i q
theorem rhs_mm_1 (i : S64x100.Idx) (q : dot_S64x1024_S1024x100_S64x100_1_0_0_1_n_n.contr.Idx) :
    (dot_S64x1024_S1024x100_S64x100_1_0_0_1_n_n.rhsIdx i q 1).val = (i 1).val := by
  unfold DotDims.rhsIdx
  rw [dif_neg (show ¬(1 : Fin S1024x100.rank) ∈ dot_S64x1024_S1024x100_S64x100_1_0_0_1_n_n.rhsBatch by decide), dif_pos (show (1 : Fin S1024x100.rank) ∈ dot_S64x1024_S1024x100_S64x100_1_0_0_1_n_n.rhsNonContracting by decide)]
  rfl

/-- One partial product of a point: a [64,1024] block times a [1024,100] block, into zeros, at entry `(b, j)` is the
    sum over the block's 1024 neurons of activation times strength. -/
theorem block_product_apply {φ₁ φ₂ : FTy} (l : FVec Ideal S64x1024 φ₁) (r : FVec Ideal S1024x100 φ₂) (b : Fin 64) (j : Fin 100) :
    FloatOps.matmul dot_S64x1024_S1024x100_S64x100_1_0_0_1_n_n none l r (constant (F := Ideal) S64x100 .f32 0x00000000#32) (ix2 b j)
      = ∑ k : Fin 1024, l (ix2 b k) * r (ix2 k j) := by
  rw [Ideal.matmul_constant_zero_apply, ← Equiv.sum_comp (ValueIdx.contrEquiv1 dot_S64x1024_S1024x100_S64x100_1_0_0_1_n_n 1024 rfl rfl).symm]
  refine Finset.sum_congr rfl fun k _ => ?_
  have hk := ValueIdx.contrEquiv1_symm_val dot_S64x1024_S1024x100_S64x100_1_0_0_1_n_n 1024 rfl rfl k
  have el : dot_S64x1024_S1024x100_S64x100_1_0_0_1_n_n.lhsIdx (ix2 b j) ((ValueIdx.contrEquiv1 dot_S64x1024_S1024x100_S64x100_1_0_0_1_n_n 1024 rfl rfl).symm k) = ix2 b k := funext fun a => Fin.ext (by
    match a with
    | ⟨0, _⟩ => exact lhs_mm_0 _ _
    | ⟨1, _⟩ => exact (lhs_mm_1 _ _).trans hk)
  have er : dot_S64x1024_S1024x100_S64x100_1_0_0_1_n_n.rhsIdx (ix2 b j) ((ValueIdx.contrEquiv1 dot_S64x1024_S1024x100_S64x100_1_0_0_1_n_n 1024 rfl rfl).symm k) = ix2 k j := funext fun a => Fin.ext (by
    match a with
    | ⟨0, _⟩ => exact (rhs_mm_0 _ _).trans hk
    | ⟨1, _⟩ => exact rhs_mm_1 _ _)
  rw [el, er]

/-- The accumulator's first contents: zero everywhere. -/
theorem zeros_apply (i : S64x100.Idx) : k3_pay1 (F := Ideal) i = 0 := by
  unfold k3_pay1
  rw [shapeCast_self]
  exact Ideal.ofBits_zero_f32

/-- What a point leaves in the accumulator, at entry `(b, j)`: what it held plus the point's three partial products,
    added as (first + second) + third. -/
theorem point_update_apply (x0 x1 x2 : Vec Ideal S64x1024 .f32) (y0 y1 y2 : Vec Ideal S1024x100 .f32) (z : Vec Ideal S64x100 .f32)
    (b : Fin 64) (j : Fin 100) :
    k3_pay2 (F := Ideal) x0 x1 x2 y0 y1 y2 z (ix2 b j)
      = z (ix2 b j) + ((∑ k : Fin 1024, x0 (ix2 b k) * y0 (ix2 k j) + ∑ k : Fin 1024, x1 (ix2 b k) * y1 (ix2 k j))
          + ∑ k : Fin 1024, x2 (ix2 b k) * y2 (ix2 k j)) := by
  unfold k3_pay2
  simp only [shapeCast_self]
  refine (addf_apply _ _ _).trans ?_
  refine congrArg (z (ix2 b j) + ·) ?_
  refine (addf_apply _ _ _).trans ?_
  refine congrArg₂ (· + ·) ((addf_apply _ _ _).trans (congrArg₂ (· + ·) ?_ ?_)) ?_
  · exact block_product_apply _ _ b j
  · exact block_product_apply _ _ b j
  · exact block_product_apply _ _ b j

/-! ## A block of a window is a stretch of its array -/

theorem lt8 (t : Fin cfg3.N) : t.val < 8 := Nat.lt_of_lt_of_eq t.isLt (show cfg3.N = 8 from N_3)

theorem idx3_0 : ∀ t : Fin cfg3.N, win3_0.index t (0 : Fin 2) = 0 ∧ win3_0.index t (1 : Fin 2) = t.val :=
  (by decide +kernel : ∀ t : Fin grid3.N, win3_0.index t (0 : Fin 2) = 0 ∧ win3_0.index t (1 : Fin 2) = t.val)
theorem idx3_1 : ∀ t : Fin cfg3.N, win3_1.index t (0 : Fin 2) = 0 ∧ win3_1.index t (1 : Fin 2) = t.val :=
  (by decide +kernel : ∀ t : Fin grid3.N, win3_1.index t (0 : Fin 2) = 0 ∧ win3_1.index t (1 : Fin 2) = t.val)
theorem idx3_2 : ∀ t : Fin cfg3.N, win3_2.index t (0 : Fin 2) = 0 ∧ win3_2.index t (1 : Fin 2) = t.val :=
  (by decide +kernel : ∀ t : Fin grid3.N, win3_2.index t (0 : Fin 2) = 0 ∧ win3_2.index t (1 : Fin 2) = t.val)
theorem idx3_3 : ∀ t : Fin cfg3.N, win3_3.index t (0 : Fin 2) = t.val ∧ win3_3.index t (1 : Fin 2) = 0 :=
  (by decide +kernel : ∀ t : Fin grid3.N, win3_3.index t (0 : Fin 2) = t.val ∧ win3_3.index t (1 : Fin 2) = 0)
theorem idx3_4 : ∀ t : Fin cfg3.N, win3_4.index t (0 : Fin 2) = t.val ∧ win3_4.index t (1 : Fin 2) = 0 :=
  (by decide +kernel : ∀ t : Fin grid3.N, win3_4.index t (0 : Fin 2) = t.val ∧ win3_4.index t (1 : Fin 2) = 0)
theorem idx3_5 : ∀ t : Fin cfg3.N, win3_5.index t (0 : Fin 2) = t.val ∧ win3_5.index t (1 : Fin 2) = 0 :=
  (by decide +kernel : ∀ t : Fin grid3.N, win3_5.index t (0 : Fin 2) = t.val ∧ win3_5.index t (1 : Fin 2) = 0)

section Blocks

variable (V : (c : Dev nD) → (b : Ref sig .tc) → Buf (Elt Ideal) ((c : Thread nD τ).loc b))

/-- The first layer's activation block at point `t` is columns `1024 t … 1024 t + 1023` of the activations. -/
theorem act1_block_apply (c : Dev nD) (t : Fin cfg3.N) (t' : Fin 8) (ht : t'.val = t.val) (b : Fin 64) (k : Fin 1024) :
    (iblk3 V c 0 t : Vec Ideal S64x1024 .f32) (ix2 b k) = (V c main_v3 : Vec Ideal S64x8192 .f32) (ix2 b (hid t' k)) := by
  unfold iblk3
  rw [View.read_apply]
  show V c main_v3 _ = V c main_v3 _
  congr 1
  funext a
  apply Fin.ext
  match a with
  | ⟨0, _⟩ => show win3_0.index t 0 * 64 + 1 * b.val = b.val; rw [(idx3_0 t).1]; omega
  | ⟨1, _⟩ => show win3_0.index t 1 * 1024 + 1 * k.val = 1024 * t'.val + k.val; rw [(idx3_0 t).2, ht]; omega

/-- The second layer's activation block likewise. -/
theorem act2_block_apply (c : Dev nD) (t : Fin cfg3.N) (t' : Fin 8) (ht : t'.val = t.val) (b : Fin 64) (k : Fin 1024) :
    (iblk3 V c 1 t : Vec Ideal S64x1024 .f32) (ix2 b k) = (V c main_v4 : Vec Ideal S64x8192 .f32) (ix2 b (hid t' k)) := by
  unfold iblk3
  rw [View.read_apply]
  show V c main_v4 _ = V c main_v4 _
  congr 1
  funext a
  apply Fin.ext
  match a with
  | ⟨0, _⟩ => show win3_1.index t 0 * 64 + 1 * b.val = b.val; rw [(idx3_1 t).1]; omega
  | ⟨1, _⟩ => show win3_1.index t 1 * 1024 + 1 * k.val = 1024 * t'.val + k.val; rw [(idx3_1 t).2, ht]; omega

/-- The third layer's activation block likewise. -/
theorem act3_block_apply (c : Dev nD) (t : Fin cfg3.N) (t' : Fin 8) (ht : t'.val = t.val) (b : Fin 64) (k : Fin 1024) :
    (iblk3 V c 2 t : Vec Ideal S64x1024 .f32) (ix2 b k) = (V c main_v5 : Vec Ideal S64x8192 .f32) (ix2 b (hid t' k)) := by
  unfold iblk3
  rw [View.read_apply]
  show V c main_v5 _ = V c main_v5 _
  congr 1
  funext a
  apply Fin.ext
  match a with
  | ⟨0, _⟩ => show win3_2.index t 0 * 64 + 1 * b.val = b.val; rw [(idx3_2 t).1]; omega
  | ⟨1, _⟩ => show win3_2.index t 1 * 1024 + 1 * k.val = 1024 * t'.val + k.val; rw [(idx3_2 t).2, ht]; omega

/-- The first output-strength block at point `t` is rows `1024 t … 1024 t + 1023` of the strengths. -/
theorem str1_block_apply (c : Dev nD) (t : Fin cfg3.N) (t' : Fin 8) (ht : t'.val = t.val) (k : Fin 1024) (j : Fin 100) :
    (iblk3 V c 3 t : Vec Ideal S1024x100 .f32) (ix2 k j) = (V c main_arg7 : Vec Ideal S8192x100 .f32) (ix2 (hid t' k) j) := by
  unfold iblk3
  rw [View.read_apply]
  show V c main_arg7 _ = V c main_arg7 _
  congr 1
  funext a
  apply Fin.ext
  match a with
  | ⟨0, _⟩ => show win3_3.index t 0 * 1024 + 1 * k.val = 1024 * t'.val + k.val; rw [(idx3_3 t).1, ht]; omega
  | ⟨1, _⟩ => show win3_3.index t 1 * 100 + 1 * j.val = j.val; rw [(idx3_3 t).2]; omega

/-- The second output-strength block likewise. -/
theorem str2_block_apply (c : Dev nD) (t : Fin cfg3.N) (t' : Fin 8) (ht : t'.val = t.val) (k : Fin 1024) (j : Fin 100) :
    (iblk3 V c 4 t : Vec Ideal S1024x100 .f32) (ix2 k j) = (V c main_arg8 : Vec Ideal S8192x100 .f32) (ix2 (hid t' k) j) := by
  unfold iblk3
  rw [View.read_apply]
  show V c main_arg8 _ = V c main_arg8 _
  congr 1
  funext a
  apply Fin.ext
  match a with
  | ⟨0, _⟩ => show win3_4.index t 0 * 1024 + 1 * k.val = 1024 * t'.val + k.val; rw [(idx3_4 t).1, ht]; omega
  | ⟨1, _⟩ => show win3_4.index t 1 * 100 + 1 * j.val = j.val; rw [(idx3_4 t).2]; omega

/-- The third output-strength block likewise. -/
theorem str3_block_apply (c : Dev nD) (t : Fin cfg3.N) (t' : Fin 8) (ht : t'.val = t.val) (k : Fin 1024) (j : Fin 100) :
    (iblk3 V c 5 t : Vec Ideal S1024x100 .f32) (ix2 k j) = (V c main_arg9 : Vec Ideal S8192x100 .f32) (ix2 (hid t' k) j) := by
  unfold iblk3
  rw [View.read_apply]
  show V c main_arg9 _ = V c main_arg9 _
  congr 1
  funext a
  apply Fin.ext
  match a with
  | ⟨0, _⟩ => show win3_5.index t 0 * 1024 + 1 * k.val = 1024 * t'.val + k.val; rw [(idx3_5 t).1, ht]; omega
  | ⟨1, _⟩ => show win3_5.index t 1 * 100 + 1 * j.val = j.val; rw [(idx3_5 t).2]; omega

end Blocks

/-! ## The output array after the region -/

section Output

variable {F : FTy → Type} [FloatOps F]
variable (V : (c : Dev nD) → (b : Ref sig .tc) → Buf (Elt F) ((c : Thread nD τ).loc b))

/-- The last point, the only one that writes the output block back. -/
def tLast : Fin cfg3.N := ⟨7, by decide⟩

/-- What the one write-back writes is the accumulator after the last point: the output window's block is its whole
    array, at block index (0, 0). -/
theorem written_back (c : Dev nD) (t : Fin cfg3.N) (hf : (cfg3.win 6).flush t = true) :
    (dat3 V c).flushed 6 t = ((cfg3.win 6).blk t).view.read (Elt F) (acc3 V c 7 (by decide)) := by
  have h1 : t.val = 7 := by have := (flush3_6 t).mp hf; have := lt8 t; omega
  obtain rfl : t = tLast := Fin.ext h1
  show (cfg3.win 6).cut (grid3.coords tLast) ((dat3 V c).after 6 tLast) = _
  rw [after3_6]
  have hz' : (fun a => win3_6.index tLast a * main_v6.ty.shape.size a) = fun _ => 0 := funext fun a => by fin_cases a <;> decide +kernel
  exact (Memref.read_access_unit_zero (Elt F) main_v6 hz' (fun a => by rw [congrFun hz' a]; simp) (acc3 V c 7 (by decide))).symm

/-- The output array ends holding the accumulator after the last point. -/
theorem final_arr (c : Dev nD) : (dat3 V c).arrAt 6 cfg3.N = acc3 V c 7 (by decide) :=
  (dat3 V c).arrAt_eq_of_cover 6 (acc3 V c 7 (by decide)) (written_back V c) fun i =>
    ⟨tLast, (flush3_6 tLast).mpr rfl, by
      show i ∈ ((View.whole main_v6).slice (win3_6.rect tLast)).set
      rw [View.set_slice_whole, Rect.mem_set_unit]
      intro a
      have h0 : (i 0 : Nat) < 64 := (i 0).isLt
      have h1 : (i 1 : Nat) < 100 := (i 1).isLt
      match a with
      | ⟨0, _⟩ => show win3_6.index tLast 0 * win3_6.size 0 ≤ (i 0 : Nat) ∧ (i 0 : Nat) < win3_6.index tLast 0 * win3_6.size 0 + win3_6.xsize (grid3.coords tLast) 0
                  rw [show win3_6.index tLast 0 * win3_6.size 0 = 0 from by decide +kernel, show win3_6.xsize (grid3.coords tLast) 0 = 64 from by decide +kernel]; omega
      | ⟨1, _⟩ => show win3_6.index tLast 1 * win3_6.size 1 ≤ (i 1 : Nat) ∧ (i 1 : Nat) < win3_6.index tLast 1 * win3_6.size 1 + win3_6.xsize (grid3.coords tLast) 1
                  rw [show win3_6.index tLast 1 * win3_6.size 1 = 0 from by decide +kernel, show win3_6.xsize (grid3.coords tLast) 1 = 100 from by decide +kernel]; omega⟩

end Output

/-! ## The accumulator after the last point is the class scores -/

section Scores

open Cert.Net (Arr)

/-- What block `t` of the hidden neurons contributes to score `(b, j)`: the three layers' sums over the block's 1024
    neurons of activation times output strength, added as (first + second) + third. -/
def blockShare (a1 a2 a3 : Arr 64 8192) (O0 O1 O2 : Arr 8192 100) (b : Fin 64) (j : Fin 100) (t : Fin 8) : EReal :=
  (∑ k : Fin 1024, a1 (ix2 b (hid t k)) * O0 (ix2 (hid t k) j) + ∑ k : Fin 1024, a2 (ix2 b (hid t k)) * O1 (ix2 (hid t k) j))
    + ∑ k : Fin 1024, a3 (ix2 b (hid t k)) * O2 (ix2 (hid t k) j)

/-- The eight blocks' shares add up to the score. -/
theorem sum_blockShare (a1 a2 a3 : Arr 64 8192) (O0 O1 O2 : Arr 8192 100) (b : Fin 64) (j : Fin 100) :
    ∑ t : Fin 8, blockShare a1 a2 a3 O0 O1 O2 b j t = Cert.Net.logitsAt a1 a2 a3 O0 O1 O2 b j :=
  regroup_blocks (fun h => a1 (ix2 b h) * O0 (ix2 h j)) (fun h => a2 (ix2 b h) * O1 (ix2 h j)) (fun h => a3 (ix2 b h) * O2 (ix2 h j))

theorem mul_eq_mul {x x' y y' : EReal} (hx : x = x') (hy : y = y') : x * y = x' * y' := by rw [hx, hy]

variable (V : (c : Dev nD) → (b : Ref sig .tc) → Buf (Elt Ideal) ((c : Thread nD τ).loc b))

/-- A point adds its block's share to whatever the accumulator held. -/
theorem point_adds_share (c : Dev nD) (t : Fin cfg3.N) (z : Vec Ideal S64x100 .f32) (b : Fin 64) (j : Fin 100) :
    k3_pay2 (F := Ideal) (iblk3 V c 0 t) (iblk3 V c 1 t) (iblk3 V c 2 t) (iblk3 V c 3 t) (iblk3 V c 4 t) (iblk3 V c 5 t) z (ix2 b j)
      = z (ix2 b j) + blockShare (V c main_v3) (V c main_v4) (V c main_v5) (V c main_arg7) (V c main_arg8) (V c main_arg9) b j ⟨t.val, lt8 t⟩ := by
  refine (point_update_apply (iblk3 V c 0 t) (iblk3 V c 1 t) (iblk3 V c 2 t) (iblk3 V c 3 t) (iblk3 V c 4 t) (iblk3 V c 5 t) z b j).trans ?_
  refine congrArg (z (ix2 b j) + ·) ?_
  unfold blockShare
  refine congrArg₂ (· + ·) (congrArg₂ (· + ·) ?_ ?_) ?_
  · exact Finset.sum_congr rfl fun k _ =>
      mul_eq_mul (act1_block_apply V c t ⟨t.val, lt8 t⟩ rfl b k) (str1_block_apply V c t ⟨t.val, lt8 t⟩ rfl k j)
  · exact Finset.sum_congr rfl fun k _ =>
      mul_eq_mul (act2_block_apply V c t ⟨t.val, lt8 t⟩ rfl b k) (str2_block_apply V c t ⟨t.val, lt8 t⟩ rfl k j)
  · exact Finset.sum_congr rfl fun k _ =>
      mul_eq_mul (act3_block_apply V c t ⟨t.val, lt8 t⟩ rfl b k) (str3_block_apply V c t ⟨t.val, lt8 t⟩ rfl k j)

/-- Entry `(b, j)` of the accumulator after the last point is score `(b, j)`: the eight blocks' shares, regrouped into
    the three sums over all 8192 neurons. -/
theorem acc_value_at (c : Dev nD) (b : Fin 64) (j : Fin 100) :
    acc3 (F := Ideal) V c 7 (by decide) (ix2 b j)
      = Cert.Net.logitsAt (V c main_v3) (V c main_v4) (V c main_v5) (V c main_arg7) (V c main_arg8) (V c main_arg9) b j := by
  have hsum := carried_sum (N := cfg3.N) (fun n h => (acc3 (F := Ideal) V c n h (ix2 b j) : EReal))
    (fun n => if h : n < 8 then blockShare (V c main_v3) (V c main_v4) (V c main_v5) (V c main_arg7) (V c main_arg8) (V c main_arg9) b j ⟨n, h⟩ else 0)
    (fun h => by
      refine (point_adds_share V c ⟨0, h⟩ (k3_pay1 (F := Ideal)) b j).trans ?_
      rw [zeros_apply, dif_pos (by decide : 0 < 8)])
    (fun n h => by
      refine (point_adds_share V c ⟨n + 1, h⟩ (acc3 (F := Ideal) V c n (Nat.lt_of_succ_lt h)) b j).trans ?_
      rw [dif_pos (lt8 ⟨n + 1, h⟩)])
    7 (by decide)
  refine hsum.trans ?_
  rw [← Fin.sum_univ_eq_sum_range (fun n => if h : n < 8 then blockShare (V c main_v3) (V c main_v4) (V c main_v5) (V c main_arg7) (V c main_arg8) (V c main_arg9) b j ⟨n, h⟩ else 0) 8]
  refine (Finset.sum_congr rfl fun t _ => ?_).trans (sum_blockShare (V c main_v3) (V c main_v4) (V c main_v5) (V c main_arg7) (V c main_arg8) (V c main_arg9) b j)
  exact dif_pos t.isLt

/-- The accumulator after the last point is the class scores of the three activation arrays and the three strength
    arrays as the region finds them. -/
theorem acc_value (c : Dev nD) :
    acc3 (F := Ideal) V c 7 (by decide)
      = Cert.Net.logits (V c main_v3) (V c main_v4) (V c main_v5) (V c main_arg7) (V c main_arg8) (V c main_arg9) := by
  funext i
  obtain ⟨b, j, rfl⟩ : ∃ (b : Fin 64) (j : Fin 100), i = ix2 b j := ⟨i 0, i 1, eq_ix2 i⟩
  exact acc_value_at V c b j

/-- The output array after the region is the class scores. -/
theorem final_value (c : Dev nD) :
    (dat3 (F := Ideal) V c).arrAt 6 cfg3.N
      = Cert.Net.logits (V c main_v3) (V c main_v4) (V c main_v5) (V c main_arg7) (V c main_arg8) (V c main_arg9) :=
  (final_arr V c).trans (acc_value V c)

end Scores

end Cert.KernelIdeal.Net

end
-- ==== Proof.KI.Value.lean ====
/-
  The value the idealized kernel program leaves in its result array, from the run over its segments: the scores'
  region leaves the network's scores of what it finds in the three layers' output arrays and the three output-strength
  arguments; each layer's region leaves that layer of the array before it and its two segment matrices; a region changes
  no array but its output; the host operations leave the binarized input and write no argument.  Composed, the result
  array holds the network's scores of the ten argument arrays.
-/
import proofs.«162072_j90048284328142_1_alg».proof.Proof.KI.Run
import proofs.«162072_j90048284328142_1_alg».proof.Proof.KI.HostVal
import proofs.«162072_j90048284328142_1_alg».proof.Proof.KI.ValLayer0
import proofs.«162072_j90048284328142_1_alg».proof.Proof.KI.ValLayer1
import proofs.«162072_j90048284328142_1_alg».proof.Proof.KI.ValLayer2
import proofs.«162072_j90048284328142_1_alg».proof.Proof.KI.ValFinal

noncomputable section

namespace Cert.KernelIdeal.Net

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- When the first region is entered its activation buffer holds the binarized input. -/
theorem V1_v2 (c : Dev nD) : V1 m ρ c main_v2 = Cert.Net.binarize (m ((c : Thread nD τ).loc main_arg0)) := host_v2 m c

/-- A buffer the host operations do not write is as launched when the first region is entered. -/
theorem V1_keep (c : Dev nD) (b : Ref sig .tc) (hb : b ∉ ([main_cst, main_v0, main_v1, main_v2] : List (Ref sig .tc))) :
    V1 m ρ c b = m ((c : Thread nD τ).loc b) := host_keep m c b hb

/-- The first layer's output array after its region. -/
theorem a1_eq (c : Dev nD) : V2 m ρ c main_v3 = Cert.Net.layer (Cert.Net.binarize (m ((c : Thread nD τ).loc main_arg0))) (m ((c : Thread nD τ).loc main_arg1)) (m ((c : Thread nD τ).loc main_arg2)) := by
  have h := (V2_v3 m ρ c).trans (layer0_value (V1 m ρ) c)
  rw [V1_v2 m ρ c, V1_keep m ρ c main_arg1 (by decide), V1_keep m ρ c main_arg2 (by decide)] at h
  exact h

/-- The second layer's. -/
theorem a2_eq (c : Dev nD) : V3 m ρ c main_v4 = Cert.Net.layer (Cert.Net.layer (Cert.Net.binarize (m ((c : Thread nD τ).loc main_arg0))) (m ((c : Thread nD τ).loc main_arg1)) (m ((c : Thread nD τ).loc main_arg2))) (m ((c : Thread nD τ).loc main_arg3)) (m ((c : Thread nD τ).loc main_arg4)) := by
  have h := (V3_v4 m ρ c).trans (layer1_value (V2 m ρ) c)
  rw [a1_eq m ρ c, (V2_keep m ρ c main_arg3 (by decide)).trans (V1_keep m ρ c main_arg3 (by decide)), (V2_keep m ρ c main_arg4 (by decide)).trans (V1_keep m ρ c main_arg4 (by decide))] at h
  exact h

/-- The third layer's. -/
theorem a3_eq (c : Dev nD) : V4 m ρ c main_v5 = Cert.Net.layer (Cert.Net.layer (Cert.Net.layer (Cert.Net.binarize (m ((c : Thread nD τ).loc main_arg0))) (m ((c : Thread nD τ).loc main_arg1)) (m ((c : Thread nD τ).loc main_arg2))) (m ((c : Thread nD τ).loc main_arg3)) (m ((c : Thread nD τ).loc main_arg4))) (m ((c : Thread nD τ).loc main_arg5)) (m ((c : Thread nD τ).loc main_arg6)) := by
  have h := (V4_v5 m ρ c).trans (layer2_value (V3 m ρ) c)
  rw [a2_eq m ρ c, (V3_keep m ρ c main_arg5 (by decide)).trans ((V2_keep m ρ c main_arg5 (by decide)).trans (V1_keep m ρ c main_arg5 (by decide))), (V3_keep m ρ c main_arg6 (by decide)).trans ((V2_keep m ρ c main_arg6 (by decide)).trans (V1_keep m ρ c main_arg6 (by decide)))] at h
  exact h

/-- THE RESULT: after the last region the result array holds the network's scores of the argument arrays. -/
theorem kernel_value (c : Dev nD) :
    W5 m ρ c (Proc.devRef .tc main_v6)
      = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := (V5_v6 m ρ c).trans (final_value (V4 m ρ) c)
  rw [a3_eq m ρ c, (V4_keep m ρ c main_v4 (by decide)).trans (a2_eq m ρ c),
    ((V4_keep m ρ c main_v3 (by decide)).trans (V3_keep m ρ c main_v3 (by decide))).trans (a1_eq m ρ c),
    (V4_keep m ρ c main_arg7 (by decide)).trans ((V3_keep m ρ c main_arg7 (by decide)).trans ((V2_keep m ρ c main_arg7 (by decide)).trans (V1_keep m ρ c main_arg7 (by decide)))), (V4_keep m ρ c main_arg8 (by decide)).trans ((V3_keep m ρ c main_arg8 (by decide)).trans ((V2_keep m ρ c main_arg8 (by decide)).trans (V1_keep m ρ c main_arg8 (by decide)))), (V4_keep m ρ c main_arg9 (by decide)).trans ((V3_keep m ρ c main_arg9 (by decide)).trans ((V2_keep m ρ c main_arg9 (by decide)).trans (V1_keep m ρ c main_arg9 (by decide))))] at h
  exact h

end Cert.KernelIdeal.Net

end
-- ==== Proof.RefSide.lean ====
/-
  The reference program's side of the value claim: its run read back as one composed term of the argument arrays,
  and that term read one host operation at a time.  What is proved here is that the reference's result is the
  network's output function of the ten argument arrays (three thresholded layers, then the three products summed).
-/
import proofs.«162072_j90048284328142_1_alg».proof.Proof.Gen.ReferenceIdeal.Run
import proofs.«162072_j90048284328142_1_alg».proof.Proof.Gen.ReferenceIdeal.Read
import proofs.«162072_j90048284328142_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The input stage: the comparison with one half, read as a number, is the network's input bit at every index. -/
theorem input_bits (x0 : (⟨S64x2048, .f32⟩ : BufTy).Contents (Elt Ideal)) :
    val_main_v2 (F := Ideal) x0 = Cert.Net.binarize x0 := by
  funext i
  rw [val_main_v2_apply, val_main_v1_apply, val_main_v0_apply, val_main_cst_apply]
  rfl

/-- A thresholded pair of sums whose summands are, term by term, activation times synapse of neuron `h` on row `b`
    is that neuron's output. -/
theorem fires_of_summands {K : ℕ} (a : Cert.Net.Arr 64 K) (W0 W1 : Cert.Net.Arr 8192 K) (b : Fin 64) (h : Fin 8192)
    (s0 s1 : Fin K → EReal)
    (h0 : ∀ k, s0 k = a (ix2 b k) * W0 (ix2 h k)) (h1 : ∀ k, s1 k = a (ix2 b k) * W1 (ix2 h k)) :
    FloatOps.uitofp (F := Ideal) .f32
      (IntOp.ori
        (FloatOps.cmpf (F := Ideal) (φ := .f32) .oge (∑ k, s0 k) (FloatOps.ofBits (F := Ideal) .f32 0x40800000#32))
        (FloatOps.cmpf (F := Ideal) (φ := .f32) .oge (∑ k, s1 k) (FloatOps.ofBits (F := Ideal) .f32 0x40800000#32)))
      = Cert.Net.layerAt a W0 W1 b h := by
  rw [Finset.sum_congr rfl fun k _ => h0 k, Finset.sum_congr rfl fun k _ => h1 k]
  rfl

/-- Layer 1: each product with a transposed synapse matrix is the sum over the 2048 inputs of input bit times the
    synapse of the neuron's own row, so the stage is the network's layer on the input bits. -/
theorem first_layer (x0 : (⟨S64x2048, .f32⟩ : BufTy).Contents (Elt Ideal))
    (x1 x2 : (⟨S8192x2048, .f32⟩ : BufTy).Contents (Elt Ideal)) :
    val_main_v12 (F := Ideal) x0 x1 x2 = Cert.Net.layer (K := 2048) (val_main_v2 (F := Ideal) x0) x1 x2 := by
  funext i
  obtain ⟨b, h, rfl⟩ : ∃ b h, i = ix2 b h := ⟨i 0, i 1, eq_ix2 i⟩
  rw [val_main_v12_apply, val_main_v11_apply, val_main_v8_apply, val_main_v10_apply, val_main_v4_apply,
    val_main_v6_apply, val_main_v7_apply, val_main_v9_apply, val_main_cst_0_apply, val_main_cst_1_apply,
    Cert.Net.layer_ix2]
  refine fires_of_summands (K := 2048) _ x1 x2 b h _ _ (fun k => ?_) (fun k => ?_)
  · rw [val_main_v3_apply]
    have hl : lidx_main_v4 (ix2 b h) k = ix2 b k := funext fun a => by match a with | ⟨0, _⟩ => rfl | ⟨1, _⟩ => rfl
    have hr : idx_main_v3 (ridx_main_v4 (ix2 b h) k) = ix2 h k :=
      funext fun a => by match a with | ⟨0, _⟩ => rfl | ⟨1, _⟩ => rfl
    rw [hl, hr]
  · rw [val_main_v5_apply]
    have hl : lidx_main_v6 (ix2 b h) k = ix2 b k := funext fun a => by match a with | ⟨0, _⟩ => rfl | ⟨1, _⟩ => rfl
    have hr : idx_main_v5 (ridx_main_v6 (ix2 b h) k) = ix2 h k :=
      funext fun a => by match a with | ⟨0, _⟩ => rfl | ⟨1, _⟩ => rfl
    rw [hl, hr]

/-- Layer 2, on layer 1's output and the second pair of synapse matrices. -/
theorem second_layer (x0 : (⟨S64x2048, .f32⟩ : BufTy).Contents (Elt Ideal))
    (x1 x2 : (⟨S8192x2048, .f32⟩ : BufTy).Contents (Elt Ideal))
    (x3 x4 : (⟨S8192x8192, .f32⟩ : BufTy).Contents (Elt Ideal)) :
    val_main_v22 (F := Ideal) x0 x1 x2 x3 x4
      = Cert.Net.layer (K := 8192) (val_main_v12 (F := Ideal) x0 x1 x2) x3 x4 := by
  funext i
  obtain ⟨b, h, rfl⟩ : ∃ b h, i = ix2 b h := ⟨i 0, i 1, eq_ix2 i⟩
  rw [val_main_v22_apply, val_main_v21_apply, val_main_v18_apply, val_main_v20_apply, val_main_v14_apply,
    val_main_v16_apply, val_main_v17_apply, val_main_v19_apply, val_main_cst_2_apply, val_main_cst_3_apply,
    Cert.Net.layer_ix2]
  refine fires_of_summands (K := 8192) _ x3 x4 b h _ _ (fun k => ?_) (fun k => ?_)
  · rw [val_main_v13_apply]
    have hl : lidx_main_v14 (ix2 b h) k = ix2 b k := funext fun a => by match a with | ⟨0, _⟩ => rfl | ⟨1, _⟩ => rfl
    have hr : idx_main_v13 (ridx_main_v14 (ix2 b h) k) = ix2 h k :=
      funext fun a => by match a with | ⟨0, _⟩ => rfl | ⟨1, _⟩ => rfl
    rw [hl, hr]
  · rw [val_main_v15_apply]
    have hl : lidx_main_v16 (ix2 b h) k = ix2 b k := funext fun a => by match a with | ⟨0, _⟩ => rfl | ⟨1, _⟩ => rfl
    have hr : idx_main_v15 (ridx_main_v16 (ix2 b h) k) = ix2 h k :=
      funext fun a => by match a with | ⟨0, _⟩ => rfl | ⟨1, _⟩ => rfl
    rw [hl, hr]

/-- Layer 3, on layer 2's output and the third pair of synapse matrices. -/
theorem third_layer (x0 : (⟨S64x2048, .f32⟩ : BufTy).Contents (Elt Ideal))
    (x1 x2 : (⟨S8192x2048, .f32⟩ : BufTy).Contents (Elt Ideal))
    (x3 x4 x5 x6 : (⟨S8192x8192, .f32⟩ : BufTy).Contents (Elt Ideal)) :
    val_main_v32 (F := Ideal) x0 x1 x2 x3 x4 x5 x6
      = Cert.Net.layer (K := 8192) (val_main_v22 (F := Ideal) x0 x1 x2 x3 x4) x5 x6 := by
  funext i
  obtain ⟨b, h, rfl⟩ : ∃ b h, i = ix2 b h := ⟨i 0, i 1, eq_ix2 i⟩
  rw [val_main_v32_apply, val_main_v31_apply, val_main_v28_apply, val_main_v30_apply, val_main_v24_apply,
    val_main_v26_apply, val_main_v27_apply, val_main_v29_apply, val_main_cst_4_apply, val_main_cst_5_apply,
    Cert.Net.layer_ix2]
  refine fires_of_summands (K := 8192) _ x5 x6 b h _ _ (fun k => ?_) (fun k => ?_)
  · rw [val_main_v23_apply]
    have hl : lidx_main_v24 (ix2 b h) k = ix2 b k := funext fun a => by match a with | ⟨0, _⟩ => rfl | ⟨1, _⟩ => rfl
    have hr : idx_main_v23 (ridx_main_v24 (ix2 b h) k) = ix2 h k :=
      funext fun a => by match a with | ⟨0, _⟩ => rfl | ⟨1, _⟩ => rfl
    rw [hl, hr]
  · rw [val_main_v25_apply]
    have hl : lidx_main_v26 (ix2 b h) k = ix2 b k := funext fun a => by match a with | ⟨0, _⟩ => rfl | ⟨1, _⟩ => rfl
    have hr : idx_main_v25 (ridx_main_v26 (ix2 b h) k) = ix2 h k :=
      funext fun a => by match a with | ⟨0, _⟩ => rfl | ⟨1, _⟩ => rfl
    rw [hl, hr]

/-- Three sums whose summands are, term by term, a layer's activation on row `b` times its output strength for class
    `j`, added left to right, are that row's score for that class. -/
theorem score_of_summands (a1 a2 a3 : Cert.Net.Arr 64 8192) (O0 O1 O2 : Cert.Net.Arr 8192 100) (b : Fin 64) (j : Fin 100)
    (s1 s2 s3 : Fin 8192 → EReal)
    (h1 : ∀ k, s1 k = a1 (ix2 b k) * O0 (ix2 k j)) (h2 : ∀ k, s2 k = a2 (ix2 b k) * O1 (ix2 k j))
    (h3 : ∀ k, s3 k = a3 (ix2 b k) * O2 (ix2 k j)) :
    FloatOps.addf (F := Ideal) (φ := .f32) (FloatOps.addf (F := Ideal) (φ := .f32) (∑ k, s1 k) (∑ k, s2 k)) (∑ k, s3 k)
      = Cert.Net.logitsAt a1 a2 a3 O0 O1 O2 b j := by
  rw [Finset.sum_congr rfl fun k _ => h1 k, Finset.sum_congr rfl fun k _ => h2 k,
    Finset.sum_congr rfl fun k _ => h3 k]
  rfl

/-- The scores: the three products with the output-strength matrices, added in the reference's order, are the
    network's class scores of the three layers' outputs. -/
theorem scores (x0 : (⟨S64x2048, .f32⟩ : BufTy).Contents (Elt Ideal))
    (x1 x2 : (⟨S8192x2048, .f32⟩ : BufTy).Contents (Elt Ideal))
    (x3 x4 x5 x6 : (⟨S8192x8192, .f32⟩ : BufTy).Contents (Elt Ideal))
    (x7 x8 x9 : (⟨S8192x100, .f32⟩ : BufTy).Contents (Elt Ideal)) :
    val_main_v37 (F := Ideal) x0 x1 x2 x3 x4 x5 x6 x7 x8 x9
      = Cert.Net.logits (val_main_v12 (F := Ideal) x0 x1 x2) (val_main_v22 (F := Ideal) x0 x1 x2 x3 x4)
          (val_main_v32 (F := Ideal) x0 x1 x2 x3 x4 x5 x6) x7 x8 x9 := by
  funext i
  obtain ⟨b, j, rfl⟩ : ∃ b j, i = ix2 b j := ⟨i 0, i 1, eq_ix2 i⟩
  rw [val_main_v37_apply, val_main_v35_apply, val_main_v33_apply, val_main_v34_apply, val_main_v36_apply,
    Cert.Net.logits_ix2]
  refine score_of_summands _ _ _ x7 x8 x9 b j _ _ _ (fun k => ?_) (fun k => ?_) (fun k => ?_)
  · have hl : lidx_main_v33 (ix2 b j) k = ix2 b k := funext fun a => by match a with | ⟨0, _⟩ => rfl | ⟨1, _⟩ => rfl
    have hr : ridx_main_v33 (ix2 b j) k = ix2 k j := funext fun a => by match a with | ⟨0, _⟩ => rfl | ⟨1, _⟩ => rfl
    rw [hl, hr]
  · have hl : lidx_main_v34 (ix2 b j) k = ix2 b k := funext fun a => by match a with | ⟨0, _⟩ => rfl | ⟨1, _⟩ => rfl
    have hr : ridx_main_v34 (ix2 b j) k = ix2 k j := funext fun a => by match a with | ⟨0, _⟩ => rfl | ⟨1, _⟩ => rfl
    rw [hl, hr]
  · have hl : lidx_main_v36 (ix2 b j) k = ix2 b k := funext fun a => by match a with | ⟨0, _⟩ => rfl | ⟨1, _⟩ => rfl
    have hr : ridx_main_v36 (ix2 b j) k = ix2 k j := funext fun a => by match a with | ⟨0, _⟩ => rfl | ⟨1, _⟩ => rfl
    rw [hl, hr]

/-- The reference's result is the network's output function of the ten argument arrays. -/
theorem ref_eq_net (x0 : (⟨S64x2048, .f32⟩ : BufTy).Contents (Elt Ideal))
    (x1 x2 : (⟨S8192x2048, .f32⟩ : BufTy).Contents (Elt Ideal))
    (x3 x4 x5 x6 : (⟨S8192x8192, .f32⟩ : BufTy).Contents (Elt Ideal))
    (x7 x8 x9 : (⟨S8192x100, .f32⟩ : BufTy).Contents (Elt Ideal)) :
    Cert.ReferenceIdeal.Read.val_main_v37 (F := Ideal) x0 x1 x2 x3 x4 x5 x6 x7 x8 x9
      = Cert.Net.net x0 x1 x2 x3 x4 x5 x6 x7 x8 x9 := by
  rw [scores, third_layer, second_layer, first_layer, input_bits]
  rfl

end Cert.ReferenceIdeal.RefValue

end
-- ==== Proof.lean ====
/-
  The certificate's claims.  The two kernel programs' frames are the run of @main over its five segments (the host
  operations that binarize the input, then the three layers' and the scores' pallas_calls) read at the argument arrays,
  which no segment writes; the reference's frame is its run with the result dropped.  The idealization rewrote nothing, so
  there is nothing to preserve.  For the value claim both programs end with the network's scores of the ten argument
  arrays: the kernel's last region leaves in its output array the accumulator after its eighth point, which is the sum
  over the 8192 hidden neurons cut into eight blocks of 1024, each layer's output array being that layer of the array
  before it; the reference's composed term is the same function read one operation at a time.
-/
import proofs.«162072_j90048284328142_1_alg».proof.Defs
import proofs.«162072_j90048284328142_1_alg».proof.Proof.Gen.Kernel
import proofs.«162072_j90048284328142_1_alg».proof.Proof.Gen.Kernel.Skeleton
import proofs.«162072_j90048284328142_1_alg».proof.Proof.Gen.Kernel.Launch
import proofs.«162072_j90048284328142_1_alg».proof.Proof.Gen.Kernel.Regions
import proofs.«162072_j90048284328142_1_alg».proof.Proof.Gen.Kernel.Points
import proofs.«162072_j90048284328142_1_alg».proof.Proof.Gen.KernelIdeal
import proofs.«162072_j90048284328142_1_alg».proof.Proof.Gen.KernelIdeal.Skeleton
import proofs.«162072_j90048284328142_1_alg».proof.Proof.Gen.KernelIdeal.Launch
import proofs.«162072_j90048284328142_1_alg».proof.Proof.Gen.KernelIdeal.Regions
import proofs.«162072_j90048284328142_1_alg».proof.Proof.Gen.KernelIdeal.Points
import proofs.«162072_j90048284328142_1_alg».proof.Proof.Gen.ReferenceIdeal
import proofs.«162072_j90048284328142_1_alg».proof.Proof.Gen.Pre_finite_inputs
import proofs.«162072_j90048284328142_1_alg».proof.Proof.K.Run
import proofs.«162072_j90048284328142_1_alg».proof.Proof.KI.Value
import proofs.«162072_j90048284328142_1_alg».proof.Proof.RefSide
import Idealize.ShloMosaic.Adequacy
import Idealize.ShloMosaic.Init

noncomputable section

namespace Cert.Proof

open Idealize.ShloMosaic Idealize.SL.Sem

/-- The word-level kernel program runs to the end and leaves its ten argument arrays as launched. -/
theorem frame_k : Cert.frame_Kernel := fun m ρ _ =>
  (θ_run (Cert.Kernel.defs (F := Bits)) _ _).mono (fun r h c =>
    ⟨(h c _ (Cert.Kernel.Net.mem_uc Cert.Kernel.main_arg0 (by decide))).trans (Cert.Kernel.Net.W5_main_arg0 m ρ c),
      (h c _ (Cert.Kernel.Net.mem_uc Cert.Kernel.main_arg1 (by decide))).trans (Cert.Kernel.Net.W5_main_arg1 m ρ c),
      (h c _ (Cert.Kernel.Net.mem_uc Cert.Kernel.main_arg2 (by decide))).trans (Cert.Kernel.Net.W5_main_arg2 m ρ c),
      (h c _ (Cert.Kernel.Net.mem_uc Cert.Kernel.main_arg3 (by decide))).trans (Cert.Kernel.Net.W5_main_arg3 m ρ c),
      (h c _ (Cert.Kernel.Net.mem_uc Cert.Kernel.main_arg4 (by decide))).trans (Cert.Kernel.Net.W5_main_arg4 m ρ c),
      (h c _ (Cert.Kernel.Net.mem_uc Cert.Kernel.main_arg5 (by decide))).trans (Cert.Kernel.Net.W5_main_arg5 m ρ c),
      (h c _ (Cert.Kernel.Net.mem_uc Cert.Kernel.main_arg6 (by decide))).trans (Cert.Kernel.Net.W5_main_arg6 m ρ c),
      (h c _ (Cert.Kernel.Net.mem_uc Cert.Kernel.main_arg7 (by decide))).trans (Cert.Kernel.Net.W5_main_arg7 m ρ c),
      (h c _ (Cert.Kernel.Net.mem_uc Cert.Kernel.main_arg8 (by decide))).trans (Cert.Kernel.Net.W5_main_arg8 m ρ c),
      (h c _ (Cert.Kernel.Net.mem_uc Cert.Kernel.main_arg9 (by decide))).trans (Cert.Kernel.Net.W5_main_arg9 m ρ c)⟩)
    (Cert.Kernel.Net.run_all (F := Bits) m ρ)

/-- So does its idealization. -/
theorem frame_ki : Cert.frame_KernelIdeal := fun m ρ _ =>
  (θ_run (Cert.KernelIdeal.defs (F := Ideal)) _ _).mono (fun r h c =>
    ⟨(h c _ (Cert.KernelIdeal.Net.mem_uc Cert.KernelIdeal.main_arg0 (by decide))).trans (Cert.KernelIdeal.Net.W5_main_arg0 m ρ c),
      (h c _ (Cert.KernelIdeal.Net.mem_uc Cert.KernelIdeal.main_arg1 (by decide))).trans (Cert.KernelIdeal.Net.W5_main_arg1 m ρ c),
      (h c _ (Cert.KernelIdeal.Net.mem_uc Cert.KernelIdeal.main_arg2 (by decide))).trans (Cert.KernelIdeal.Net.W5_main_arg2 m ρ c),
      (h c _ (Cert.KernelIdeal.Net.mem_uc Cert.KernelIdeal.main_arg3 (by decide))).trans (Cert.KernelIdeal.Net.W5_main_arg3 m ρ c),
      (h c _ (Cert.KernelIdeal.Net.mem_uc Cert.KernelIdeal.main_arg4 (by decide))).trans (Cert.KernelIdeal.Net.W5_main_arg4 m ρ c),
      (h c _ (Cert.KernelIdeal.Net.mem_uc Cert.KernelIdeal.main_arg5 (by decide))).trans (Cert.KernelIdeal.Net.W5_main_arg5 m ρ c),
      (h c _ (Cert.KernelIdeal.Net.mem_uc Cert.KernelIdeal.main_arg6 (by decide))).trans (Cert.KernelIdeal.Net.W5_main_arg6 m ρ c),
      (h c _ (Cert.KernelIdeal.Net.mem_uc Cert.KernelIdeal.main_arg7 (by decide))).trans (Cert.KernelIdeal.Net.W5_main_arg7 m ρ c),
      (h c _ (Cert.KernelIdeal.Net.mem_uc Cert.KernelIdeal.main_arg8 (by decide))).trans (Cert.KernelIdeal.Net.W5_main_arg8 m ρ c),
      (h c _ (Cert.KernelIdeal.Net.mem_uc Cert.KernelIdeal.main_arg9 (by decide))).trans (Cert.KernelIdeal.Net.W5_main_arg9 m ρ c)⟩)
    (Cert.KernelIdeal.Net.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network's scores of the argument arrays. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run (Cert.KernelIdeal.defs (F := Ideal)) _ _).mono (fun r h c => ⟨?_,
      (h c _ (Cert.KernelIdeal.Net.mem_uc Cert.KernelIdeal.main_arg0 (by decide))).trans (Cert.KernelIdeal.Net.W5_main_arg0 m ρ c),
      (h c _ (Cert.KernelIdeal.Net.mem_uc Cert.KernelIdeal.main_arg1 (by decide))).trans (Cert.KernelIdeal.Net.W5_main_arg1 m ρ c),
      (h c _ (Cert.KernelIdeal.Net.mem_uc Cert.KernelIdeal.main_arg2 (by decide))).trans (Cert.KernelIdeal.Net.W5_main_arg2 m ρ c),
      (h c _ (Cert.KernelIdeal.Net.mem_uc Cert.KernelIdeal.main_arg3 (by decide))).trans (Cert.KernelIdeal.Net.W5_main_arg3 m ρ c),
      (h c _ (Cert.KernelIdeal.Net.mem_uc Cert.KernelIdeal.main_arg4 (by decide))).trans (Cert.KernelIdeal.Net.W5_main_arg4 m ρ c),
      (h c _ (Cert.KernelIdeal.Net.mem_uc Cert.KernelIdeal.main_arg5 (by decide))).trans (Cert.KernelIdeal.Net.W5_main_arg5 m ρ c),
      (h c _ (Cert.KernelIdeal.Net.mem_uc Cert.KernelIdeal.main_arg6 (by decide))).trans (Cert.KernelIdeal.Net.W5_main_arg6 m ρ c),
      (h c _ (Cert.KernelIdeal.Net.mem_uc Cert.KernelIdeal.main_arg7 (by decide))).trans (Cert.KernelIdeal.Net.W5_main_arg7 m ρ c),
      (h c _ (Cert.KernelIdeal.Net.mem_uc Cert.KernelIdeal.main_arg8 (by decide))).trans (Cert.KernelIdeal.Net.W5_main_arg8 m ρ c),
      (h c _ (Cert.KernelIdeal.Net.mem_uc Cert.KernelIdeal.main_arg9 (by decide))).trans (Cert.KernelIdeal.Net.W5_main_arg9 m ρ c)⟩)
      (Cert.KernelIdeal.Net.run_all (F := Ideal) m ρ)
    exact (h c _ (Cert.KernelIdeal.Net.mem_uc Cert.KernelIdeal.main_v6 (by decide))).trans (Cert.KernelIdeal.Net.kernel_value m ρ c)
  · refine (θ_run (Cert.ReferenceIdeal.defs (F := Ideal)) _ _).mono (fun r h c => ⟨(h c).1.trans ?_, (h c).2⟩)
      (Cert.ReferenceIdeal.Value.run (F := Ideal) m' ρ')
    rw [Cert.ReferenceIdeal.Read.val_main_v37_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]
    exact Cert.ReferenceIdeal.RefValue.ref_eq_net _ _ _ _ _ _ _ _ _ _

end Cert.Proof

namespace Cert.Proof

theorem claim : Cert.Claim := ⟨Cert.Kernel.Gen.facts, Cert.KernelIdeal.Gen.facts, Cert.ReferenceIdeal.Gen.facts, Cert.Pre_finite_inputs.Gen.facts,
  Cert.Proof.frame_k, Cert.Proof.frame_ki, Cert.Proof.frame_ri, trivial, Cert.Proof.algebraic⟩

end Cert.Proof

end
